-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S65536 : Shape := ⟨1, ![65536]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S65536 : S_.BroadcastsInDim S65536 (![] : Fin 0 → Fin S65536.rank)
  reducesTo_S65536_S_d0 : S65536.ReducesTo [0] S_

variable [Facts]

def fn_part1 {F : FTy → Type} [FloatOps F] (main_arg3 : IVec S65536 32) (main_v13 : IVec S_ 1) (main_v15 : IVec S65536 1) (main_c_5 : IVec S_ 32) : IVec S_ 1 :=
  let main_v16 : IVec S65536 32 := broadcastInDim S65536 ![] bcast_S_S65536 main_c_5
  let main_v17 : IVec S65536 1 := cmpi .slt main_arg3 main_v16
  let main_v18 : IVec S65536 1 := andi main_v15 main_v17
  let main_c_6 : IVec S_ 1 := constantI S_ 1 1#1
  let main_v19 : IVec S_ 1 := (fun x v => Host.reduce IntOp.andi x v reducesTo_S65536_S_d0 h_S_) main_v18 main_c_6
  let main_v20 : IVec S_ 1 := andi main_v13 main_v19
  main_v20

def fn {F : FTy → Type} [FloatOps F] (main_arg0 : FVec F S65536x256 .f32) (main_arg1 : FVec F S65536x256 .f32) (main_arg2 : FVec F S65536x256 .f32) (main_arg3 : IVec S65536 32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S65536x256 .f32 := Host.absf main_arg2
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  let main_c_4 : IVec S_ 32 := constantI S_ 32 0#32
  let main_v14 : IVec S65536 32 := broadcastInDim S65536 ![] bcast_S_S65536 main_c_4
  let main_v15 : IVec S65536 1 := cmpi .sge main_arg3 main_v14
  let main_c_5 : IVec S_ 32 := constantI S_ 32 80#32
  fn_part1 (F := F) main_arg3 main_v13 main_v15 main_c_5
-- ==== Kernel.lean ====
abbrev S65536x256 : Shape := ⟨2, ![65536, 256]⟩
abbrev S65536 : Shape := ⟨1, ![65536]⟩
abbrev S65536x1 : Shape := ⟨2, ![65536, 1]⟩
abbrev S2x128x256 : Shape := ⟨3, ![2, 128, 256]⟩
abbrev S2x1x128 : Shape := ⟨3, ![2, 1, 128]⟩
abbrev S1024x256 : Shape := ⟨2, ![1024, 256]⟩
abbrev S1024x1 : Shape := ⟨2, ![1024, 1]⟩
abbrev S1x128x256 : Shape := ⟨3, ![1, 128, 256]⟩
abbrev S1x1x128 : Shape := ⟨3, ![1, 1, 128]⟩
abbrev S128x256 : Shape := ⟨2, ![128, 256]⟩
abbrev S1x128 : Shape := ⟨2, ![1, 128]⟩
abbrev S1024 : Shape := ⟨1, ![1024]⟩
abbrev S1024x128 : Shape := ⟨2, ![1024, 128]⟩
abbrev S128 : Shape := ⟨1, ![128]⟩
abbrev S_ : Shape := ⟨0, ![]⟩
abbrev S128x1 : Shape := ⟨2, ![128, 1]⟩

abbrev nBuf : Space → Nat
  | .hbm => 38
  | .vmem => 17
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S65536, .i32⟩
  | .hbm, ⟨4, _⟩ => ⟨S65536x1, .i32⟩
  | .hbm, ⟨5, _⟩ => ⟨S2x128x256, .f32⟩
  | .hbm, ⟨6, _⟩ => ⟨S2x1x128, .f32⟩
  | .hbm, ⟨7, _⟩ => ⟨S2x1x128, .f32⟩
  | .hbm, ⟨8, _⟩ => ⟨S_, .f32⟩
  | .hbm, ⟨9, _⟩ => ⟨S128x256, .f32⟩
  | .hbm, ⟨10, _⟩ => ⟨S_, .f32⟩
  | .hbm, ⟨11, _⟩ => ⟨S1x128, .f32⟩
  | .hbm, ⟨12, _⟩ => ⟨S128x1, .f32⟩
  | .hbm, ⟨13, _⟩ => ⟨S_, .f32⟩
  | .hbm, ⟨14, _⟩ => ⟨S1x128, .f32⟩
  | .hbm, ⟨15, _⟩ => ⟨S128x1, .f32⟩
  | .hbm, ⟨16, _⟩ => ⟨S_, .f32⟩
  | .hbm, ⟨17, _⟩ => ⟨S128x1, .f32⟩
  | .hbm, ⟨18, _⟩ => ⟨S128x1, .f32⟩
  | .hbm, ⟨19, _⟩ => ⟨S128x256, .f32⟩
  | .hbm, ⟨20, _⟩ => ⟨S128x256, .f32⟩
  | .hbm, ⟨21, _⟩ => ⟨S_, .f32⟩
  | .hbm, ⟨22, _⟩ => ⟨S128x256, .f32⟩
  | .hbm, ⟨23, _⟩ => ⟨S128x256, .f32⟩
  | .hbm, ⟨24, _⟩ => ⟨S128x256, .f32⟩
  | .hbm, ⟨25, _⟩ => ⟨S128x256, .f32⟩
  | .hbm, ⟨26, _⟩ => ⟨S_, .f32⟩
  | .hbm, ⟨27, _⟩ => ⟨S128, .f32⟩
  | .hbm, ⟨28, _⟩ => ⟨S128x1, .f32⟩
  | .hbm, ⟨29, _⟩ => ⟨S_, .f32⟩
  | .hbm, ⟨30, _⟩ => ⟨S128x1, .f32⟩
  | .hbm, ⟨31, _⟩ => ⟨S128x1, .f32⟩
  | .hbm, ⟨32, _⟩ => ⟨S128x1, .f32⟩
  | .hbm, ⟨33, _⟩ => ⟨S128x1, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x1, .i32⟩
  | .local _ .vmem, ⟨7, _⟩ => ⟨S1024x1, .i32⟩
  | .local _ .vmem, ⟨8, _⟩ => ⟨S1x128x256, .f32⟩
  | .local _ .vmem, ⟨9, _⟩ => ⟨S1x128x256, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S128x256, .f32⟩
  | .local _ .vmem, ⟨15, _⟩ => ⟨S1x128, .f32⟩
  | .local _ .vmem, ⟨16, _⟩ => ⟨S1x128, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v105 : BitVec 1 := Scalar.cmpi .eq arg1 c31_i32
  let v106 : BitVec 32 := Scalar.extui v105
  let c0_i32_46 : BitVec 32 := 0#32
  let v107 : BitVec 1 := Scalar.cmpi .ne v106 c0_i32_46
  v107

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S65536_S65536x1 : S65536.ShapeCasts S65536x1
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x128_d1_w32 : S1024x128.Iotas .tc 32 [1]
  broadcasts_S1024x1_S1024x128 : S1024x1.Broadcasts S1024x128
  natLt_1_32 : 1 < 32
  reduces_S1024x128_S128 : S1024x128.Reduces [0] S128
  shapeCasts_S128_S1x128 : S128.ShapeCasts S1x128
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  shapeCasts_S128x256_S1x128x256 : S128x256.ShapeCasts S1x128x256
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  reducesTo_S2x128x256_S128x256_d0 : S2x128x256.ReducesTo [0] S128x256
  h_S_ : 0 < S_.numel
  reducesTo_S2x1x128_S1x128_d0 : S2x1x128.ReducesTo [0] S1x128
  shapeCasts_S1x128_S128x1 : S1x128.ShapeCasts S128x1
  bcast_S_S128x1 : S_.BroadcastsInDim S128x1 (![] : Fin 0 → Fin S128x1.rank)
  bcast_S128x1_S128x256_0_1 : S128x1.BroadcastsInDim S128x256 (![0, 1] : Fin 2 → Fin S128x256.rank)
  bcast_S_S128x256 : S_.BroadcastsInDim S128x256 (![] : Fin 0 → Fin S128x256.rank)
  reducesTo_S128x256_S128_d1 : S128x256.ReducesTo [1] S128
  bcast_S128_S128x1_0 : S128.BroadcastsInDim S128x1 (![0] : Fin 1 → Fin S128x1.rank)
  reducesTo_S128x1_S_d0_1 : S128x1.ReducesTo [0, 1] S_
  dot_S1024x128_S1024x256_S128x256_0_0_1_1_n_n_wf : DotDims.WF S1024x128 S1024x256 S128x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S65536x256.size a
  hwx0_1 : ∀ i : grid0.Coords, EltTy.bits .f32 = 32 ∨ (Rect.block (s := S65536x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S65536x256.size a
  hwx0_2 : ∀ i : grid0.Coords, EltTy.bits .f32 = 32 ∨ (Rect.block (s := S65536x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S65536x1.size a
  hwx0_3 : ∀ i : grid0.Coords, EltTy.bits .i32 = 32 ∨ (Rect.block (s := S65536x1) S1024x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x256.size a ≤ S2x128x256.size a
  hwx0_4 : ∀ i : grid0.Coords, EltTy.bits .f32 = 32 ∨ (Rect.block (s := S2x128x256) S1x128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S2x1x128.size a
  hwx0_5 : ∀ i : grid0.Coords, EltTy.bits .f32 = 32 ∨ (Rect.block (s := S2x1x128) S1x1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S2x1x128.size a
  hwx0_6 : ∀ i : grid0.Coords, EltTy.bits .f32 = 32 ∨ (Rect.block (s := S2x1x128) S1x1x128.size (cc0_transform_6 i) (hinb0_6 i)).WholeWords (EltTy.packing .f32)

variable [Facts₀]

def dot_S1024x128_S1024x256_S128x256_0_0_1_1_n_n : DotDims S1024x128 S1024x256 S128x256 where
  lhsContracting := [0]
  rhsContracting := [0]
  lhsNonContracting := [1]
  rhsNonContracting := [1]
  lhsBatch := []
  rhsBatch := []
  wf := dot_S1024x128_S1024x256_S128x256_0_0_1_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x128x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x1x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_2) S1x1x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S65536x256 : Shape := ⟨2, ![65536, 256]⟩
abbrev S65536 : Shape := ⟨1, ![65536]⟩
abbrev S_ : Shape := ⟨0, ![]⟩
abbrev S65536x1 : Shape := ⟨2, ![65536, 1]⟩
abbrev S196608x256 : Shape := ⟨2, ![196608, 256]⟩
abbrev S196608 : Shape := ⟨1, ![196608]⟩
abbrev S80 : Shape := ⟨1, ![80]⟩
abbrev S196608x1 : Shape := ⟨2, ![196608, 1]⟩
abbrev S80x256 : Shape := ⟨2, ![80, 256]⟩
abbrev S80x1 : Shape := ⟨2, ![80, 1]⟩

abbrev nBuf : Space → Nat
  | .hbm => 103
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S65536, .i32⟩
  | .hbm, ⟨4, _⟩ => ⟨S65536x256, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S65536x256, .f32⟩
  | .hbm, ⟨13, _⟩ => ⟨S65536x256, .f32⟩
  | .hbm, ⟨14, _⟩ => ⟨S65536x256, .f32⟩
  | .hbm, ⟨15, _⟩ => ⟨S_, .f32⟩
  | .hbm, ⟨16, _⟩ => ⟨S65536, .f32⟩
  | .hbm, ⟨17, _⟩ => ⟨S65536x1, .f32⟩
  | .hbm, ⟨18, _⟩ => ⟨S65536x1, .f32⟩
  | .hbm, ⟨19, _⟩ => ⟨S_, .f32⟩
  | .hbm, ⟨20, _⟩ => ⟨S65536x1, .f32⟩
  | .hbm, ⟨21, _⟩ => ⟨S65536x1, .f32⟩
  | .hbm, ⟨22, _⟩ => ⟨S65536x256, .f32⟩
  | .hbm, ⟨23, _⟩ => ⟨S65536x256, .f32⟩
  | .hbm, ⟨24, _⟩ => ⟨S65536x256, .f32⟩
  | .hbm, ⟨25, _⟩ => ⟨S_, .f32⟩
  | .hbm, ⟨26, _⟩ => ⟨S65536, .f32⟩
  | .hbm, ⟨27, _⟩ => ⟨S65536x1, .f32⟩
  | .hbm, ⟨28, _⟩ => ⟨S65536x1, .f32⟩
  | .hbm, ⟨29, _⟩ => ⟨S_, .f32⟩
  | .hbm, ⟨30, _⟩ => ⟨S65536x1, .f32⟩
  | .hbm, ⟨31, _⟩ => ⟨S65536x1, .f32⟩
  | .hbm, ⟨32, _⟩ => ⟨S65536x256, .f32⟩
  | .hbm, ⟨33, _⟩ => ⟨S65536x256, .f32⟩
  | .hbm, ⟨34, _⟩ => ⟨S196608x256, .f32⟩
  | .hbm, ⟨35, _⟩ => ⟨S196608, .i32⟩
  | .hbm, ⟨36, _⟩ => ⟨S_, .f32⟩
  | .hbm, ⟨37, _⟩ => ⟨S196608, .f32⟩
  | .hbm, ⟨38, _⟩ => ⟨S_, .f32⟩
  | .hbm, ⟨39, _⟩ => ⟨S80, .f32⟩
  | .hbm, ⟨40, _⟩ => ⟨S196608x1, .i32⟩
  | .hbm, ⟨41, _⟩ => ⟨S80, .f32⟩
  | .hbm, ⟨42, _⟩ => ⟨S_, .f32⟩
  | .hbm, ⟨43, _⟩ => ⟨S80x256, .f32⟩
  | .hbm, ⟨44, _⟩ => ⟨S196608x1, .i32⟩
  | .hbm, ⟨45, _⟩ => ⟨S80x256, .f32⟩
  | .hbm, ⟨46, _⟩ => ⟨S_, .f32⟩
  | .hbm, ⟨47, _⟩ => ⟨S80, .f32⟩
  | .hbm, ⟨48, _⟩ => ⟨S80, .f32⟩
  | .hbm, ⟨49, _⟩ => ⟨S80x1, .f32⟩
  | .hbm, ⟨50, _⟩ => ⟨S80x256, .f32⟩
  | .hbm, ⟨51, _⟩ => ⟨S80x256, .f32⟩
  | .hbm, ⟨52, _⟩ => ⟨S_, .f32⟩
  | .hbm, ⟨53, _⟩ => ⟨S_, .f32⟩
  | .hbm, ⟨54, _⟩ => ⟨S80x256, .f32⟩
  | .hbm, ⟨55, _⟩ => ⟨S80x256, .f32⟩
  | .hbm, ⟨56, _⟩ => ⟨S80x256, .f32⟩
  | .hbm, ⟨57, _⟩ => ⟨S_, .i32⟩
  | .hbm, ⟨58, _⟩ => ⟨S196608, .i32⟩
  | .hbm, ⟨59, _⟩ => ⟨S196608, .i1⟩
  | .hbm, ⟨60, _⟩ => ⟨S_, .i32⟩
  | .hbm, ⟨61, _⟩ => ⟨S196608, .i32⟩
  | .hbm, ⟨62, _⟩ => ⟨S196608, .i32⟩
  | .hbm, ⟨63, _⟩ => ⟨S196608, .i32⟩
  | .hbm, ⟨64, _⟩ => ⟨S196608x1, .i32⟩
  | .hbm, ⟨65, _⟩ => ⟨S196608x256, .f32⟩
  | .hbm, ⟨66, _⟩ => ⟨S_, .i32⟩
  | .hbm, ⟨67, _⟩ => ⟨S196608, .i32⟩
  | .hbm, ⟨68, _⟩ => ⟨S196608, .i1⟩
  | .hbm, ⟨69, _⟩ => ⟨S_, .i32⟩
  | .hbm, ⟨70, _⟩ => ⟨S196608, .i32⟩
  | .hbm, ⟨71, _⟩ => ⟨S196608, .i32⟩
  | .hbm, ⟨72, _⟩ => ⟨S196608, .i32⟩
  | .hbm, ⟨73, _⟩ => ⟨S196608x1, .i32⟩
  | .hbm, ⟨74, _⟩ => ⟨S196608, .f32⟩
  | .hbm, ⟨75, _⟩ => ⟨S_, .f32⟩
  | .hbm, ⟨76, _⟩ => ⟨S196608x256, .f32⟩
  | .hbm, ⟨77, _⟩ => ⟨S196608x256, .i1⟩
  | .hbm, ⟨78, _⟩ => ⟨S_, .f32⟩
  | .hbm, ⟨79, _⟩ => ⟨S_, .f32⟩
  | .hbm, ⟨80, _⟩ => ⟨S196608x256, .f32⟩
  | .hbm, ⟨81, _⟩ => ⟨S196608x256, .f32⟩
  | .hbm, ⟨82, _⟩ => ⟨S_, .f32⟩
  | .hbm, ⟨83, _⟩ => ⟨S196608x256, .f32⟩
  | .hbm, ⟨84, _⟩ => ⟨S196608x256, .i1⟩
  | .hbm, ⟨85, _⟩ => ⟨S196608x256, .f32⟩
  | .hbm, ⟨86, _⟩ => ⟨S196608x256, .f32⟩
  | .hbm, ⟨87, _⟩ => ⟨S_, .f32⟩
  | .hbm, ⟨88, _⟩ => ⟨S_, .f32⟩
  | .hbm, ⟨89, _⟩ => ⟨S196608x256, .f32⟩
  | .hbm, ⟨90, _⟩ => ⟨S196608x256, .f32⟩
  | .hbm, ⟨91, _⟩ => ⟨S196608x256, .f32⟩
  | .hbm, ⟨92, _⟩ => ⟨S196608x256, .f32⟩
  | .hbm, ⟨93, _⟩ => ⟨S_, .f32⟩
  | .hbm, ⟨94, _⟩ => ⟨S196608, .f32⟩
  | .hbm, ⟨95, _⟩ => ⟨S_, .f32⟩
  | .hbm, ⟨96, _⟩ => ⟨S196608, .f32⟩
  | .hbm, ⟨97, _⟩ => ⟨S196608, .f32⟩
  | .hbm, ⟨98, _⟩ => ⟨S196608, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_call0_v0 : Ref sig .tc := ⟨.hbm, 53, rfl⟩
abbrev main_call0_v1 : Ref sig .tc := ⟨.hbm, 54, rfl⟩
abbrev main_v38 : Ref sig .tc := ⟨.hbm, 55, rfl⟩
abbrev main_v39 : Ref sig .tc := ⟨.hbm, 56, rfl⟩
abbrev main_c : Ref sig .tc := ⟨.hbm, 57, rfl⟩
abbrev main_v40 : Ref sig .tc := ⟨.hbm, 58, rfl⟩
abbrev main_v41 : Ref sig .tc := ⟨.hbm, 59, rfl⟩
abbrev main_c_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_11 : Ref sig .tc := ⟨.hbm, 66, rfl⟩
abbrev main_v47 : Ref sig .tc := ⟨.hbm, 67, rfl⟩
abbrev main_v48 : Ref sig .tc := ⟨.hbm, 68, rfl⟩
abbrev main_c_12 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_13 : Ref sig .tc := ⟨.hbm, 75, rfl⟩
abbrev main_v54 : Ref sig .tc := ⟨.hbm, 76, rfl⟩
abbrev main_v55 : Ref sig .tc := ⟨.hbm, 77, rfl⟩
abbrev main_cst_14 : Ref sig .tc := ⟨.hbm, 78, rfl⟩
abbrev main_call1_v0 : Ref sig .tc := ⟨.hbm, 79, rfl⟩
abbrev main_call1_v1 : Ref sig .tc := ⟨.hbm, 80, rfl⟩
abbrev main_v56 : Ref sig .tc := ⟨.hbm, 81, rfl⟩
abbrev main_cst_15 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_16 : Ref sig .tc := ⟨.hbm, 87, rfl⟩
abbrev main_call2_v0 : Ref sig .tc := ⟨.hbm, 88, rfl⟩
abbrev main_call2_v1 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_17 : Ref sig .tc := ⟨.hbm, 93, rfl⟩
abbrev main_v64 : Ref sig .tc := ⟨.hbm, 94, rfl⟩
abbrev main_cst_18 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_19 : Ref sig .tc := ⟨.hbm, 99, rfl⟩
abbrev main_v68 : Ref sig .tc := ⟨.hbm, 100, rfl⟩
abbrev main_cst_20 : Ref sig .tc := ⟨.hbm, 101, rfl⟩
abbrev main_v69 : Ref sig .tc := ⟨.hbm, 102, rfl⟩

abbrev nD : Nat := 1
abbrev τ : Topo := Topo.v7x

variable {F : FTy → Type} [FloatOps F]

class Facts₀ : Prop where
  reducesTo_S65536x256_S65536_d1 : S65536x256.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x256_0_1 : S65536x1.BroadcastsInDim S65536x256 (![0, 1] : Fin 2 → Fin S65536x256.rank)
  concatenates_S65536x256_S65536x256_S65536x256_S196608x256_d0 : Shape.Concatenates [S65536x256, S65536x256, S65536x256] S196608x256 0
  concatenates_S65536_S65536_S65536_S196608_d0 : Shape.Concatenates [S65536, S65536, S65536] S196608 0
  bcast_S_S196608 : S_.BroadcastsInDim S196608 (![] : Fin 0 → Fin S196608.rank)
  bcast_S_S80 : S_.BroadcastsInDim S80 (![] : Fin 0 → Fin S80.rank)
  bcast_S196608_S196608x1_0 : S196608.BroadcastsInDim S196608x1 (![0] : Fin 1 → Fin S196608x1.rank)
  bcast_S_S80x256 : S_.BroadcastsInDim S80x256 (![] : Fin 0 → Fin S80x256.rank)
  bcast_S80_S80x1_0 : S80.BroadcastsInDim S80x1 (![0] : Fin 1 → Fin S80x1.rank)
  bcast_S80x1_S80x256_0_1 : S80x1.BroadcastsInDim S80x256 (![0, 1] : Fin 2 → Fin S80x256.rank)
  bcast_S_S196608x256 : S_.BroadcastsInDim S196608x256 (![] : Fin 0 → Fin S196608x256.rank)
  reducesTo_S196608x256_S196608_d1 : S196608x256.ReducesTo [1] S196608
  reducesTo_S196608_S_d0 : S196608.ReducesTo [0] S_
  scatter_S80_S196608x1_S196608_n_0_0_1_wf : ScatterDims.WF S80 S196608x1 S196608 [] [0] [0] 1
  scatter_S80x256_S196608x1_S196608x256_1_0_0_1_wf : ScatterDims.WF S80x256 S196608x1 S196608x256 [1] [0] [0] 1
  gather_S80x256_S196608x1_S196608x256_1_0_n_n_0_1_1256_wf : GatherDims.WF S80x256 S196608x1 S196608x256 [1] [0] [] [0] [] 1 ![1, 256]
  gather_S80_S196608x1_S196608_n_0_n_n_0_1_1_wf : GatherDims.WF S80 S196608x1 S196608 [] [0] [] [0] [] 1 ![1]

variable [Facts₀]

def scatter_S80_S196608x1_S196608_n_0_0_1 : ScatterDims S80 S196608x1 S196608 where
  updateWindowDims := []
  insertedWindowDims := [0]
  scatterDimsToOperandDims := [0]
  indexVectorDim := 1
  wf := scatter_S80_S196608x1_S196608_n_0_0_1_wf
def scatter_S80x256_S196608x1_S196608x256_1_0_0_1 : ScatterDims S80x256 S196608x1 S196608x256 where
  updateWindowDims := [1]
  insertedWindowDims := [0]
  scatterDimsToOperandDims := [0]
  indexVectorDim := 1
  wf := scatter_S80x256_S196608x1_S196608x256_1_0_0_1_wf
def gather_S80x256_S196608x1_S196608x256_1_0_n_n_0_1_1256 : GatherDims S80x256 S196608x1 S196608x256 where
  offsetDims := [1]
  collapsedSliceDims := [0]
  operandBatchingDims := []
  startIndicesBatchingDims := []
  startIndexMap := [0]
  indexVectorDim := 1
  sliceSizes := ![1, 256]
  wf := gather_S80x256_S196608x1_S196608x256_1_0_n_n_0_1_1256_wf
def gather_S80_S196608x1_S196608_n_0_n_n_0_1_1 : GatherDims S80 S196608x1 S196608 where
  offsetDims := []
  collapsedSliceDims := [0]
  operandBatchingDims := []
  startIndicesBatchingDims := []
  startIndexMap := [0]
  indexVectorDim := 1
  sliceSizes := ![1]
  wf := gather_S80_S196608x1_S196608_n_0_n_n_0_1_1_wf

class Facts : Prop extends Facts₀ where

variable [Facts]
-- ==== Proof.Spec.lean ====
/-
  The supervised Jensen–Shannon loss as functions of the argument arrays, over the extended reals.

  Three row blocks `x0 x1 x2` of 65536 rows by 256 columns are L2-normalised row by row (`prob`), a row's entropy term
  is the mean over its columns of `p · log p` (`ent`, with `0 · log 0 = 0`), and rows are grouped by an integer label.
  For a class `c` the statistics are the sum of its normalised rows (`seg`), three times its number of rows (`cnt`)
  and the sum of its rows' entropy terms (`tsum`); the class contributes
  `(tsum c - mean_d (seg c d · log (max (seg c d / max (cnt c) 1) ε))) / max (cnt c) 1`, and the loss is a fixed weight
  times the sum of the contributions.

  The same number is written three ways: with the class statistics summed core by core, step by step and row by row
  (`lossK`), with them summed over all rows at once (`lossC`), and row by row over the three blocks laid end to end,
  each row against the logarithm of its own class's mean (`lossR`).
-/
import Idealize.ShloMosaic.PureOps.Ideal
import Idealize.ShloMosaic.Lib.ValueIdx

noncomputable section

namespace Cert.Spec

open Idealize.ShloMosaic Idealize.ShloMosaic.ValueIdx
open scoped BigOperators

/-- One argument array, by row and column. -/
abbrev Rows := Fin 65536 → Fin 256 → EReal
/-- The label words, by row. -/
abbrev Labels := Fin 65536 → BitVec 32

/-- An array of shape [65536, 256] read by row and column. -/
def rows (X : (⟨2, ![65536, 256]⟩ : Shape).Idx → EReal) : Rows := fun i d => X (ix2 i d)
/-- An array of shape [65536] of words read by row. -/
def labs (X : (⟨1, ![65536]⟩ : Shape).Idx → BitVec 32) : Labels := fun i => X (ix1 i)

/-! ## The literals, as the extended reals their words denote -/

def eps12 : EReal := Ideal.ofBits .f32 0x2B8CBCCC#32
def eps7 : EReal := Ideal.ofBits .f32 0x33D6BF95#32
def c256 : EReal := Ideal.ofBits .f32 0x43800000#32
def c1 : EReal := Ideal.ofBits .f32 0x3F800000#32
def c3 : EReal := Ideal.ofBits .f32 0x40400000#32
def wgt : EReal := Ideal.ofBits .f32 0x3C23D70A#32

/-! ## One row -/

/-- The L2-normalised entry: the entry over its row's norm, the norm kept above `eps12`. -/
def prob (x : Rows) (i : Fin 65536) (d : Fin 256) : EReal :=
  Ideal.div (x i d) (max (Ideal.sqrt (∑ k : Fin 256, x i k * x i k)) eps12)

/-- `v · log v`, with the value `0` at `v = 0`. -/
def xlogx (v : EReal) : EReal := if v = 0 then 0 else v * Ideal.log (if v = 0 then c1 else v)

/-- A row's entropy term: the mean over the columns of `xlogx` of the normalised entries. -/
def ent (x : Rows) (i : Fin 65536) : EReal := Ideal.div (∑ d : Fin 256, xlogx (prob x i d)) c256

/-- The three blocks' normalised entries added. -/
def comb (x0 x1 x2 : Rows) (i : Fin 65536) (d : Fin 256) : EReal := (prob x0 i d + prob x1 i d) + prob x2 i d

/-- The three blocks' entropy terms added. -/
def ents (x0 x1 x2 : Rows) (i : Fin 65536) : EReal := (ent x0 i + ent x1 i) + ent x2 i

/-- Row `i` has label `c`: `1` or `0`. -/
def hot (L : Labels) (i : Fin 65536) (c : ℕ) : EReal := if (L i).toNat = c then 1 else 0

/-! ## What a class contributes, from its three statistics -/

/-- The class count kept at least one. -/
def clampCnt (n : EReal) : EReal := max n c1

/-- A class's contribution from its summed rows `s`, its count `n` and its summed entropy terms `t`. -/
def perClass (s : Fin 256 → EReal) (n t : EReal) : EReal :=
  Ideal.div (t - Ideal.div (∑ d : Fin 256, s d * Ideal.log (max (Ideal.div (s d) (clampCnt n)) eps7)) c256) (clampCnt n)

/-! ## The loss with the statistics summed core by core, step by step, row by row -/

/-- Row `r` of step `s` of core `k`: 2 cores of 32 steps of 1024 rows. -/
def rowOf (k : Fin 2) (s : Fin 32) (r : Fin 1024) : Fin 65536 := ⟨(k.val * 32 + s.val) * 1024 + r.val, by omega⟩

def segPC (x0 x1 x2 : Rows) (L : Labels) (k : Fin 2) (c : ℕ) (d : Fin 256) : EReal :=
  ∑ s : Fin 32, ∑ r : Fin 1024, hot L (rowOf k s r) c * comb x0 x1 x2 (rowOf k s r) d
def cntPC (L : Labels) (k : Fin 2) (c : ℕ) : EReal :=
  (∑ s : Fin 32, ∑ r : Fin 1024, hot L (rowOf k s r) c) * c3
def tPC (x0 x1 x2 : Rows) (L : Labels) (k : Fin 2) (c : ℕ) : EReal :=
  ∑ s : Fin 32, ∑ r : Fin 1024, hot L (rowOf k s r) c * ents x0 x1 x2 (rowOf k s r)

def lossK (x0 x1 x2 : Rows) (L : Labels) : EReal :=
  wgt * ∑ c : Fin 128, perClass (fun d => ∑ k : Fin 2, segPC x0 x1 x2 L k c.val d) (∑ k : Fin 2, cntPC L k c.val)
    (∑ k : Fin 2, tPC x0 x1 x2 L k c.val)

/-! ## The loss with the statistics summed over all rows at once -/

def seg (x0 x1 x2 : Rows) (L : Labels) (c : ℕ) (d : Fin 256) : EReal := ∑ i : Fin 65536, hot L i c * comb x0 x1 x2 i d
def cnt (L : Labels) (c : ℕ) : EReal := (∑ i : Fin 65536, hot L i c) * c3
def tsum (x0 x1 x2 : Rows) (L : Labels) (c : ℕ) : EReal := ∑ i : Fin 65536, hot L i c * ents x0 x1 x2 i

def lossC (x0 x1 x2 : Rows) (L : Labels) : EReal :=
  wgt * ∑ c : Fin 128, perClass (seg x0 x1 x2 L c.val) (cnt L c.val) (tsum x0 x1 x2 L c.val)

/-! ## The loss row by row over the three blocks laid end to end -/

/-- The row of the arguments that row `j` of the joined array comes from. -/
def rowOf3 (j : Fin 196608) : Fin 65536 := ⟨j.val % 65536, Nat.mod_lt _ (by norm_num)⟩

/-- The joined array of normalised entries: block 0, then block 1, then block 2. -/
def prob3 (x0 x1 x2 : Rows) (j : Fin 196608) (d : Fin 256) : EReal :=
  if j.val < 65536 then prob x0 (rowOf3 j) d else if j.val < 131072 then prob x1 (rowOf3 j) d else prob x2 (rowOf3 j) d

/-- The class of row `j` of the joined array. -/
def cls3 (L : Labels) (j : Fin 196608) : ℕ := (L (rowOf3 j)).toNat

/-- How many joined rows have class `c`. -/
def cntR (L : Labels) (c : ℕ) : EReal := ∑ j : Fin 196608, if cls3 L j = c then c1 else 0
/-- The sum of the joined rows of class `c`. -/
def segR (x0 x1 x2 : Rows) (L : Labels) (c : ℕ) (d : Fin 256) : EReal :=
  ∑ j : Fin 196608, if cls3 L j = c then prob3 x0 x1 x2 j d else 0
/-- The logarithm of class `c`'s mean row, the mean kept above `eps7`. -/
def logMixR (x0 x1 x2 : Rows) (L : Labels) (c : ℕ) (d : Fin 256) : EReal :=
  Ideal.log (max eps7 (Ideal.div (segR x0 x1 x2 L c d) (max (cntR L c) c1)))

/-- One joined row's term: the mean over the columns of `p log p - p · logMix`, over its class's count. -/
def rowR (x0 x1 x2 : Rows) (L : Labels) (j : Fin 196608) : EReal :=
  Ideal.div (Ideal.div (∑ d : Fin 256, (xlogx (prob3 x0 x1 x2 j d) - prob3 x0 x1 x2 j d * logMixR x0 x1 x2 L (cls3 L j) d)) c256)
    (cntR L (cls3 L j))

def lossR (x0 x1 x2 : Rows) (L : Labels) : EReal := wgt * ∑ j : Fin 196608, rowR x0 x1 x2 L j

end Cert.Spec

end
-- ==== Proof.KCommon.lean ====
/-
  Shared vocabulary for reading the kernel's run: the four input blocks of a grid point at their literal shapes, the
  row of the arguments that row `r` of point `t`'s block is (`1024 t + r`), a core's last point (`32 k + 31`), and
  the argument arrays read by row and column.
-/
import proofs.«406337_j8349416423452_2_alg».proof.Proof.Gen.KernelIdeal.Frame
import proofs.«406337_j8349416423452_2_alg».proof.Proof.Spec
import Idealize.ShloMosaic.Lib.Pipeline.Value

noncomputable section

open Idealize.ShloMosaic Idealize.ShloMosaic.TcCoe Idealize.SL.Sem
open Idealize.ShloMosaic.Pipeline (Dat)

namespace Cert.KernelIdeal.KV

open Cert.KernelIdeal Cert.KernelIdeal.Gen

open Idealize.ShloMosaic.ValueIdx

variable {F : FTy → Type} [FloatOps F]
variable (m : (ℓ : Loc nD τ sig) → Buf (Elt F) ℓ)

/-- The first row block at point `t`. -/
abbrev blk0 (c : Dev nD) (t : Fin cfg0.N) : Vec F S1024x256 .f32 := iblk m c 0 t
/-- The second row block at point `t`. -/
abbrev blk1 (c : Dev nD) (t : Fin cfg0.N) : Vec F S1024x256 .f32 := iblk m c 1 t
/-- The third row block at point `t`. -/
abbrev blk2 (c : Dev nD) (t : Fin cfg0.N) : Vec F S1024x256 .f32 := iblk m c 2 t
/-- The label block at point `t`. -/
abbrev blkL (c : Dev nD) (t : Fin cfg0.N) : Vec F S1024x1 .i32 := iblk m c 3 t

/-- The grid has 64 points, so row `r` of point `t`'s block is a row of the arguments. -/
theorem rowIdx_lt (t : Fin cfg0.N) (r : Fin 1024) : t.val * 1024 + r.val < 65536 := by
  have h : t.val < 64 := lt_of_lt_of_eq t.isLt N_0
  have hr := r.isLt
  omega
/-- Row `r` of point `t`'s block, as a row of the arguments. -/
def rowIdx (t : Fin cfg0.N) (r : Fin 1024) : Fin 65536 := ⟨t.val * 1024 + r.val, rowIdx_lt t r⟩

/-- Core `k`'s last point. -/
theorem lastPt_lt (k : Fin 2) : 32 * k.val + 31 < cfg0.N := by
  have hk := k.isLt
  exact lt_of_lt_of_eq (show 32 * k.val + 31 < 64 by omega) N_0.symm
/-- Step `s` of core `k` is a point of the grid. -/
theorem pt_lt (k : Fin 2) (s : Fin 32) : 32 * k.val + s.val < cfg0.N := by
  have hk := k.isLt
  have hs := s.isLt
  exact lt_of_lt_of_eq (show 32 * k.val + s.val < 64 by omega) N_0.symm

end Cert.KernelIdeal.KV

namespace Cert.KernelIdeal.KV

open Cert.KernelIdeal Cert.KernelIdeal.Gen

variable (m : (ℓ : Loc nD τ sig) → Buf (Elt Ideal) ℓ)

/-- The first argument array by row and column. -/
abbrev X0 (c : Dev nD) : Spec.Rows := Spec.rows (m ((c.tc : Thread nD τ).loc main_arg0))
/-- The second argument array by row and column. -/
abbrev X1 (c : Dev nD) : Spec.Rows := Spec.rows (m ((c.tc : Thread nD τ).loc main_arg1))
/-- The third argument array by row and column. -/
abbrev X2 (c : Dev nD) : Spec.Rows := Spec.rows (m ((c.tc : Thread nD τ).loc main_arg2))
/-- The label words by row. -/
abbrev LB (c : Dev nD) : Spec.Labels := Spec.labs (m ((c.tc : Thread nD τ).loc main_arg3))

end Cert.KernelIdeal.KV

end
-- ==== Proof.KPieces.lean ====
/-
  What one grid step leaves in the three carried accumulators and, at a core's last step, in the three output blocks,
  as values: the class-sum accumulator gains the product of the one-hot label matrix with the sum of the three
  normalised row blocks, the count accumulator the one-hot columns' sums, the entropy accumulator the one-hot columns'
  sums weighted by the rows' entropy terms; at a core's first step they start from zero, and at its last step the
  outputs are the updated accumulators (the count times three).
-/
import proofs.«406337_j8349416423452_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KV

open Cert.KernelIdeal Cert.KernelIdeal.Gen

variable {F : FTy → Type} [FloatOps F]

/-- The class-sum accumulator after a step: what it held plus onehotᵀ · (p0 + p1 + p2). -/
abbrev segStep (x0 x1 x2 : Vec F S1024x256 .f32) (x3 : Vec F S1024x1 .i32) (acc : Vec F S128x256 .f32) : Vec F S128x256 .f32 :=
  k0_pay1 (k0_pay13 x0 x1 x2) (k0_pay17 (F := F) x3) acc
/-- The count accumulator after a step: what it held plus the one-hot columns' sums. -/
abbrev cntStep (x3 : Vec F S1024x1 .i32) (acc : Vec F S1x128 .f32) : Vec F S1x128 .f32 :=
  k0_pay2 (k0_pay17 (F := F) x3) acc
/-- The entropy accumulator after a step: what it held plus the one-hot columns' sums weighted by the rows' entropy terms. -/
abbrev entStep (x0 x1 x2 : Vec F S1024x256 .f32) (x3 : Vec F S1024x1 .i32) (acc : Vec F S1x128 .f32) : Vec F S1x128 .f32 :=
  k0_pay3 (k0_pay16 (k0_pay11 x1) (k0_pay12 x2) (k0_pay14 x0) (k0_pay15 x0)) (k0_pay17 (F := F) x3) acc

/-- The zero offsets of a rank-2 whole-buffer rectangle, however spelt. -/
private theorem hz2 : (![0, 0] : Fin 2 → Nat) = fun _ => 0 := funext fun a => by fin_cases a <;> rfl
/-- The zero offsets of a rank-3 whole-buffer rectangle. -/
private theorem hz3 : (![0, 0, 0] : Fin 3 → Nat) = fun _ => 0 := funext fun a => by fin_cases a <;> rfl

theorem sout0_A_0_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .i32) (harg5 : arg5.IsWhole) (arg6 : Memref sig .tc .vmem S1x128x256 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S128x256 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i) (x0 : Vec F S1024x256 .f32) (x1 : Vec F S1024x256 .f32) (x2 : Vec F S1024x256 .f32) (x3 : Vec F S1024x1 .i32) :
    sout0_A_0 c i arg2 harg2 arg3 harg3 arg4 harg4 arg5 harg5 arg6 harg6 arg7 harg7 arg8 harg8 arg9 harg9 arg10 harg10 arg11 harg11 hc0 hc1 x0 x1 x2 x3 = segStep x0 x1 x2 x3 k0_pay7 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S128x256) hz2, View.readCov_unit_zero (S := S128x256) _ hz2]
  simp only [View.readAt_eq_ld, harg2.read_unread, harg3.read_unread, harg4.read_unread, harg5.read_unread,
    View.ld_unit_zero (S := S1024x256) hz2, View.ld_unit_zero (S := S1024x1) hz2, shapeCast_self]

theorem sout0_A_1_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .i32) (harg5 : arg5.IsWhole) (arg6 : Memref sig .tc .vmem S1x128x256 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S128x256 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i) (x0 : Vec F S1024x256 .f32) (x1 : Vec F S1024x256 .f32) (x2 : Vec F S1024x256 .f32) (x3 : Vec F S1024x1 .i32) :
    sout0_A_1 c i arg2 harg2 arg3 harg3 arg4 harg4 arg5 harg5 arg6 harg6 arg7 harg7 arg8 harg8 arg9 harg9 arg10 harg10 arg11 harg11 hc0 hc1 x0 x1 x2 x3 = cntStep x3 k0_pay8 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S1x128) hz2, View.readCov_unit_zero (S := S1x128) _ hz2]
  simp only [View.readAt_eq_ld, harg2.read_unread, harg3.read_unread, harg4.read_unread, harg5.read_unread,
    View.ld_unit_zero (S := S1024x256) hz2, View.ld_unit_zero (S := S1024x1) hz2, shapeCast_self]

theorem sout0_A_2_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .i32) (harg5 : arg5.IsWhole) (arg6 : Memref sig .tc .vmem S1x128x256 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S128x256 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i) (x0 : Vec F S1024x256 .f32) (x1 : Vec F S1024x256 .f32) (x2 : Vec F S1024x256 .f32) (x3 : Vec F S1024x1 .i32) :
    sout0_A_2 c i arg2 harg2 arg3 harg3 arg4 harg4 arg5 harg5 arg6 harg6 arg7 harg7 arg8 harg8 arg9 harg9 arg10 harg10 arg11 harg11 hc0 hc1 x0 x1 x2 x3 = entStep x0 x1 x2 x3 k0_pay9 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S1x128) hz2, View.readCov_unit_zero (S := S1x128) _ hz2]
  simp only [View.readAt_eq_ld, harg2.read_unread, harg3.read_unread, harg4.read_unread, harg5.read_unread,
    View.ld_unit_zero (S := S1024x256) hz2, View.ld_unit_zero (S := S1024x1) hz2, shapeCast_self]

theorem sout0_B_0_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .i32) (harg5 : arg5.IsWhole) (arg6 : Memref sig .tc .vmem S1x128x256 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S128x256 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i) (x0 : Vec F S1024x256 .f32) (x1 : Vec F S1024x256 .f32) (x2 : Vec F S1024x256 .f32) (x3 : Vec F S1024x1 .i32) (xs0 : Vec F S128x256 .f32) (xs1 : Vec F S1x128 .f32) (xs2 : Vec F S1x128 .f32) :
    sout0_B_0 c i arg2 harg2 arg3 harg3 arg4 harg4 arg5 harg5 arg6 harg6 arg7 harg7 arg8 harg8 arg9 harg9 arg10 harg10 arg11 harg11 hc0 hc1 x0 x1 x2 x3 xs0 xs1 xs2 = segStep x0 x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread,
    harg9.read_unread, harg10.read_unread, harg11.read_unread,
    View.ld_unit_zero (S := S1024x256) hz2, View.ld_unit_zero (S := S1024x1) hz2, View.ld_unit_zero (S := S128x256) hz2, shapeCast_self]

theorem sout0_B_1_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .i32) (harg5 : arg5.IsWhole) (arg6 : Memref sig .tc .vmem S1x128x256 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S128x256 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i) (x0 : Vec F S1024x256 .f32) (x1 : Vec F S1024x256 .f32) (x2 : Vec F S1024x256 .f32) (x3 : Vec F S1024x1 .i32) (xs0 : Vec F S128x256 .f32) (xs1 : Vec F S1x128 .f32) (xs2 : Vec F S1x128 .f32) :
    sout0_B_1 c i arg2 harg2 arg3 harg3 arg4 harg4 arg5 harg5 arg6 harg6 arg7 harg7 arg8 harg8 arg9 harg9 arg10 harg10 arg11 harg11 hc0 hc1 x0 x1 x2 x3 xs0 xs1 xs2 = cntStep x3 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread,
    harg9.read_unread, harg10.read_unread, harg11.read_unread,
    View.ld_unit_zero (S := S1024x256) hz2, View.ld_unit_zero (S := S1024x1) hz2, View.ld_unit_zero (S := S1x128) hz2, shapeCast_self]

theorem sout0_B_2_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .i32) (harg5 : arg5.IsWhole) (arg6 : Memref sig .tc .vmem S1x128x256 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S128x256 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i) (x0 : Vec F S1024x256 .f32) (x1 : Vec F S1024x256 .f32) (x2 : Vec F S1024x256 .f32) (x3 : Vec F S1024x1 .i32) (xs0 : Vec F S128x256 .f32) (xs1 : Vec F S1x128 .f32) (xs2 : Vec F S1x128 .f32) :
    sout0_B_2 c i arg2 harg2 arg3 harg3 arg4 harg4 arg5 harg5 arg6 harg6 arg7 harg7 arg8 harg8 arg9 harg9 arg10 harg10 arg11 harg11 hc0 hc1 x0 x1 x2 x3 xs0 xs1 xs2 = entStep x0 x1 x2 x3 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread,
    harg9.read_unread, harg10.read_unread, harg11.read_unread,
    View.ld_unit_zero (S := S1024x256) hz2, View.ld_unit_zero (S := S1024x1) hz2, View.ld_unit_zero (S := S1x128) hz2, shapeCast_self]

theorem sout0_C_0_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .i32) (harg5 : arg5.IsWhole) (arg6 : Memref sig .tc .vmem S1x128x256 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S128x256 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i) (x0 : Vec F S1024x256 .f32) (x1 : Vec F S1024x256 .f32) (x2 : Vec F S1024x256 .f32) (x3 : Vec F S1024x1 .i32) (xs0 : Vec F S128x256 .f32) (xs1 : Vec F S1x128 .f32) (xs2 : Vec F S1x128 .f32) :
    sout0_C_0 c i arg2 harg2 arg3 harg3 arg4 harg4 arg5 harg5 arg6 harg6 arg7 harg7 arg8 harg8 arg9 harg9 arg10 harg10 arg11 harg11 hc0 hc1 x0 x1 x2 x3 xs0 xs1 xs2 = segStep x0 x1 x2 x3 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread,
    harg9.read_unread, harg10.read_unread, harg11.read_unread,
    View.ld_unit_zero (S := S1024x256) hz2, View.ld_unit_zero (S := S1024x1) hz2, View.ld_unit_zero (S := S128x256) hz2, shapeCast_self]

theorem sout0_C_1_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .i32) (harg5 : arg5.IsWhole) (arg6 : Memref sig .tc .vmem S1x128x256 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S128x256 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i) (x0 : Vec F S1024x256 .f32) (x1 : Vec F S1024x256 .f32) (x2 : Vec F S1024x256 .f32) (x3 : Vec F S1024x1 .i32) (xs0 : Vec F S128x256 .f32) (xs1 : Vec F S1x128 .f32) (xs2 : Vec F S1x128 .f32) :
    sout0_C_1 c i arg2 harg2 arg3 harg3 arg4 harg4 arg5 harg5 arg6 harg6 arg7 harg7 arg8 harg8 arg9 harg9 arg10 harg10 arg11 harg11 hc0 hc1 x0 x1 x2 x3 xs0 xs1 xs2 = cntStep x3 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread,
    harg9.read_unread, harg10.read_unread, harg11.read_unread,
    View.ld_unit_zero (S := S1024x256) hz2, View.ld_unit_zero (S := S1024x1) hz2, View.ld_unit_zero (S := S1x128) hz2, shapeCast_self]

theorem sout0_C_2_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .i32) (harg5 : arg5.IsWhole) (arg6 : Memref sig .tc .vmem S1x128x256 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S128x256 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i) (x0 : Vec F S1024x256 .f32) (x1 : Vec F S1024x256 .f32) (x2 : Vec F S1024x256 .f32) (x3 : Vec F S1024x1 .i32) (xs0 : Vec F S128x256 .f32) (xs1 : Vec F S1x128 .f32) (xs2 : Vec F S1x128 .f32) :
    sout0_C_2 c i arg2 harg2 arg3 harg3 arg4 harg4 arg5 harg5 arg6 harg6 arg7 harg7 arg8 harg8 arg9 harg9 arg10 harg10 arg11 harg11 hc0 hc1 x0 x1 x2 x3 xs0 xs1 xs2 = entStep x0 x1 x2 x3 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread,
    harg9.read_unread, harg10.read_unread, harg11.read_unread,
    View.ld_unit_zero (S := S1024x256) hz2, View.ld_unit_zero (S := S1024x1) hz2, View.ld_unit_zero (S := S1x128) hz2, shapeCast_self]

theorem out0_C_4_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .i32) (harg5 : arg5.IsWhole) (arg6 : Memref sig .tc .vmem S1x128x256 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S128x256 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i) (x0 : Vec F S1024x256 .f32) (x1 : Vec F S1024x256 .f32) (x2 : Vec F S1024x256 .f32) (x3 : Vec F S1024x1 .i32) (xs0 : Vec F S128x256 .f32) (xs1 : Vec F S1x128 .f32) (xs2 : Vec F S1x128 .f32) :
    out0_C_4 c i arg2 harg2 arg3 harg3 arg4 harg4 arg5 harg5 arg6 harg6 arg7 harg7 arg8 harg8 arg9 harg9 arg10 harg10 arg11 harg11 hc0 hc1 x0 x1 x2 x3 xs0 xs1 xs2 = k0_pay4 (segStep x0 x1 x2 x3 xs0) := by
  unfold out0_C_4
  rw [View.read_writes_eq_canon _ _ _ (cover0_C_4 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_unit_zero hz3]
  simp only [View.readCov_unit_zero (S := S128x256) _ hz2, View.readAt_eq_ld, harg2.read_unread, harg3.read_unread,
    harg4.read_unread, harg5.read_unread, harg9.read_unread, harg10.read_unread, harg11.read_unread,
    View.ld_unit_zero (S := S1024x256) hz2, View.ld_unit_zero (S := S1024x1) hz2, View.ld_unit_zero (S := S128x256) hz2, shapeCast_self]

theorem out0_C_5_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .i32) (harg5 : arg5.IsWhole) (arg6 : Memref sig .tc .vmem S1x128x256 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S128x256 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i) (x0 : Vec F S1024x256 .f32) (x1 : Vec F S1024x256 .f32) (x2 : Vec F S1024x256 .f32) (x3 : Vec F S1024x1 .i32) (xs0 : Vec F S128x256 .f32) (xs1 : Vec F S1x128 .f32) (xs2 : Vec F S1x128 .f32) :
    out0_C_5 c i arg2 harg2 arg3 harg3 arg4 harg4 arg5 harg5 arg6 harg6 arg7 harg7 arg8 harg8 arg9 harg9 arg10 harg10 arg11 harg11 hc0 hc1 x0 x1 x2 x3 xs0 xs1 xs2 = k0_pay5 (cntStep x3 xs1) := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_unit_zero hz3]
  simp only [View.readCov_unit_zero (S := S1x128) _ hz2, View.readAt_eq_ld, harg2.read_unread, harg3.read_unread,
    harg4.read_unread, harg5.read_unread, harg9.read_unread, harg10.read_unread, harg11.read_unread,
    View.ld_unit_zero (S := S1024x256) hz2, View.ld_unit_zero (S := S1024x1) hz2, View.ld_unit_zero (S := S1x128) hz2, shapeCast_self]

theorem out0_C_6_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .i32) (harg5 : arg5.IsWhole) (arg6 : Memref sig .tc .vmem S1x128x256 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S128x256 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i) (x0 : Vec F S1024x256 .f32) (x1 : Vec F S1024x256 .f32) (x2 : Vec F S1024x256 .f32) (x3 : Vec F S1024x1 .i32) (xs0 : Vec F S128x256 .f32) (xs1 : Vec F S1x128 .f32) (xs2 : Vec F S1x128 .f32) :
    out0_C_6 c i arg2 harg2 arg3 harg3 arg4 harg4 arg5 harg5 arg6 harg6 arg7 harg7 arg8 harg8 arg9 harg9 arg10 harg10 arg11 harg11 hc0 hc1 x0 x1 x2 x3 xs0 xs1 xs2 = k0_pay6 (entStep x0 x1 x2 x3 xs2) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_unit_zero hz3]
  simp only [View.readCov_unit_zero (S := S1x128) _ hz2, View.readAt_eq_ld, harg2.read_unread, harg3.read_unread,
    harg4.read_unread, harg5.read_unread, harg9.read_unread, harg10.read_unread, harg11.read_unread,
    View.ld_unit_zero (S := S1024x256) hz2, View.ld_unit_zero (S := S1024x1) hz2, View.ld_unit_zero (S := S1x128) hz2, shapeCast_self]

end Cert.KernelIdeal.KV

end
-- ==== Proof.KAccum.lean ====
/-
  The carried accumulators point by point.  After point `n` the three scratch accumulators hold the running results of
  the steps since the core's first point (`n` a multiple of 32), where they restart from zero; by induction on the
  point the frame's recorded contents are these running results, and at a core's last point the three output blocks
  are the accumulators just updated (the count times three).
-/
import proofs.«406337_j8349416423452_2_alg».proof.Proof.KCommon
import proofs.«406337_j8349416423452_2_alg».proof.Proof.KPieces

noncomputable section

open Idealize.ShloMosaic Idealize.ShloMosaic.TcCoe Idealize.SL.Sem
open Idealize.ShloMosaic.Pipeline (Dat)

namespace Cert.KernelIdeal.KV

open Cert.KernelIdeal Cert.KernelIdeal.Gen

variable {F : FTy → Type} [FloatOps F]
variable (m : (ℓ : Loc nD τ sig) → Buf (Elt F) ℓ)

/-- The class-sum accumulator after point `n`. -/
def accSeg (c : Dev nD) : (n : ℕ) → n < cfg0.N → Vec F S128x256 .f32
  | 0, h => segStep (blk0 m c ⟨0, h⟩) (blk1 m c ⟨0, h⟩) (blk2 m c ⟨0, h⟩) (blkL m c ⟨0, h⟩) k0_pay7
  | n + 1, h => segStep (blk0 m c ⟨n + 1, h⟩) (blk1 m c ⟨n + 1, h⟩) (blk2 m c ⟨n + 1, h⟩) (blkL m c ⟨n + 1, h⟩)
      (if (n + 1) % 32 = 0 then k0_pay7 else accSeg c n (Nat.lt_of_succ_lt h))

/-- The count accumulator after point `n`. -/
def accCnt (c : Dev nD) : (n : ℕ) → n < cfg0.N → Vec F S1x128 .f32
  | 0, h => cntStep (blkL m c ⟨0, h⟩) k0_pay8
  | n + 1, h => cntStep (blkL m c ⟨n + 1, h⟩) (if (n + 1) % 32 = 0 then k0_pay8 else accCnt c n (Nat.lt_of_succ_lt h))

/-- The entropy accumulator after point `n`. -/
def accEnt (c : Dev nD) : (n : ℕ) → n < cfg0.N → Vec F S1x128 .f32
  | 0, h => entStep (blk0 m c ⟨0, h⟩) (blk1 m c ⟨0, h⟩) (blk2 m c ⟨0, h⟩) (blkL m c ⟨0, h⟩) k0_pay9
  | n + 1, h => entStep (blk0 m c ⟨n + 1, h⟩) (blk1 m c ⟨n + 1, h⟩) (blk2 m c ⟨n + 1, h⟩) (blkL m c ⟨n + 1, h⟩)
      (if (n + 1) % 32 = 0 then k0_pay9 else accEnt c n (Nat.lt_of_succ_lt h))

/-- The frame's recorded scratch contents after each point are the running accumulators. -/
theorem outsAt_acc (c : Dev nD) : ∀ (n : ℕ) (h : n < cfg0.N),
    (outsAt0 m c n h).2.2.2.1 = accSeg m c n h ∧ (outsAt0 m c n h).2.2.2.2.1 = accCnt m c n h
      ∧ (outsAt0 m c n h).2.2.2.2.2 = accEnt m c n h
  | 0, h => by
    -- the first point is a core's first step: the accumulators restart from zero
    have h0 : (⟨0, h⟩ : Fin cfg0.N).val % 32 = 0 := Nat.zero_mod _
    have h1 : ¬(⟨0, h⟩ : Fin cfg0.N).val % 32 = 31 := by dsimp only; omega
    rw [outsAt0_A m c ⟨0, h⟩ h0 h1]
    dsimp only
    rw [sout0_A_0_eq, sout0_A_1_eq, sout0_A_2_eq]
    exact ⟨rfl, rfl, rfl⟩
  | n + 1, h => by
    have ih := outsAt_acc c n (Nat.lt_of_succ_lt h)
    by_cases h0 : (n + 1) % 32 = 0
    · -- a core's first step: the accumulators restart from zero
      have h1 : ¬(n + 1) % 32 = 31 := by omega
      rw [outsAt0_A m c ⟨n + 1, h⟩ h0 h1]
      dsimp only
      rw [sout0_A_0_eq, sout0_A_1_eq, sout0_A_2_eq, accSeg, accCnt, accEnt, if_pos h0, if_pos h0, if_pos h0]
      exact ⟨rfl, rfl, rfl⟩
    · by_cases h1 : (n + 1) % 32 = 31
      · -- a core's last step: the accumulators go on from the point before
        rw [outsAt0_C m c ⟨n + 1, h⟩ h0 h1]
        dsimp only
        rw [sout0_C_0_eq, sout0_C_1_eq, sout0_C_2_eq, accSeg, accCnt, accEnt, if_neg h0, if_neg h0, if_neg h0]
        show segStep _ _ _ _ (outsAt0 m c n _).2.2.2.1 = segStep _ _ _ _ (accSeg m c n _)
          ∧ cntStep _ (outsAt0 m c n _).2.2.2.2.1 = cntStep _ (accCnt m c n _)
          ∧ entStep _ _ _ _ (outsAt0 m c n _).2.2.2.2.2 = entStep _ _ _ _ (accEnt m c n _)
        rw [ih.1, ih.2.1, ih.2.2]
        exact ⟨rfl, rfl, rfl⟩
      · -- a middle step: the accumulators go on from the point before
        rw [outsAt0_B m c ⟨n + 1, h⟩ h0 h1]
        dsimp only
        rw [sout0_B_0_eq, sout0_B_1_eq, sout0_B_2_eq, accSeg, accCnt, accEnt, if_neg h0, if_neg h0, if_neg h0]
        show segStep _ _ _ _ (outsAt0 m c n _).2.2.2.1 = segStep _ _ _ _ (accSeg m c n _)
          ∧ cntStep _ (outsAt0 m c n _).2.2.2.2.1 = cntStep _ (accCnt m c n _)
          ∧ entStep _ _ _ _ (outsAt0 m c n _).2.2.2.2.2 = entStep _ _ _ _ (accEnt m c n _)
        rw [ih.1, ih.2.1, ih.2.2]
        exact ⟨rfl, rfl, rfl⟩

/-- At a core's last point the output blocks are the accumulators just updated. -/
theorem outsAt_out (c : Dev nD) (t : Fin cfg0.N) (h1 : t.val % 32 = 31) :
    (outsAt0 m c t.val t.isLt).1 = k0_pay4 (accSeg m c t.val t.isLt)
      ∧ (outsAt0 m c t.val t.isLt).2.1 = k0_pay5 (accCnt m c t.val t.isLt)
      ∧ (outsAt0 m c t.val t.isLt).2.2.1 = k0_pay6 (accEnt m c t.val t.isLt) := by
  have h0 : ¬t.val % 32 = 0 := by omega
  -- the outputs are the payloads of what the same step leaves in the accumulators
  have a := outsAt_acc m c t.val t.isLt
  rw [outsAt0_C m c t h0 h1] at a ⊢
  dsimp only at a ⊢
  rw [sout0_C_0_eq, sout0_C_1_eq, sout0_C_2_eq] at a
  rw [out0_C_4_eq, out0_C_5_eq, out0_C_6_eq, a.1, a.2.1, a.2.2]
  exact ⟨rfl, rfl, rfl⟩

end Cert.KernelIdeal.KV

end
-- ==== Proof.KFinal.lean ====
/-
  The three result arrays after the run.  Each output window is written back once per core, at the core's last point,
  and its block there is the core's slab of the array; so entry `(k, ·, ·)` of each array is what core `k`'s last
  point left in the output block.
-/
import proofs.«406337_j8349416423452_2_alg».proof.Proof.KAccum

noncomputable section

open Idealize.ShloMosaic Idealize.ShloMosaic.TcCoe Idealize.SL.Sem
open Idealize.ShloMosaic.Pipeline (Dat)

namespace Cert.KernelIdeal.KV

open Cert.KernelIdeal Cert.KernelIdeal.Gen

open Idealize.ShloMosaic.ValueIdx

variable {F : FTy → Type} [FloatOps F]
variable (m : (ℓ : Loc nD τ sig) → Buf (Elt F) ℓ)

/-- A core's last point, from a number below 2. -/
private theorem lastPt_lt' {n : ℕ} (h : n < 2) : 32 * n + 31 < cfg0.N :=
  lt_of_lt_of_eq (show 32 * n + 31 < 64 by omega) N_0.symm

/-! ## The class sums -/

/-- The first result array as one function of its index: entry `(k, cl, d)` is entry `(0, cl, d)` of what core `k`'s
    last point left in the output block. -/
private def G4 (c : Dev nD) : S2x128x256.Idx → Elt F .f32 := fun i =>
  k0_pay4 (accSeg m c (32 * (i 0).val + 31) (lastPt_lt' (show (i 0).val < 2 from (i 0).isLt)))
    (ix3 (0 : Fin 1) (⟨(i 1).val, (i 1).isLt⟩ : Fin 128) (⟨(i 2).val, (i 2).isLt⟩ : Fin 256))

/-- The same accumulator at equal points, read at equal indices. -/
private theorem pay4_congr (c : Dev nD) {n n' : ℕ} (h : n < cfg0.N) (h' : n' < cfg0.N) (e : n = n')
    {y y' : S1x128x256.Idx} (ey : y = y') :
    k0_pay4 (accSeg m c n h) y = k0_pay4 (accSeg m c n' h') y' := by
  subst e; subst ey; rfl

/-- The output window's block index at point `t` is `(core, 0, 0)`, decided over the 64 points. -/
private theorem idx_facts4 : ∀ t : Fin cfg0.N, win0_4.index t (0 : Fin 3) = t.val / 32
    ∧ win0_4.index t (1 : Fin 3) = 0 ∧ win0_4.index t (2 : Fin 3) = 0 :=
  (by decide +kernel : ∀ t : Fin grid0.N, _)

/-- What a core's last point writes back is the core's slab of `G4`. -/
private theorem flushed4_eq (c : Dev nD) (t : Fin cfg0.N) (hf : (cfg0.win 4).flush t = true) :
    (dats m 0 c).flushed 4 t = ((cfg0.win 4).blk t).view.read (Elt F) (G4 m c) := by
  have h31 : t.val % 32 = 31 := (flush0_4 t).mp hf
  obtain ⟨e0, e1, e2⟩ := idx_facts4 t
  show (cfg0.win 4).cut (grid0.coords t) ((dats m 0 c).after 4 t) = _
  rw [after0_4, (outsAt_out m c t h31).1]
  funext j
  show k0_pay4 (accSeg m c t.val t.isLt) ((cfg0.win 4).xinj (grid0.coords t) j)
    = G4 m c (((cfg0.win 4).blk t).view.emb j)
  have hj0 : (j 0).val < 1 := (j 0).isLt
  refine pay4_congr m c _ _ ?_ ?_
  · show t.val = 32 * (win0_4.index t (0 : Fin 3) * 1 + 1 * (j 0).val) + 31
    omega
  · funext a; apply Fin.ext
    match a with
    | ⟨0, _⟩ => show (j 0).val = 0; omega
    | ⟨1, _⟩ => show (j 1).val = win0_4.index t (1 : Fin 3) * 128 + 1 * (j 1).val; omega
    | ⟨2, _⟩ => show (j 2).val = win0_4.index t (2 : Fin 3) * 256 + 1 * (j 2).val; omega

/-- An index of the array is in point `t`'s block iff each coordinate is in the block's range on its axis. -/
private theorem mem_blk4 (t : Fin cfg0.N) (i : S2x128x256.Idx) :
    i ∈ ((cfg0.win 4).blk t).view.set ↔ ∀ a : Fin 3, win0_4.index t a * S1x128x256.size a ≤ (i a).val
      ∧ (i a).val < win0_4.index t a * S1x128x256.size a + S1x128x256.size a := by
  show i ∈ ((View.whole main_v1_0).slice (win0_4.rect t)).set ↔ _
  rw [View.set_slice_whole, Rect.mem_set_unit]
  exact Iff.rfl

/-- Core `k`'s last point writes back slab `k`: every index is covered. -/
private theorem cover4 (i : S2x128x256.Idx) :
    ∃ t : Fin cfg0.N, (cfg0.win 4).flush t = true ∧ i ∈ ((cfg0.win 4).blk t).view.set := by
  have hi0 : (i 0).val < 2 := (i 0).isLt
  have hi1 : (i 1).val < 128 := (i 1).isLt
  have hi2 : (i 2).val < 256 := (i 2).isLt
  refine ⟨⟨32 * (i 0).val + 31, lastPt_lt' hi0⟩, (flush0_4 _).mpr (by show (32 * (i 0).val + 31) % 32 = 31; omega), ?_⟩
  obtain ⟨e0, e1, e2⟩ := idx_facts4 ⟨32 * (i 0).val + 31, lastPt_lt' hi0⟩
  have e0' : win0_4.index ⟨32 * (i 0).val + 31, lastPt_lt' hi0⟩ (0 : Fin 3) = (i 0).val := by
    rw [e0]; show (32 * (i 0).val + 31) / 32 = (i 0).val; omega
  rw [mem_blk4]
  intro a
  match a with
  | ⟨0, _⟩ =>
    show win0_4.index ⟨32 * (i 0).val + 31, lastPt_lt' hi0⟩ (0 : Fin 3) * 1 ≤ (i 0).val
      ∧ (i 0).val < win0_4.index ⟨32 * (i 0).val + 31, lastPt_lt' hi0⟩ (0 : Fin 3) * 1 + 1
    omega
  | ⟨1, _⟩ =>
    show win0_4.index ⟨32 * (i 0).val + 31, lastPt_lt' hi0⟩ (1 : Fin 3) * 128 ≤ (i 1).val
      ∧ (i 1).val < win0_4.index ⟨32 * (i 0).val + 31, lastPt_lt' hi0⟩ (1 : Fin 3) * 128 + 128
    omega
  | ⟨2, _⟩ =>
    show win0_4.index ⟨32 * (i 0).val + 31, lastPt_lt' hi0⟩ (2 : Fin 3) * 256 ≤ (i 2).val
      ∧ (i 2).val < win0_4.index ⟨32 * (i 0).val + 31, lastPt_lt' hi0⟩ (2 : Fin 3) * 256 + 256
    omega

/-- The first result array after the run. -/
private theorem arr4 (c : Dev nD) : (dats m 0 c).arrAt 4 cfg0.N = G4 m c :=
  (dats m 0 c).arrAt_eq_of_cover 4 (G4 m c) (flushed4_eq m c) cover4

theorem final4 (c : Dev nD) (k : Fin 2) (cl : Fin 128) (d : Fin 256) :
    (dats m 0 c).arrAt 4 cfg0.N (ix3 k cl d) = k0_pay4 (accSeg m c (32 * k.val + 31) (lastPt_lt k)) (ix3 0 cl d) :=
  congrFun (arr4 m c) (ix3 k cl d)

/-! ## The counts -/

/-- The second result array as one function of its index: entry `(k, 0, cl)` is entry `(0, 0, cl)` of what core `k`'s
    last point left in the output block. -/
private def G5 (c : Dev nD) : S2x1x128.Idx → Elt F .f32 := fun i =>
  k0_pay5 (accCnt m c (32 * (i 0).val + 31) (lastPt_lt' (show (i 0).val < 2 from (i 0).isLt)))
    (ix3 (0 : Fin 1) (0 : Fin 1) (⟨(i 2).val, (i 2).isLt⟩ : Fin 128))

/-- The same accumulator at equal points, read at equal indices. -/
private theorem pay5_congr (c : Dev nD) {n n' : ℕ} (h : n < cfg0.N) (h' : n' < cfg0.N) (e : n = n')
    {y y' : S1x1x128.Idx} (ey : y = y') :
    k0_pay5 (accCnt m c n h) y = k0_pay5 (accCnt m c n' h') y' := by
  subst e; subst ey; rfl

/-- The output window's block index at point `t` is `(core, 0, 0)`, decided over the 64 points. -/
private theorem idx_facts5 : ∀ t : Fin cfg0.N, win0_5.index t (0 : Fin 3) = t.val / 32
    ∧ win0_5.index t (1 : Fin 3) = 0 ∧ win0_5.index t (2 : Fin 3) = 0 :=
  (by decide +kernel : ∀ t : Fin grid0.N, _)

/-- What a core's last point writes back is the core's slab of `G5`. -/
private theorem flushed5_eq (c : Dev nD) (t : Fin cfg0.N) (hf : (cfg0.win 5).flush t = true) :
    (dats m 0 c).flushed 5 t = ((cfg0.win 5).blk t).view.read (Elt F) (G5 m c) := by
  have h31 : t.val % 32 = 31 := (flush0_5 t).mp hf
  obtain ⟨e0, e1, e2⟩ := idx_facts5 t
  show (cfg0.win 5).cut (grid0.coords t) ((dats m 0 c).after 5 t) = _
  rw [after0_5, (outsAt_out m c t h31).2.1]
  funext j
  show k0_pay5 (accCnt m c t.val t.isLt) ((cfg0.win 5).xinj (grid0.coords t) j)
    = G5 m c (((cfg0.win 5).blk t).view.emb j)
  have hj0 : (j 0).val < 1 := (j 0).isLt
  have hj1 : (j 1).val < 1 := (j 1).isLt
  refine pay5_congr m c _ _ ?_ ?_
  · show t.val = 32 * (win0_5.index t (0 : Fin 3) * 1 + 1 * (j 0).val) + 31
    omega
  · funext a; apply Fin.ext
    match a with
    | ⟨0, _⟩ => show (j 0).val = 0; omega
    | ⟨1, _⟩ => show (j 1).val = 0; omega
    | ⟨2, _⟩ => show (j 2).val = win0_5.index t (2 : Fin 3) * 128 + 1 * (j 2).val; omega

/-- An index of the array is in point `t`'s block iff each coordinate is in the block's range on its axis. -/
private theorem mem_blk5 (t : Fin cfg0.N) (i : S2x1x128.Idx) :
    i ∈ ((cfg0.win 5).blk t).view.set ↔ ∀ a : Fin 3, win0_5.index t a * S1x1x128.size a ≤ (i a).val
      ∧ (i a).val < win0_5.index t a * S1x1x128.size a + S1x1x128.size a := by
  show i ∈ ((View.whole main_v1_1).slice (win0_5.rect t)).set ↔ _
  rw [View.set_slice_whole, Rect.mem_set_unit]
  exact Iff.rfl

/-- Core `k`'s last point writes back slab `k`: every index is covered. -/
private theorem cover5 (i : S2x1x128.Idx) :
    ∃ t : Fin cfg0.N, (cfg0.win 5).flush t = true ∧ i ∈ ((cfg0.win 5).blk t).view.set := by
  have hi0 : (i 0).val < 2 := (i 0).isLt
  have hi1 : (i 1).val < 1 := (i 1).isLt
  have hi2 : (i 2).val < 128 := (i 2).isLt
  refine ⟨⟨32 * (i 0).val + 31, lastPt_lt' hi0⟩, (flush0_5 _).mpr (by show (32 * (i 0).val + 31) % 32 = 31; omega), ?_⟩
  obtain ⟨e0, e1, e2⟩ := idx_facts5 ⟨32 * (i 0).val + 31, lastPt_lt' hi0⟩
  have e0' : win0_5.index ⟨32 * (i 0).val + 31, lastPt_lt' hi0⟩ (0 : Fin 3) = (i 0).val := by
    rw [e0]; show (32 * (i 0).val + 31) / 32 = (i 0).val; omega
  rw [mem_blk5]
  intro a
  match a with
  | ⟨0, _⟩ =>
    show win0_5.index ⟨32 * (i 0).val + 31, lastPt_lt' hi0⟩ (0 : Fin 3) * 1 ≤ (i 0).val
      ∧ (i 0).val < win0_5.index ⟨32 * (i 0).val + 31, lastPt_lt' hi0⟩ (0 : Fin 3) * 1 + 1
    omega
  | ⟨1, _⟩ =>
    show win0_5.index ⟨32 * (i 0).val + 31, lastPt_lt' hi0⟩ (1 : Fin 3) * 1 ≤ (i 1).val
      ∧ (i 1).val < win0_5.index ⟨32 * (i 0).val + 31, lastPt_lt' hi0⟩ (1 : Fin 3) * 1 + 1
    omega
  | ⟨2, _⟩ =>
    show win0_5.index ⟨32 * (i 0).val + 31, lastPt_lt' hi0⟩ (2 : Fin 3) * 128 ≤ (i 2).val
      ∧ (i 2).val < win0_5.index ⟨32 * (i 0).val + 31, lastPt_lt' hi0⟩ (2 : Fin 3) * 128 + 128
    omega

/-- The second result array after the run. -/
private theorem arr5 (c : Dev nD) : (dats m 0 c).arrAt 5 cfg0.N = G5 m c :=
  (dats m 0 c).arrAt_eq_of_cover 5 (G5 m c) (flushed5_eq m c) cover5

theorem final5 (c : Dev nD) (k : Fin 2) (cl : Fin 128) :
    (dats m 0 c).arrAt 5 cfg0.N (ix3 k 0 cl) = k0_pay5 (accCnt m c (32 * k.val + 31) (lastPt_lt k)) (ix3 0 0 cl) :=
  congrFun (arr5 m c) (ix3 k 0 cl)

/-! ## The entropy sums -/

/-- The third result array as one function of its index: entry `(k, 0, cl)` is entry `(0, 0, cl)` of what core `k`'s
    last point left in the output block. -/
private def G6 (c : Dev nD) : S2x1x128.Idx → Elt F .f32 := fun i =>
  k0_pay6 (accEnt m c (32 * (i 0).val + 31) (lastPt_lt' (show (i 0).val < 2 from (i 0).isLt)))
    (ix3 (0 : Fin 1) (0 : Fin 1) (⟨(i 2).val, (i 2).isLt⟩ : Fin 128))

/-- The same accumulator at equal points, read at equal indices. -/
private theorem pay6_congr (c : Dev nD) {n n' : ℕ} (h : n < cfg0.N) (h' : n' < cfg0.N) (e : n = n')
    {y y' : S1x1x128.Idx} (ey : y = y') :
    k0_pay6 (accEnt m c n h) y = k0_pay6 (accEnt m c n' h') y' := by
  subst e; subst ey; rfl

/-- The output window's block index at point `t` is `(core, 0, 0)`, decided over the 64 points. -/
private theorem idx_facts6 : ∀ t : Fin cfg0.N, win0_6.index t (0 : Fin 3) = t.val / 32
    ∧ win0_6.index t (1 : Fin 3) = 0 ∧ win0_6.index t (2 : Fin 3) = 0 :=
  (by decide +kernel : ∀ t : Fin grid0.N, _)

/-- What a core's last point writes back is the core's slab of `G6`. -/
private theorem flushed6_eq (c : Dev nD) (t : Fin cfg0.N) (hf : (cfg0.win 6).flush t = true) :
    (dats m 0 c).flushed 6 t = ((cfg0.win 6).blk t).view.read (Elt F) (G6 m c) := by
  have h31 : t.val % 32 = 31 := (flush0_6 t).mp hf
  obtain ⟨e0, e1, e2⟩ := idx_facts6 t
  show (cfg0.win 6).cut (grid0.coords t) ((dats m 0 c).after 6 t) = _
  rw [after0_6, (outsAt_out m c t h31).2.2]
  funext j
  show k0_pay6 (accEnt m c t.val t.isLt) ((cfg0.win 6).xinj (grid0.coords t) j)
    = G6 m c (((cfg0.win 6).blk t).view.emb j)
  have hj0 : (j 0).val < 1 := (j 0).isLt
  have hj1 : (j 1).val < 1 := (j 1).isLt
  refine pay6_congr m c _ _ ?_ ?_
  · show t.val = 32 * (win0_6.index t (0 : Fin 3) * 1 + 1 * (j 0).val) + 31
    omega
  · funext a; apply Fin.ext
    match a with
    | ⟨0, _⟩ => show (j 0).val = 0; omega
    | ⟨1, _⟩ => show (j 1).val = 0; omega
    | ⟨2, _⟩ => show (j 2).val = win0_6.index t (2 : Fin 3) * 128 + 1 * (j 2).val; omega

/-- An index of the array is in point `t`'s block iff each coordinate is in the block's range on its axis. -/
private theorem mem_blk6 (t : Fin cfg0.N) (i : S2x1x128.Idx) :
    i ∈ ((cfg0.win 6).blk t).view.set ↔ ∀ a : Fin 3, win0_6.index t a * S1x1x128.size a ≤ (i a).val
      ∧ (i a).val < win0_6.index t a * S1x1x128.size a + S1x1x128.size a := by
  show i ∈ ((View.whole main_v1_2).slice (win0_6.rect t)).set ↔ _
  rw [View.set_slice_whole, Rect.mem_set_unit]
  exact Iff.rfl

/-- Core `k`'s last point writes back slab `k`: every index is covered. -/
private theorem cover6 (i : S2x1x128.Idx) :
    ∃ t : Fin cfg0.N, (cfg0.win 6).flush t = true ∧ i ∈ ((cfg0.win 6).blk t).view.set := by
  have hi0 : (i 0).val < 2 := (i 0).isLt
  have hi1 : (i 1).val < 1 := (i 1).isLt
  have hi2 : (i 2).val < 128 := (i 2).isLt
  refine ⟨⟨32 * (i 0).val + 31, lastPt_lt' hi0⟩, (flush0_6 _).mpr (by show (32 * (i 0).val + 31) % 32 = 31; omega), ?_⟩
  obtain ⟨e0, e1, e2⟩ := idx_facts6 ⟨32 * (i 0).val + 31, lastPt_lt' hi0⟩
  have e0' : win0_6.index ⟨32 * (i 0).val + 31, lastPt_lt' hi0⟩ (0 : Fin 3) = (i 0).val := by
    rw [e0]; show (32 * (i 0).val + 31) / 32 = (i 0).val; omega
  rw [mem_blk6]
  intro a
  match a with
  | ⟨0, _⟩ =>
    show win0_6.index ⟨32 * (i 0).val + 31, lastPt_lt' hi0⟩ (0 : Fin 3) * 1 ≤ (i 0).val
      ∧ (i 0).val < win0_6.index ⟨32 * (i 0).val + 31, lastPt_lt' hi0⟩ (0 : Fin 3) * 1 + 1
    omega
  | ⟨1, _⟩ =>
    show win0_6.index ⟨32 * (i 0).val + 31, lastPt_lt' hi0⟩ (1 : Fin 3) * 1 ≤ (i 1).val
      ∧ (i 1).val < win0_6.index ⟨32 * (i 0).val + 31, lastPt_lt' hi0⟩ (1 : Fin 3) * 1 + 1
    omega
  | ⟨2, _⟩ =>
    show win0_6.index ⟨32 * (i 0).val + 31, lastPt_lt' hi0⟩ (2 : Fin 3) * 128 ≤ (i 2).val
      ∧ (i 2).val < win0_6.index ⟨32 * (i 0).val + 31, lastPt_lt' hi0⟩ (2 : Fin 3) * 128 + 128
    omega

/-- The third result array after the run. -/
private theorem arr6 (c : Dev nD) : (dats m 0 c).arrAt 6 cfg0.N = G6 m c :=
  (dats m 0 c).arrAt_eq_of_cover 6 (G6 m c) (flushed6_eq m c) cover6

theorem final6 (c : Dev nD) (k : Fin 2) (cl : Fin 128) :
    (dats m 0 c).arrAt 6 cfg0.N (ix3 k 0 cl) = k0_pay6 (accEnt m c (32 * k.val + 31) (lastPt_lt k)) (ix3 0 0 cl) :=
  congrFun (arr6 m c) (ix3 k 0 cl)

end Cert.KernelIdeal.KV

end
-- ==== Proof.KBlock.lean ====
/-
  The body's arithmetic on one block of 1024 rows, read entry by entry over the extended reals: the sum of the three
  normalised blocks, a row's three entropy terms, the one-hot label matrix, and the three accumulator updates as
  "what was there plus a sum over the block's rows".
-/
import proofs.«406337_j8349416423452_2_alg».proof.Proof.Gen.KernelIdeal.Skeleton
import proofs.«406337_j8349416423452_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem
open Idealize.ShloMosaic.Pipeline (Dat)

namespace Cert.KernelIdeal.KV

open Cert.KernelIdeal Cert.KernelIdeal.Gen

open Idealize.ShloMosaic.ValueIdx
open scoped BigOperators

/-- A block's normalised entry: the entry over its row's norm, the norm kept above `eps12`. -/
def bprob (x : Vec Ideal S1024x256 .f32) (r : Fin 1024) (d : Fin 256) : EReal :=
  Ideal.div (x (ix2 r d)) (max (Ideal.sqrt (∑ k : Fin 256, x (ix2 r k) * x (ix2 r k))) Spec.eps12)

/-- A block row's entropy term. -/
def bent (x : Vec Ideal S1024x256 .f32) (r : Fin 1024) : EReal :=
  Ideal.div (∑ d : Fin 256, Spec.xlogx (bprob x r d)) Spec.c256

/-! ## Layout and reduction operations of the block, read at an index given by coordinates -/

section Helpers
variable {α : Type}

/-- A vector of length `a` viewed as one column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` repeated over `b` columns reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the columns of a block of 1024 rows by 256 columns, at row `r`. -/
theorem rowSum_apply (src : FVec Ideal S1024x256 .f32) (h : S1024x256.Reduces [1] S1024) (hφ : FKind.Formats .f32)
    (hacc : (0x00000000#32 : BitVec 32) = FKind.add.neutral .f32 hφ) (r : Fin 1024) :
    multiReduction (F := Ideal) .add [1] S1024 src 0x00000000#32 h hφ hacc (ix1 r) = ∑ k : Fin 256, src (ix2 r k) := by
  refine (Ideal.multiReduction_add_single src _ h hφ hacc (ix1 r)).trans ?_
  refine Finset.sum_congr rfl fun k _ => congrArg src ?_
  funext c
  match c with
  | ⟨0, _⟩ => rfl
  | ⟨1, _⟩ => rfl

/-- The sum along the rows of a block of 1024 rows by 128 columns, at column `cl`. -/
theorem colSum_apply (src : FVec Ideal S1024x128 .f32) (h : S1024x128.Reduces [0] S128) (hφ : FKind.Formats .f32)
    (hacc : (0x00000000#32 : BitVec 32) = FKind.add.neutral .f32 hφ) (cl : Fin 128) :
    multiReduction (F := Ideal) .add [0] S128 src 0x00000000#32 h hφ hacc (ix1 cl) = ∑ r : Fin 1024, src (ix2 r cl) := by
  refine (Ideal.multiReduction_add_single src _ h hφ hacc (ix1 cl)).trans ?_
  refine Finset.sum_congr rfl fun k _ => congrArg src ?_
  funext c
  match c with
  | ⟨0, _⟩ => rfl
  | ⟨1, _⟩ => rfl

end Helpers

/-! ## The block's scalar steps -/

/-- The test "is zero", the guarded logarithm and the product, as the body writes them, are `xlogx`. -/
theorem xlogx_select (p : EReal) :
    Scalar.select (Ideal.cmp .oeq p (Ideal.ofBits .f32 0x00000000#32)) (Ideal.ofBits .f32 0x00000000#32)
      (p * Ideal.log (Scalar.select (Ideal.cmp .oeq p (Ideal.ofBits .f32 0x00000000#32)) (Ideal.ofBits .f32 0x3F800000#32) p))
      = Spec.xlogx p := by
  rw [Ideal.ofBits_zero_f32]
  unfold Spec.xlogx Spec.c1 Scalar.select Ideal.cmp
  by_cases h : p = 0 <;> simp [h]

/-- A label word compared with a class number below 128, widened and read as a number: one on a match, zero otherwise. -/
theorem onehot_word (w : BitVec 32) (c : Fin 128) :
    (((((IntOp.cmpi .eq w (BitVec.ofNat 32 c.val)).setWidth 32).toInt : ℤ) : ℝ) : EReal)
      = if w.toNat = c.val then 1 else 0 := by
  have hc : (BitVec.ofNat 32 c.val).toNat = c.val := by
    rw [BitVec.toNat_ofNat]; exact Nat.mod_eq_of_lt (by have := c.isLt; omega)
  have h1 : ((1#1 : BitVec 1).setWidth 32).toInt = 1 := by decide
  have h0 : ((0#1 : BitVec 1).setWidth 32).toInt = 0 := by decide
  by_cases h : w = BitVec.ofNat 32 c.val
  · have hw : w.toNat = c.val := by rw [h, hc]
    have hb : IntOp.cmpi .eq w (BitVec.ofNat 32 c.val) = 1#1 := by simp [IntOp.cmpi, h]
    rw [if_pos hw, hb, h1]; simp
  · have hw : ¬ w.toNat = c.val := fun e => h (BitVec.eq_of_toNat_eq (by rw [e, hc]))
    have hbeq : (w == BitVec.ofNat 32 c.val) = false := beq_eq_false_iff_ne.mpr h
    have hb : IntOp.cmpi .eq w (BitVec.ofNat 32 c.val) = 0#1 := by simp [IntOp.cmpi, hbeq]
    rw [if_neg hw, hb, h0]; simp

/-! ## The normalised block and a row's mean -/

/-- A block's normalised entry, as the body computes it. -/
theorem pay10_apply (x : Vec Ideal S1024x256 .f32) (r : Fin 1024) (d : Fin 256) :
    k0_pay10 (F := Ideal) x (ix2 r d) = bprob x r d := by
  unfold k0_pay10 bprob
  refine (divf_apply _ _ _).trans (congrArg (Ideal.div (x (ix2 r d))) ?_)
  refine (broadcastTo_a1_ab_apply _ _ r d).trans ?_
  refine (maximumf_apply _ _ _).trans ?_
  refine congrArg₂ max (congrArg Ideal.sqrt ?_) rfl
  refine (shapeCast_a_a1_apply _ _ r 0).trans ?_
  exact rowSum_apply _ _ _ _ r

/-- The second and third blocks are normalised by the same text. -/
theorem pay11_apply (x : Vec Ideal S1024x256 .f32) (r : Fin 1024) (d : Fin 256) :
    k0_pay11 (F := Ideal) x (ix2 r d) = bprob x r d := pay10_apply x r d
theorem pay12_apply (x : Vec Ideal S1024x256 .f32) (r : Fin 1024) (d : Fin 256) :
    k0_pay12 (F := Ideal) x (ix2 r d) = bprob x r d := pay10_apply x r d

/-- A row's sum over the 256 columns, kept as a column and divided by 256. -/
theorem meanRow_apply (w : FVec Ideal S1024x256 .f32) (h : S1024x256.Reduces [1] S1024) (hφ : FKind.Formats .f32)
    (hacc : (0x00000000#32 : BitVec 32) = FKind.add.neutral .f32 hφ) (hc : S1024.ShapeCasts S1024x1) (r : Fin 1024) :
    divf (shapeCast S1024x1 (multiReduction (F := Ideal) .add [1] S1024 w 0x00000000#32 h hφ hacc) hc)
        (broadcast S1024x1 (Scalar.ofBits .f32 0x43800000#32)) (ix2 r 0)
      = Ideal.div (∑ d : Fin 256, w (ix2 r d)) Spec.c256 := by
  refine (divf_apply _ _ _).trans ?_
  refine congrArg₂ Ideal.div ?_ rfl
  refine (shapeCast_a_a1_apply _ _ r 0).trans ?_
  exact rowSum_apply _ _ _ _ r

/-! ## The product of the one-hot matrix's columns with the summed blocks' columns

Both operands are contracted along their rows (axis 0); the result's row is the left operand's column, its column the
right operand's column. -/

theorem lhs_mm_0 (i : S128x256.Idx) (q : dot_S1024x128_S1024x256_S128x256_0_0_1_1_n_n.contr.Idx) :
    (dot_S1024x128_S1024x256_S128x256_0_0_1_1_n_n.lhsIdx i q 0).val = (q ⟨0, by decide⟩).val :=
  dot_S1024x128_S1024x256_S128x256_0_0_1_1_n_n.lhsIdx_val_of_single rfl i q

theorem lhs_mm_1 (i : S128x256.Idx) (q : dot_S1024x128_S1024x256_S128x256_0_0_1_1_n_n.contr.Idx) :
    (dot_S1024x128_S1024x256_S128x256_0_0_1_1_n_n.lhsIdx i q 1).val = (i 0).val := by
  unfold DotDims.lhsIdx
  rw [dif_neg (show ¬(1 : Fin S1024x128.rank) ∈ dot_S1024x128_S1024x256_S128x256_0_0_1_1_n_n.lhsBatch by decide),
    dif_pos (show (1 : Fin S1024x128.rank) ∈ dot_S1024x128_S1024x256_S128x256_0_0_1_1_n_n.lhsNonContracting by decide)]
  rfl

theorem rhs_mm_0 (i : S128x256.Idx) (q : dot_S1024x128_S1024x256_S128x256_0_0_1_1_n_n.contr.Idx) :
    (dot_S1024x128_S1024x256_S128x256_0_0_1_1_n_n.rhsIdx i q 0).val = (q ⟨0, by decide⟩).val :=
  dot_S1024x128_S1024x256_S128x256_0_0_1_1_n_n.rhsIdx_val_of_single rfl i q

theorem rhs_mm_1 (i : S128x256.Idx) (q : dot_S1024x128_S1024x256_S128x256_0_0_1_1_n_n.contr.Idx) :
    (dot_S1024x128_S1024x256_S128x256_0_0_1_1_n_n.rhsIdx i q 1).val = (i 1).val := by
  unfold DotDims.rhsIdx
  rw [dif_neg (show ¬(1 : Fin S1024x256.rank) ∈ dot_S1024x128_S1024x256_S128x256_0_0_1_1_n_n.rhsBatch by decide),
    dif_pos (show (1 : Fin S1024x256.rank) ∈ dot_S1024x128_S1024x256_S128x256_0_0_1_1_n_n.rhsNonContracting by decide)]
  rfl

/-- The product into a zero accumulator, at class `cl` and column `d`: the sum over the block's rows. -/
theorem matmulBlock_apply (v82 : FVec Ideal S1024x128 .f32) (v31 : FVec Ideal S1024x256 .f32) (cl : Fin 128) (d : Fin 256) :
    matmul (F := Ideal) dot_S1024x128_S1024x256_S128x256_0_0_1_1_n_n (some .fp32) v82 v31
        (constant (F := Ideal) S128x256 .f32 0x00000000#32) (ix2 cl d)
      = ∑ r : Fin 1024, v82 (ix2 r cl) * v31 (ix2 r d) := by
  simp only [matmul]
  rw [Ideal.matmul_constant_zero_apply,
    ← Equiv.sum_comp (contrEquiv1 dot_S1024x128_S1024x256_S128x256_0_0_1_1_n_n 1024 rfl rfl).symm]
  refine Finset.sum_congr rfl fun k _ => ?_
  have hk := contrEquiv1_symm_val dot_S1024x128_S1024x256_S128x256_0_0_1_1_n_n 1024 rfl rfl k
  have el : dot_S1024x128_S1024x256_S128x256_0_0_1_1_n_n.lhsIdx (ix2 cl d)
      ((contrEquiv1 dot_S1024x128_S1024x256_S128x256_0_0_1_1_n_n 1024 rfl rfl).symm k) = ix2 k cl :=
    funext fun a => Fin.ext (by
      match a with
      | ⟨0, _⟩ => exact (lhs_mm_0 _ _).trans hk
      | ⟨1, _⟩ => exact lhs_mm_1 _ _)
  have er : dot_S1024x128_S1024x256_S128x256_0_0_1_1_n_n.rhsIdx (ix2 cl d)
      ((contrEquiv1 dot_S1024x128_S1024x256_S128x256_0_0_1_1_n_n 1024 rfl rfl).symm k) = ix2 k d :=
    funext fun a => Fin.ext (by
      match a with
      | ⟨0, _⟩ => exact (rhs_mm_0 _ _).trans hk
      | ⟨1, _⟩ => exact rhs_mm_1 _ _)
  rw [el, er]

/-- The three normalised blocks added, entry by entry. -/
theorem pay13_apply (x0 x1 x2 : Vec Ideal S1024x256 .f32) (r : Fin 1024) (d : Fin 256) :
    k0_pay13 (F := Ideal) x0 x1 x2 (ix2 r d) = (bprob x0 r d + bprob x1 r d) + bprob x2 r d := by
  unfold k0_pay13
  show k0_pay10 x0 (ix2 r d) + k0_pay11 x1 (ix2 r d) + k0_pay12 x2 (ix2 r d) = _
  rw [pay10_apply, pay11_apply, pay12_apply]

/-- A row's three entropy terms added. -/
theorem pay16_apply (x0 x1 x2 : Vec Ideal S1024x256 .f32) (r : Fin 1024) :
    k0_pay16 (F := Ideal) (k0_pay11 x1) (k0_pay12 x2) (k0_pay14 x0) (k0_pay15 x0) (ix2 r 0)
      = (bent x0 r + bent x1 r) + bent x2 r := by
  unfold k0_pay16 bent
  refine (addf_apply _ _ _).trans (congrArg₂ (· + ·) ((addf_apply _ _ _).trans (congrArg₂ (· + ·) ?_ ?_)) ?_)
  · refine (meanRow_apply _ _ _ _ _ r).trans (congrArg (Ideal.div · Spec.c256) (Finset.sum_congr rfl fun d _ => ?_))
    refine (show _ = Spec.xlogx (k0_pay10 (F := Ideal) x0 (ix2 r d)) from ?_).trans
      (congrArg Spec.xlogx (pay10_apply x0 r d))
    unfold k0_pay14 k0_pay15
    exact xlogx_select _
  · refine (meanRow_apply _ _ _ _ _ r).trans (congrArg (Ideal.div · Spec.c256) (Finset.sum_congr rfl fun d _ => ?_))
    exact (xlogx_select _).trans (congrArg Spec.xlogx (pay11_apply x1 r d))
  · refine (meanRow_apply _ _ _ _ _ r).trans (congrArg (Ideal.div · Spec.c256) (Finset.sum_congr rfl fun d _ => ?_))
    exact (xlogx_select _).trans (congrArg Spec.xlogx (pay12_apply x2 r d))

/-- The one-hot label matrix: one where the row's label word is the class, zero elsewhere. -/
theorem pay17_apply (x3 : Vec Ideal S1024x1 .i32) (r : Fin 1024) (cl : Fin 128) :
    k0_pay17 (F := Ideal) x3 (ix2 r cl) = if (x3 (ix2 r 0)).toNat = cl.val then 1 else 0 := by
  unfold k0_pay17
  rw [shapeCast_self]
  have e1 : broadcastTo S1024x128 x3 broadcasts_S1024x1_S1024x128 (ix2 r cl) = x3 (ix2 r 0) :=
    broadcastTo_a1_ab_apply x3 _ r cl
  have e2 : iota .tc S1024x128 32 [1] iota_S1024x128_d1_w32 (ix2 r cl) = BitVec.ofNat 32 cl.val :=
    iota_single_apply .tc S1024x128 32 1 _ (ix2 r cl)
  show (((((IntOp.cmpi .eq (broadcastTo S1024x128 x3 broadcasts_S1024x1_S1024x128 (ix2 r cl))
      (iota .tc S1024x128 32 [1] iota_S1024x128_d1_w32 (ix2 r cl))).setWidth 32).toInt : ℤ) : ℝ) : EReal) = _
  rw [e1, e2]
  exact onehot_word _ cl

/-- The class-sum update: what was there plus the column of the one-hot matrix against the column of the summed blocks. -/
theorem pay1_apply (v31 : FVec Ideal S1024x256 .f32) (v82 : FVec Ideal S1024x128 .f32) (acc : Vec Ideal S128x256 .f32)
    (cl : Fin 128) (d : Fin 256) :
    k0_pay1 (F := Ideal) v31 v82 acc (ix2 cl d) = acc (ix2 cl d) + ∑ r : Fin 1024, v82 (ix2 r cl) * v31 (ix2 r d) := by
  unfold k0_pay1
  rw [shapeCast_self]
  refine (addf_apply _ _ _).trans (congrArg (acc (ix2 cl d) + ·) ?_)
  exact matmulBlock_apply v82 v31 cl d

/-- The count update: what was there plus the one-hot column's sum. -/
theorem pay2_apply (v82 : FVec Ideal S1024x128 .f32) (acc : Vec Ideal S1x128 .f32) (cl : Fin 128) :
    k0_pay2 (F := Ideal) v82 acc (ix2 0 cl) = acc (ix2 0 cl) + ∑ r : Fin 1024, v82 (ix2 r cl) := by
  unfold k0_pay2
  rw [shapeCast_self]
  refine (addf_apply _ _ _).trans (congrArg (acc (ix2 0 cl) + ·) ?_)
  refine (shapeCast_a_1a_apply _ _ 0 cl).trans ?_
  exact colSum_apply v82 _ _ _ cl

/-- The entropy update: what was there plus the one-hot column weighted by the rows' entropy terms. -/
theorem pay3_apply (v75 : FVec Ideal S1024x1 .f32) (v82 : FVec Ideal S1024x128 .f32) (acc : Vec Ideal S1x128 .f32) (cl : Fin 128) :
    k0_pay3 (F := Ideal) v75 v82 acc (ix2 0 cl) = acc (ix2 0 cl) + ∑ r : Fin 1024, v82 (ix2 r cl) * v75 (ix2 r 0) := by
  unfold k0_pay3
  rw [shapeCast_self]
  refine (addf_apply _ _ _).trans (congrArg (acc (ix2 0 cl) + ·) ?_)
  refine (shapeCast_a_1a_apply _ _ 0 cl).trans ?_
  refine (colSum_apply _ _ _ _ cl).trans ?_
  refine Finset.sum_congr rfl fun r _ => ?_
  refine (mulf_apply _ _ _).trans (congrArg (v82 (ix2 r cl) * ·) ?_)
  exact broadcastTo_a1_ab_apply v75 _ r cl

/-- The accumulators restart from zero. -/
theorem pay7_apply (cl : Fin 128) (d : Fin 256) : k0_pay7 (F := Ideal) (ix2 cl d) = 0 := by
  unfold k0_pay7
  rw [shapeCast_self]
  exact Ideal.ofBits_zero_f32
theorem pay8_apply (cl : Fin 128) : k0_pay8 (F := Ideal) (ix2 0 cl) = 0 := by
  unfold k0_pay8
  rw [shapeCast_self]
  exact Ideal.ofBits_zero_f32
theorem pay9_apply (cl : Fin 128) : k0_pay9 (F := Ideal) (ix2 0 cl) = 0 := by
  unfold k0_pay9
  rw [shapeCast_self]
  exact Ideal.ofBits_zero_f32

/-- The output blocks: the class sums as they are, the counts times three, the entropy sums as they are. -/
theorem pay4_apply (v : Vec Ideal S128x256 .f32) (cl : Fin 128) (d : Fin 256) :
    k0_pay4 (F := Ideal) v (ix3 0 cl d) = v (ix2 cl d) := by
  unfold k0_pay4
  exact shapeCast_ab_1ab_apply v _ 0 cl d
theorem pay5_apply (v : Vec Ideal S1x128 .f32) (cl : Fin 128) :
    k0_pay5 (F := Ideal) v (ix3 0 0 cl) = v (ix2 0 cl) * Spec.c3 := by
  unfold k0_pay5
  refine (shapeCast_ab_1ab_apply _ _ 0 0 cl).trans ?_
  rfl
theorem pay6_apply (v : Vec Ideal S1x128 .f32) (cl : Fin 128) :
    k0_pay6 (F := Ideal) v (ix3 0 0 cl) = v (ix2 0 cl) := by
  unfold k0_pay6
  exact shapeCast_ab_1ab_apply v _ 0 0 cl

end Cert.KernelIdeal.KV

end
-- ==== Proof.KIblk.lean ====
/-
  A grid point's input blocks are rows of the argument arrays: row `r` of point `t`'s block of each of the three
  float arrays is row `1024 t + r` of that array, and the label block, staged from the labels reshaped to a column,
  holds at row `r` the label word of row `1024 t + r`.
-/
import proofs.«406337_j8349416423452_2_alg».proof.Proof.KCommon
import Idealize.ShloMosaic.Lib.ValueIdx
import Idealize.ShloMosaic.Lib.StableHlo.Run

noncomputable section

open Idealize.ShloMosaic Idealize.ShloMosaic.TcCoe Idealize.SL.Sem
open Idealize.ShloMosaic.Pipeline (Dat)

namespace Cert.KernelIdeal.KV

open Cert.KernelIdeal Cert.KernelIdeal.Gen

open Idealize.ShloMosaic.ValueIdx

variable {F : FTy → Type} [FloatOps F]
variable (m : (ℓ : Loc nD τ sig) → Buf (Elt F) ℓ)

/-- Each of the four input windows stages, at grid point `t`, the row block numbered `t`: block index `(t, 0)`. -/
theorem index0 : ∀ t : Fin grid0.N, win0_0.index t 0 = t.val ∧ win0_0.index t 1 = 0 := by decide +kernel
/-- The second window likewise. -/
theorem index1 : ∀ t : Fin grid0.N, win0_1.index t 0 = t.val ∧ win0_1.index t 1 = 0 := by decide +kernel
/-- The third window likewise. -/
theorem index2 : ∀ t : Fin grid0.N, win0_2.index t 0 = t.val ∧ win0_2.index t 1 = 0 := by decide +kernel
/-- The label window likewise. -/
theorem index3 : ∀ t : Fin grid0.N, win0_3.index t 0 = t.val ∧ win0_3.index t 1 = 0 := by decide +kernel

/-- Row `r`, column `d` of point `t`'s first block is row `1024 t + r`, column `d` of the first argument. -/
theorem blk0_apply (c : Dev nD) (t : Fin cfg0.N) (r : Fin 1024) (d : Fin 256) :
    blk0 m c t (ix2 r d) = m ((c.tc : Thread nD τ).loc main_arg0) (ix2 (rowIdx t r) d) := by
  have hi := index0 t
  unfold blk0 iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = t.val * 1024 + r.val; rw [hi.1]; omega
  | ⟨1, _⟩ => show win0_0.index t 1 * 256 + 1 * d.val = d.val; rw [hi.2]; omega

/-- Row `r`, column `d` of point `t`'s second block is row `1024 t + r`, column `d` of the second argument. -/
theorem blk1_apply (c : Dev nD) (t : Fin cfg0.N) (r : Fin 1024) (d : Fin 256) :
    blk1 m c t (ix2 r d) = m ((c.tc : Thread nD τ).loc main_arg1) (ix2 (rowIdx t r) d) := by
  have hi := index1 t
  unfold blk1 iblk
  rw [View.read_apply]
  show V m c main_arg1 _ = m (c.tc.loc main_arg1) _
  rw [V_main_arg1]
  congr 1
  funext a
  apply Fin.ext
  match a with
  | ⟨0, _⟩ => show win0_1.index t 0 * 1024 + 1 * r.val = t.val * 1024 + r.val; rw [hi.1]; omega
  | ⟨1, _⟩ => show win0_1.index t 1 * 256 + 1 * d.val = d.val; rw [hi.2]; omega

/-- Row `r`, column `d` of point `t`'s third block is row `1024 t + r`, column `d` of the third argument. -/
theorem blk2_apply (c : Dev nD) (t : Fin cfg0.N) (r : Fin 1024) (d : Fin 256) :
    blk2 m c t (ix2 r d) = m ((c.tc : Thread nD τ).loc main_arg2) (ix2 (rowIdx t r) d) := by
  have hi := index2 t
  unfold blk2 iblk
  rw [View.read_apply]
  show V m c main_arg2 _ = m (c.tc.loc main_arg2) _
  rw [V_main_arg2]
  congr 1
  funext a
  apply Fin.ext
  match a with
  | ⟨0, _⟩ => show win0_2.index t 0 * 1024 + 1 * r.val = t.val * 1024 + r.val; rw [hi.1]; omega
  | ⟨1, _⟩ => show win0_2.index t 1 * 256 + 1 * d.val = d.val; rw [hi.2]; omega

/-- The array window 3 stages is the label vector reshaped to a column: the one host operation before the region. -/
theorem labels_reshaped (c : Dev nD) :
    (V m c main_v0 : S65536x1.Idx → BitVec 32) = shapeCast S65536x1 (m ((c.tc : Thread nD τ).loc main_arg3)) shapeCasts_S65536_S65536x1 := by
  show StableHlo.after hostOps0 (fun b => m (c, b)) (Proc.devRef .tc main_v0) = _
  after_results
  rfl

/-- Row `r` of point `t`'s label block is the label word of row `1024 t + r`: the column's row-major position
    `(1024 t + r) · 1 + 0` is the vector's position `1024 t + r`. -/
theorem blkL_apply (c : Dev nD) (t : Fin cfg0.N) (r : Fin 1024) :
    blkL m c t (ix2 r 0) = m ((c.tc : Thread nD τ).loc main_arg3) (ix1 (rowIdx t r)) := by
  have hi := index3 t
  unfold blkL iblk
  rw [View.read_apply]
  show V m c main_v0 _ = _
  rw [labels_reshaped]
  refine shapeCast_apply _ _ _ (ix1 (rowIdx t r)) ?_
  rw [Shape.rowMajor_val_two, Shape.rowMajor_val_one]
  show t.val * 1024 + r.val = (win0_3.index t 0 * 1024 + 1 * r.val) * 1 + (win0_3.index t 1 * 1 + 1 * 0)
  rw [hi.1, hi.2]
  omega

end Cert.KernelIdeal.KV

end
-- ==== Proof.KSums.lean ====
/-
  The accumulators at a core's last point, over the extended reals: entry by entry they are the sums, over the core's
  32 steps and each step's 1024 rows, of the one-hot label entries against the summed normalised rows, of the one-hot
  entries alone, and of the one-hot entries against the rows' entropy terms.

  One step adds to an accumulator entry a sum over the block's 1024 rows; the block's rows are rows of the argument
  arrays, so the summand is the specification's; the accumulator restarts from zero at a core's first point, so after
  step s it holds the steps' sums up to s, and at step 31 all 32 of them.
-/
import proofs.«406337_j8349416423452_2_alg».proof.Proof.KAccum
import proofs.«406337_j8349416423452_2_alg».proof.Proof.KBlock
import proofs.«406337_j8349416423452_2_alg».proof.Proof.KIblk
import Mathlib.Algebra.BigOperators.Fin

noncomputable section

open Idealize.ShloMosaic Idealize.ShloMosaic.TcCoe Idealize.SL.Sem
open Idealize.ShloMosaic.Pipeline (Dat)

namespace Cert.KernelIdeal.KV

open Cert.KernelIdeal Cert.KernelIdeal.Gen

open Idealize.ShloMosaic.ValueIdx
open scoped BigOperators

/-! ## A block row that is a row of an argument array -/

/-- A block whose row `r` is row `i` of an array has that row's normalised entries. -/
private theorem bprob_of_row (x : Vec Ideal S1024x256 .f32) (X : Spec.Rows) (r : Fin 1024) (i : Fin 65536)
    (h : ∀ d, x (ix2 r d) = X i d) (d : Fin 256) : bprob x r d = Spec.prob X i d := by
  have e : (∑ k : Fin 256, x (ix2 r k) * x (ix2 r k)) = ∑ k : Fin 256, X i k * X i k :=
    Finset.sum_congr rfl fun k _ => by rw [h k]
  unfold bprob Spec.prob
  rw [h d, e]

/-- A block whose row `r` is row `i` of an array has that row's entropy term. -/
private theorem bent_of_row (x : Vec Ideal S1024x256 .f32) (X : Spec.Rows) (r : Fin 1024) (i : Fin 65536)
    (h : ∀ d, x (ix2 r d) = X i d) : bent x r = Spec.ent X i := by
  have e : (∑ d : Fin 256, Spec.xlogx (bprob x r d)) = ∑ d : Fin 256, Spec.xlogx (Spec.prob X i d) :=
    Finset.sum_congr rfl fun d _ => congrArg Spec.xlogx (bprob_of_row x X r i h d)
  unfold bent Spec.ent
  rw [e]

/-! ## Thirty-two steps from zero -/

/-- A quantity that is `0 + T 0` at a core's first point and gains `T s` at step `s` is, at the core's last point,
the sum of the 32 gains. -/
private theorem steps_sum (k : Fin 2) (a : (n : ℕ) → n < cfg0.N → EReal) (T : Fin 32 → EReal)
    (h0 : ∀ h, a (32 * k.val + 0) h = 0 + T ⟨0, by norm_num⟩)
    (hs : ∀ (s : ℕ) (hs : s + 1 < 32) (h : 32 * k.val + (s + 1) < cfg0.N) (h' : 32 * k.val + s < cfg0.N),
      a (32 * k.val + (s + 1)) h = a (32 * k.val + s) h' + T ⟨s + 1, hs⟩) :
    a (32 * k.val + 31) (lastPt_lt k) = ∑ s : Fin 32, T s := by
  have key : ∀ (s : ℕ) (hlt : s < 32) (h : 32 * k.val + s < cfg0.N),
      a (32 * k.val + s) h = ∑ j ∈ Finset.range (s + 1), (if hj : j < 32 then T ⟨j, hj⟩ else 0) := by
    intro s
    induction s with
    | zero =>
      intro hlt h
      rw [h0 h, zero_add, Finset.sum_range_one, dif_pos hlt]
    | succ s ih =>
      intro hlt h
      have h' : 32 * k.val + s < cfg0.N := by omega
      rw [hs s hlt h h', ih (by omega) h', Finset.sum_range_succ _ (s + 1), dif_pos hlt]
  rw [key 31 (by norm_num) _, Finset.sum_range]
  exact Finset.sum_congr rfl fun s _ => by rw [dif_pos s.isLt]

variable (m : (ℓ : Loc nD τ sig) → Buf (Elt Ideal) ℓ)

/-! ## The accumulators' recursion, one point at a time -/

private theorem accSeg_restart (c : Dev nD) (n : ℕ) (h : n < cfg0.N) (h0 : n % 32 = 0) :
    accSeg m c n h = segStep (blk0 m c ⟨n, h⟩) (blk1 m c ⟨n, h⟩) (blk2 m c ⟨n, h⟩) (blkL m c ⟨n, h⟩) (k0_pay7 (F := Ideal)) := by
  cases n with
  | zero => rw [accSeg]
  | succ n => rw [accSeg, if_pos h0]

private theorem accSeg_succ (c : Dev nD) (n : ℕ) (h : n + 1 < cfg0.N) (h0 : ¬(n + 1) % 32 = 0) :
    accSeg m c (n + 1) h = segStep (blk0 m c ⟨n + 1, h⟩) (blk1 m c ⟨n + 1, h⟩) (blk2 m c ⟨n + 1, h⟩) (blkL m c ⟨n + 1, h⟩)
      (accSeg m c n (Nat.lt_of_succ_lt h)) := by
  rw [accSeg, if_neg h0]

private theorem accCnt_restart (c : Dev nD) (n : ℕ) (h : n < cfg0.N) (h0 : n % 32 = 0) :
    accCnt m c n h = cntStep (blkL m c ⟨n, h⟩) (k0_pay8 (F := Ideal)) := by
  cases n with
  | zero => rw [accCnt]
  | succ n => rw [accCnt, if_pos h0]

private theorem accCnt_succ (c : Dev nD) (n : ℕ) (h : n + 1 < cfg0.N) (h0 : ¬(n + 1) % 32 = 0) :
    accCnt m c (n + 1) h = cntStep (blkL m c ⟨n + 1, h⟩) (accCnt m c n (Nat.lt_of_succ_lt h)) := by
  rw [accCnt, if_neg h0]

private theorem accEnt_restart (c : Dev nD) (n : ℕ) (h : n < cfg0.N) (h0 : n % 32 = 0) :
    accEnt m c n h = entStep (blk0 m c ⟨n, h⟩) (blk1 m c ⟨n, h⟩) (blk2 m c ⟨n, h⟩) (blkL m c ⟨n, h⟩) (k0_pay9 (F := Ideal)) := by
  cases n with
  | zero => rw [accEnt]
  | succ n => rw [accEnt, if_pos h0]

private theorem accEnt_succ (c : Dev nD) (n : ℕ) (h : n + 1 < cfg0.N) (h0 : ¬(n + 1) % 32 = 0) :
    accEnt m c (n + 1) h = entStep (blk0 m c ⟨n + 1, h⟩) (blk1 m c ⟨n + 1, h⟩) (blk2 m c ⟨n + 1, h⟩) (blkL m c ⟨n + 1, h⟩)
      (accEnt m c n (Nat.lt_of_succ_lt h)) := by
  rw [accEnt, if_neg h0]

/-! ## One step's gain at an entry, in the specification's terms -/

/-- Step `s` of core `k`: what the class-sum entry `(cl, d)` gains. -/
private def segTerm (c : Dev nD) (k : Fin 2) (cl : Fin 128) (d : Fin 256) (s : Fin 32) : EReal :=
  ∑ r : Fin 1024, Spec.hot (LB m c) (Spec.rowOf k s r) cl.val * Spec.comb (X0 m c) (X1 m c) (X2 m c) (Spec.rowOf k s r) d
/-- Step `s` of core `k`: what the count entry `cl` gains. -/
private def cntTerm (c : Dev nD) (k : Fin 2) (cl : Fin 128) (s : Fin 32) : EReal :=
  ∑ r : Fin 1024, Spec.hot (LB m c) (Spec.rowOf k s r) cl.val
/-- Step `s` of core `k`: what the entropy entry `cl` gains. -/
private def entTerm (c : Dev nD) (k : Fin 2) (cl : Fin 128) (s : Fin 32) : EReal :=
  ∑ r : Fin 1024, Spec.hot (LB m c) (Spec.rowOf k s r) cl.val * Spec.ents (X0 m c) (X1 m c) (X2 m c) (Spec.rowOf k s r)

/-- Row `r` of the block of point `32 k + s` is row `r` of step `s` of core `k`. -/
private theorem rowIdx_eq_rowOf (k : Fin 2) (s : ℕ) (hs : s < 32) (t : Fin cfg0.N) (ht : t.val = 32 * k.val + s) (r : Fin 1024) :
    rowIdx t r = Spec.rowOf k ⟨s, hs⟩ r := by
  apply Fin.ext
  show t.val * 1024 + r.val = (k.val * 32 + s) * 1024 + r.val
  rw [ht]
  omega

private theorem segStep_pt (c : Dev nD) (k : Fin 2) (s : ℕ) (hs : s < 32) (t : Fin cfg0.N) (ht : t.val = 32 * k.val + s)
    (acc : Vec Ideal S128x256 .f32) (cl : Fin 128) (d : Fin 256) :
    segStep (blk0 m c t) (blk1 m c t) (blk2 m c t) (blkL m c t) acc (ix2 cl d)
      = acc (ix2 cl d) + segTerm m c k cl d ⟨s, hs⟩ := by
  unfold segTerm
  show k0_pay1 (k0_pay13 (blk0 m c t) (blk1 m c t) (blk2 m c t)) (k0_pay17 (blkL m c t)) acc (ix2 cl d) = _
  rw [pay1_apply]
  refine congrArg (acc (ix2 cl d) + ·) (Finset.sum_congr rfl fun r _ => ?_)
  rw [pay17_apply, pay13_apply, blkL_apply, ← rowIdx_eq_rowOf k s hs t ht r,
    bprob_of_row (blk0 m c t) (X0 m c) r (rowIdx t r) (fun d => blk0_apply m c t r d) d,
    bprob_of_row (blk1 m c t) (X1 m c) r (rowIdx t r) (fun d => blk1_apply m c t r d) d,
    bprob_of_row (blk2 m c t) (X2 m c) r (rowIdx t r) (fun d => blk2_apply m c t r d) d]
  rfl

private theorem cntStep_pt (c : Dev nD) (k : Fin 2) (s : ℕ) (hs : s < 32) (t : Fin cfg0.N) (ht : t.val = 32 * k.val + s)
    (acc : Vec Ideal S1x128 .f32) (cl : Fin 128) :
    cntStep (blkL m c t) acc (ix2 0 cl) = acc (ix2 0 cl) + cntTerm m c k cl ⟨s, hs⟩ := by
  unfold cntTerm
  show k0_pay2 (k0_pay17 (blkL m c t)) acc (ix2 0 cl) = _
  rw [pay2_apply]
  refine congrArg (acc (ix2 0 cl) + ·) (Finset.sum_congr rfl fun r _ => ?_)
  rw [pay17_apply, blkL_apply, ← rowIdx_eq_rowOf k s hs t ht r]
  rfl

private theorem entStep_pt (c : Dev nD) (k : Fin 2) (s : ℕ) (hs : s < 32) (t : Fin cfg0.N) (ht : t.val = 32 * k.val + s)
    (acc : Vec Ideal S1x128 .f32) (cl : Fin 128) :
    entStep (blk0 m c t) (blk1 m c t) (blk2 m c t) (blkL m c t) acc (ix2 0 cl)
      = acc (ix2 0 cl) + entTerm m c k cl ⟨s, hs⟩ := by
  unfold entTerm
  show k0_pay3 (k0_pay16 (k0_pay11 (blk1 m c t)) (k0_pay12 (blk2 m c t)) (k0_pay14 (blk0 m c t)) (k0_pay15 (blk0 m c t)))
    (k0_pay17 (blkL m c t)) acc (ix2 0 cl) = _
  rw [pay3_apply]
  refine congrArg (acc (ix2 0 cl) + ·) (Finset.sum_congr rfl fun r _ => ?_)
  rw [pay17_apply, pay16_apply, blkL_apply, ← rowIdx_eq_rowOf k s hs t ht r,
    bent_of_row (blk0 m c t) (X0 m c) r (rowIdx t r) (fun d => blk0_apply m c t r d),
    bent_of_row (blk1 m c t) (X1 m c) r (rowIdx t r) (fun d => blk1_apply m c t r d),
    bent_of_row (blk2 m c t) (X2 m c) r (rowIdx t r) (fun d => blk2_apply m c t r d)]
  rfl

/-! ## The accumulators at a core's last point -/

theorem accSeg_last (c : Dev nD) (k : Fin 2) (cl : Fin 128) (d : Fin 256) :
    accSeg m c (32 * k.val + 31) (lastPt_lt k) (ix2 cl d) = Spec.segPC (X0 m c) (X1 m c) (X2 m c) (LB m c) k cl.val d := by
  have h0 : ∀ h, accSeg m c (32 * k.val + 0) h (ix2 cl d) = 0 + segTerm m c k cl d ⟨0, by norm_num⟩ := by
    intro h
    rw [accSeg_restart m c _ h (by omega), segStep_pt m c k 0 (by norm_num) ⟨_, h⟩ rfl, pay7_apply]
  have hs : ∀ (s : ℕ) (hs : s + 1 < 32) (h : 32 * k.val + (s + 1) < cfg0.N) (h' : 32 * k.val + s < cfg0.N),
      accSeg m c (32 * k.val + (s + 1)) h (ix2 cl d) = accSeg m c (32 * k.val + s) h' (ix2 cl d) + segTerm m c k cl d ⟨s + 1, hs⟩ := by
    intro s hs h h'
    have e : accSeg m c (32 * k.val + (s + 1)) h
        = segStep (blk0 m c ⟨32 * k.val + (s + 1), h⟩) (blk1 m c ⟨32 * k.val + (s + 1), h⟩)
            (blk2 m c ⟨32 * k.val + (s + 1), h⟩) (blkL m c ⟨32 * k.val + (s + 1), h⟩) (accSeg m c (32 * k.val + s) h') :=
      accSeg_succ m c (32 * k.val + s) h (by omega)
    rw [e, segStep_pt m c k (s + 1) hs ⟨_, h⟩ rfl]
  exact steps_sum k (fun n h => accSeg m c n h (ix2 cl d)) (segTerm m c k cl d) h0 hs

theorem accCnt_last (c : Dev nD) (k : Fin 2) (cl : Fin 128) :
    accCnt m c (32 * k.val + 31) (lastPt_lt k) (ix2 0 cl)
      = ∑ s : Fin 32, ∑ r : Fin 1024, Spec.hot (LB m c) (Spec.rowOf k s r) cl.val := by
  have h0 : ∀ h, accCnt m c (32 * k.val + 0) h (ix2 0 cl) = 0 + cntTerm m c k cl ⟨0, by norm_num⟩ := by
    intro h
    rw [accCnt_restart m c _ h (by omega), cntStep_pt m c k 0 (by norm_num) ⟨_, h⟩ rfl, pay8_apply]
  have hs : ∀ (s : ℕ) (hs : s + 1 < 32) (h : 32 * k.val + (s + 1) < cfg0.N) (h' : 32 * k.val + s < cfg0.N),
      accCnt m c (32 * k.val + (s + 1)) h (ix2 0 cl) = accCnt m c (32 * k.val + s) h' (ix2 0 cl) + cntTerm m c k cl ⟨s + 1, hs⟩ := by
    intro s hs h h'
    have e : accCnt m c (32 * k.val + (s + 1)) h
        = cntStep (blkL m c ⟨32 * k.val + (s + 1), h⟩) (accCnt m c (32 * k.val + s) h') :=
      accCnt_succ m c (32 * k.val + s) h (by omega)
    rw [e, cntStep_pt m c k (s + 1) hs ⟨_, h⟩ rfl]
  exact steps_sum k (fun n h => accCnt m c n h (ix2 0 cl)) (cntTerm m c k cl) h0 hs

theorem accEnt_last (c : Dev nD) (k : Fin 2) (cl : Fin 128) :
    accEnt m c (32 * k.val + 31) (lastPt_lt k) (ix2 0 cl) = Spec.tPC (X0 m c) (X1 m c) (X2 m c) (LB m c) k cl.val := by
  have h0 : ∀ h, accEnt m c (32 * k.val + 0) h (ix2 0 cl) = 0 + entTerm m c k cl ⟨0, by norm_num⟩ := by
    intro h
    rw [accEnt_restart m c _ h (by omega), entStep_pt m c k 0 (by norm_num) ⟨_, h⟩ rfl, pay9_apply]
  have hs : ∀ (s : ℕ) (hs : s + 1 < 32) (h : 32 * k.val + (s + 1) < cfg0.N) (h' : 32 * k.val + s < cfg0.N),
      accEnt m c (32 * k.val + (s + 1)) h (ix2 0 cl) = accEnt m c (32 * k.val + s) h' (ix2 0 cl) + entTerm m c k cl ⟨s + 1, hs⟩ := by
    intro s hs h h'
    have e : accEnt m c (32 * k.val + (s + 1)) h
        = entStep (blk0 m c ⟨32 * k.val + (s + 1), h⟩) (blk1 m c ⟨32 * k.val + (s + 1), h⟩)
            (blk2 m c ⟨32 * k.val + (s + 1), h⟩) (blkL m c ⟨32 * k.val + (s + 1), h⟩) (accEnt m c (32 * k.val + s) h') :=
      accEnt_succ m c (32 * k.val + s) h (by omega)
    rw [e, entStep_pt m c k (s + 1) hs ⟨_, h⟩ rfl]
  exact steps_sum k (fun n h => accEnt m c n h (ix2 0 cl)) (entTerm m c k cl) h0 hs

end Cert.KernelIdeal.KV

end
-- ==== Proof.KTailDef.lean ====
/-
  The host's lines after the region, as one function of the three result arrays: the two cores' statistics are summed,
  each class's contribution formed from its summed rows, its count kept at least one and its summed entropy terms, and
  the contributions summed and weighted.
-/
import proofs.«406337_j8349416423452_2_alg».proof.KernelIdeal
import proofs.«406337_j8349416423452_2_alg».proof.Proof.Spec
import Idealize.ShloMosaic.Lib.ValueIdx
import Idealize.ShloMosaic.PureOps.Ideal
import Idealize.ShloMosaic.PureOps.Ideal.Laws
import Idealize.ShloMosaic.Lib.Pipeline.Value

noncomputable section

open Idealize.ShloMosaic Idealize.SL.Sem

namespace Cert.KernelIdeal.KV

open Cert.KernelIdeal
open Cert.KernelIdeal.Facts₀ Cert.KernelIdeal.Facts

open Idealize.ShloMosaic.ValueIdx
open scoped BigOperators

variable [Facts]

/-- The lines after the region: from the per-core class sums `A4`, counts `A5` and entropy sums `A6` to the loss. -/
def tailK {F : FTy → Type} [FloatOps F] (A4 : FVec F S2x128x256 .f32) (A5 A6 : FVec F S2x1x128 .f32) : FVec F S_ .f32 :=
  -- the class sums, counts and entropy sums added over the two cores
  let v2 : FVec F S128x256 .f32 := Host.reduceAdd A4 (constant (F := F) S_ .f32 0x00000000#32) reducesTo_S2x128x256_S128x256_d0 h_S_
  let v3 : FVec F S1x128 .f32 := Host.reduceAdd A5 (constant (F := F) S_ .f32 0x00000000#32) reducesTo_S2x1x128_S1x128_d0 h_S_
  let v4 : FVec F S128x1 .f32 := shapeCast S128x1 v3 shapeCasts_S1x128_S128x1
  let v5 : FVec F S1x128 .f32 := Host.reduceAdd A6 (constant (F := F) S_ .f32 0x00000000#32) reducesTo_S2x1x128_S1x128_d0 h_S_
  let v6 : FVec F S128x1 .f32 := shapeCast S128x1 v5 shapeCasts_S1x128_S128x1
  -- the count kept at least one
  let v7 : FVec F S128x1 .f32 := broadcastInDim S128x1 ![] bcast_S_S128x1 (constant (F := F) S_ .f32 0x3F800000#32)
  let v8 : FVec F S128x1 .f32 := maximumf v4 v7
  -- the class mean kept above the small constant, its logarithm against the class sum, summed over the columns
  let v9 : FVec F S128x256 .f32 := broadcastInDim S128x256 ![0, 1] bcast_S128x1_S128x256_0_1 v8
  let v10 : FVec F S128x256 .f32 := Host.divf v2 v9
  let v11 : FVec F S128x256 .f32 := broadcastInDim S128x256 ![] bcast_S_S128x256 (constant (F := F) S_ .f32 0x33D6BF95#32)
  let v12 : FVec F S128x256 .f32 := maximumf v10 v11
  let v13 : FVec F S128x256 .f32 := Host.log v12
  let v14 : FVec F S128x256 .f32 := mulf v2 v13
  let v15 : FVec F S128 .f32 := Host.reduceAdd v14 (constant (F := F) S_ .f32 0x00000000#32) reducesTo_S128x256_S128_d1 h_S_
  let v16 : FVec F S128x1 .f32 := broadcastInDim S128x1 ![0] bcast_S128_S128x1_0 v15
  -- the mean over the 256 columns, taken off the entropy sum, over the kept count
  let v17 : FVec F S128x1 .f32 := broadcastInDim S128x1 ![] bcast_S_S128x1 (constant (F := F) S_ .f32 0x43800000#32)
  let v18 : FVec F S128x1 .f32 := Host.divf v16 v17
  let v19 : FVec F S128x1 .f32 := subf v6 v18
  let v20 : FVec F S128x1 .f32 := Host.divf v19 v8
  -- the classes' contributions summed and weighted
  let v21 : FVec F S_ .f32 := Host.reduceAdd v20 (constant (F := F) S_ .f32 0x00000000#32) reducesTo_S128x1_S_d0_1 h_S_
  mulf (constant (F := F) S_ .f32 0x3C23D70A#32) v21

/-! ## The host's operations read at an index given by coordinates -/

section TailHelpers
variable {α : Type}

/-- One row `[1, a]` viewed as one column `[a, 1]` reads, at `(i, u)`, the row at `i`. -/
theorem shapeCast_1a_a1_apply {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- A scalar repeated over a shape reads the scalar everywhere. -/
theorem broadcastInDim_scalar_apply {t : Shape} (dims : Fin S_.rank → Fin t.rank) (h : S_.BroadcastsInDim t dims)
    (x : S_.Idx → α) (j : t.Idx) : broadcastInDim t dims h x j = x ix0 :=
  broadcastInDim_apply dims h x j ix0 (fun a => a.elim0)

/-- The column of 128 kept counts repeated over the 256 columns reads, at `(cl, d)`, the column at `cl`. -/
theorem bcast_128x1_128x256_apply (h : S128x1.BroadcastsInDim S128x256 (![0, 1] : Fin 2 → Fin S128x256.rank))
    (x : S128x1.Idx → α) (cl : Fin 128) (d : Fin 256) :
    broadcastInDim S128x256 ![0, 1] h x (ix2 cl d) = x (ix2 cl (0 : Fin 1)) :=
  broadcastInDim_apply _ h x _ _ (fun ax => match ax with
    | ⟨0, _⟩ => by show cl.val = if (128 : ℕ) = 1 then 0 else cl.val; rw [if_neg (by decide)]
    | ⟨1, _⟩ => rfl)

/-- A vector of 128 entries kept as a column reads, at `(cl, u)`, the vector at `cl`. -/
theorem bcast_128_128x1_apply (h : S128.BroadcastsInDim S128x1 (![0] : Fin 1 → Fin S128x1.rank))
    (x : S128.Idx → α) (cl : Fin 128) (u : Fin 1) :
    broadcastInDim S128x1 ![0] h x (ix2 cl u) = x (ix1 cl) :=
  broadcastInDim_apply _ h x _ _ (fun ax => match ax with
    | ⟨0, _⟩ => by show cl.val = if (128 : ℕ) = 1 then 0 else cl.val; rw [if_neg (by decide)])

/-- The host's division and logarithm at an index, over the extended reals. -/
theorem hostDivf_apply {s : Shape} {φ : FTy} (a b : FVec Ideal s φ) (i : s.Idx) :
    Host.divf a b i = Ideal.div (a i) (b i) := rfl
theorem hostLog_apply {s : Shape} {φ : FTy} (a : FVec Ideal s φ) (i : s.Idx) : Host.log a i = Ideal.log (a i) := rfl

/-- The class sums added over the two cores, from the zero word: at class `cl` and column `d`. -/
theorem coreSum3_apply (A : FVec Ideal S2x128x256 .f32) (h' : S2x128x256.ReducesTo [0] S128x256) (hu : 0 < S_.numel)
    (cl : Fin 128) (d : Fin 256) :
    Host.reduceAdd A (constant (F := Ideal) S_ .f32 0x00000000#32) h' hu (ix2 cl d) = ∑ k : Fin 2, A (ix3 k cl d) := by
  simp only [Host.reduceAdd, Ideal.hostReduceAdd_def]
  rw [Ideal.hostReduceAdd_single h' (by decide)]
  show Ideal.ofBits .f32 0x00000000#32 + _ = _
  rw [Ideal.ofBits_zero_f32, zero_add]
  refine Finset.sum_congr rfl fun k _ => congrArg A ?_
  funext a
  match a with
  | ⟨0, _⟩ => rfl
  | ⟨1, _⟩ => rfl
  | ⟨2, _⟩ => rfl

/-- A row of 128 statistics added over the two cores, from the zero word. -/
theorem coreSum2_apply (A : FVec Ideal S2x1x128 .f32) (h' : S2x1x128.ReducesTo [0] S1x128) (hu : 0 < S_.numel)
    (u : Fin 1) (cl : Fin 128) :
    Host.reduceAdd A (constant (F := Ideal) S_ .f32 0x00000000#32) h' hu (ix2 u cl) = ∑ k : Fin 2, A (ix3 k u cl) := by
  simp only [Host.reduceAdd, Ideal.hostReduceAdd_def]
  rw [Ideal.hostReduceAdd_single h' (by decide)]
  show Ideal.ofBits .f32 0x00000000#32 + _ = _
  rw [Ideal.ofBits_zero_f32, zero_add]
  refine Finset.sum_congr rfl fun k _ => congrArg A ?_
  funext a
  match a with
  | ⟨0, _⟩ => rfl
  | ⟨1, _⟩ => rfl
  | ⟨2, _⟩ => rfl

/-- A class's sum over the 256 columns, from the zero word. -/
theorem rowSum128_apply (v : FVec Ideal S128x256 .f32) (h' : S128x256.ReducesTo [1] S128) (hu : 0 < S_.numel) (cl : Fin 128) :
    Host.reduceAdd v (constant (F := Ideal) S_ .f32 0x00000000#32) h' hu (ix1 cl) = ∑ d : Fin 256, v (ix2 cl d) := by
  simp only [Host.reduceAdd, Ideal.hostReduceAdd_def]
  rw [Ideal.hostReduceAdd_single h' (by decide)]
  show Ideal.ofBits .f32 0x00000000#32 + _ = _
  rw [Ideal.ofBits_zero_f32, zero_add]
  refine Finset.sum_congr rfl fun k _ => congrArg v ?_
  funext a
  match a with
  | ⟨0, _⟩ => rfl
  | ⟨1, _⟩ => rfl

/-- The column of 128 contributions added up, from the zero word: the sum over the classes. -/
theorem totalSum_apply (v : FVec Ideal S128x1 .f32) (h' : S128x1.ReducesTo [0, 1] S_) (hu : 0 < S_.numel) (i : S_.Idx) :
    Host.reduceAdd v (constant (F := Ideal) S_ .f32 0x00000000#32) h' hu i = ∑ cl : Fin 128, v (ix2 cl (0 : Fin 1)) := by
  simp only [Host.reduceAdd, Ideal.hostReduceAdd_def]
  rw [Ideal.hostReduceAdd_total h' (fun b => b.elim0)]
  show Ideal.ofBits .f32 0x00000000#32 + _ = _
  rw [Ideal.ofBits_zero_f32, zero_add]
  refine (sum_idx2 v).trans (Finset.sum_congr rfl fun cl _ => ?_)
  exact Fin.sum_univ_one _

/-- The count summed over the two cores and kept at least one, at class `cl`. -/
theorem clamp_read (A5 : FVec Ideal S2x1x128 .f32) (cn : Fin 2 → Fin 128 → EReal)
    (h5 : ∀ k cl, A5 (ix3 k 0 cl) = cn k cl) (h' : S2x1x128.ReducesTo [0] S1x128) (hu : 0 < S_.numel)
    (hs : S1x128.ShapeCasts S128x1) (hb : S_.BroadcastsInDim S128x1 (![] : Fin 0 → Fin S128x1.rank)) (cl : Fin 128) :
    maximumf (shapeCast S128x1 (Host.reduceAdd A5 (constant (F := Ideal) S_ .f32 0x00000000#32) h' hu) hs)
        (broadcastInDim S128x1 ![] hb (constant (F := Ideal) S_ .f32 0x3F800000#32)) (ix2 cl (0 : Fin 1))
      = Spec.clampCnt (∑ k : Fin 2, cn k cl) := by
  unfold Spec.clampCnt
  refine (maximumf_apply _ _ _).trans (congrArg₂ max ?_ ?_)
  · refine (shapeCast_1a_a1_apply _ _ cl 0).trans ((coreSum2_apply A5 h' hu 0 cl).trans ?_)
    exact Finset.sum_congr rfl fun k _ => h5 k cl
  · exact broadcastInDim_scalar_apply _ hb _ _

end TailHelpers

/-- The lines after the region read over the extended reals: with the three arrays known entry by entry, the weighted
    sum over the classes of each class's contribution from the statistics summed over the two cores. -/
theorem tailK_read (A4 : FVec Ideal S2x128x256 .f32) (A5 A6 : FVec Ideal S2x1x128 .f32)
    (sg : Fin 2 → Fin 128 → Fin 256 → EReal) (cn tn : Fin 2 → Fin 128 → EReal)
    (h4 : ∀ k cl d, A4 (ValueIdx.ix3 k cl d) = sg k cl d) (h5 : ∀ k cl, A5 (ValueIdx.ix3 k 0 cl) = cn k cl)
    (h6 : ∀ k cl, A6 (ValueIdx.ix3 k 0 cl) = tn k cl) :
    tailK (F := Ideal) A4 A5 A6
      = fun _ => Spec.wgt * ∑ cl : Fin 128, Spec.perClass (fun d => ∑ k : Fin 2, sg k cl d) (∑ k : Fin 2, cn k cl) (∑ k : Fin 2, tn k cl) := by
  funext i
  unfold tailK Spec.perClass
  refine (mulf_apply _ _ _).trans (congrArg₂ (· * ·) rfl ?_)
  refine (totalSum_apply _ _ _ i).trans (Finset.sum_congr rfl fun cl _ => ?_)
  have hclamp := clamp_read A5 cn h5 reducesTo_S2x1x128_S1x128_d0 h_S_ shapeCasts_S1x128_S128x1 bcast_S_S128x1 cl
  refine (hostDivf_apply _ _ _).trans (congrArg₂ Ideal.div ?_ hclamp)
  refine (subf_apply _ _ _).trans (congrArg₂ (· - ·) ?_ ?_)
  · refine (shapeCast_1a_a1_apply _ _ cl 0).trans ((coreSum2_apply A6 _ _ 0 cl).trans ?_)
    exact Finset.sum_congr rfl fun k _ => h6 k cl
  · refine (hostDivf_apply _ _ _).trans (congrArg₂ Ideal.div ?_ ?_)
    · refine (bcast_128_128x1_apply _ _ cl 0).trans ((rowSum128_apply _ _ _ cl).trans ?_)
      refine Finset.sum_congr rfl fun d _ => ?_
      have e2 : Host.reduceAdd A4 (constant (F := Ideal) S_ .f32 0x00000000#32) reducesTo_S2x128x256_S128x256_d0 h_S_
          (ix2 cl d) = ∑ k : Fin 2, sg k cl d :=
        (coreSum3_apply A4 _ _ cl d).trans (Finset.sum_congr rfl fun k _ => h4 k cl d)
      refine (mulf_apply _ _ _).trans (congrArg₂ (· * ·) e2 ?_)
      refine (hostLog_apply _ _).trans (congrArg Ideal.log ?_)
      refine (maximumf_apply _ _ _).trans (congrArg₂ max ?_ ?_)
      · refine (hostDivf_apply _ _ _).trans (congrArg₂ Ideal.div e2 ?_)
        exact (bcast_128x1_128x256_apply _ _ cl d).trans hclamp
      · exact broadcastInDim_scalar_apply _ _ _ _
    · exact broadcastInDim_scalar_apply _ _ _ _

end Cert.KernelIdeal.KV

end
-- ==== Proof.KTail.lean ====
/-
  The kernel program's run, read: after the region the host sums the two cores' statistics, forms each class's
  contribution and sums them; with the result arrays known entry by entry this is the loss in the form that sums the
  statistics core by core, step by step, row by row.
-/
import proofs.«406337_j8349416423452_2_alg».proof.Proof.KFinal
import proofs.«406337_j8349416423452_2_alg».proof.Proof.KSums
import proofs.«406337_j8349416423452_2_alg».proof.Proof.KTailDef
import Idealize.ShloMosaic.Lib.StableHlo.Run
import Idealize.ShloMosaic.PureOps.Ideal.Laws

noncomputable section

open Idealize.ShloMosaic Idealize.ShloMosaic.TcCoe Idealize.SL.Sem
open Idealize.ShloMosaic.Pipeline (Dat)

namespace Cert.KernelIdeal.KV

open Cert.KernelIdeal Cert.KernelIdeal.Gen

open Idealize.ShloMosaic.ValueIdx
open scoped BigOperators

variable (m : (ℓ : Loc nD τ sig) → Buf (Elt Ideal) ℓ) (ρ : Dev nD → PrngReg)

/-- Result array 0 after the region. -/
abbrev R4 (c : Dev nD) : FVec Ideal S2x128x256 .f32 := (dats m 0 c).arrAt 4 cfg0.N
/-- Result array 1 after the region. -/
abbrev R5 (c : Dev nD) : FVec Ideal S2x1x128 .f32 := (dats m 0 c).arrAt 5 cfg0.N
/-- Result array 2 after the region. -/
abbrev R6 (c : Dev nD) : FVec Ideal S2x1x128 .f32 := (dats m 0 c).arrAt 6 cfg0.N

/-- The result buffer after the host's lines is those lines' function of the three result arrays. -/
theorem tail_val (c : Dev nD) :
    Pipeline.afterTail₀ cfgs (dats m) 0 (V0 m) [hostOps1] c main_v22 = tailK (F := Ideal) (R4 m c) (R5 m c) (R6 m c) := by
  have e4 : Pipeline.withArrays (cfgs 0).spec c (V0 m c) (fun w => (dats m 0 c).arrAt w (cfgs 0).N) (Proc.devRef .tc main_v1_0)
      = R4 m c := Pipeline.withArrays_arr spec0 launch0.win.arr_inj c _ _ 4
  have e5 : Pipeline.withArrays (cfgs 0).spec c (V0 m c) (fun w => (dats m 0 c).arrAt w (cfgs 0).N) (Proc.devRef .tc main_v1_1)
      = R5 m c := Pipeline.withArrays_arr spec0 launch0.win.arr_inj c _ _ 5
  have e6 : Pipeline.withArrays (cfgs 0).spec c (V0 m c) (fun w => (dats m 0 c).arrAt w (cfgs 0).N) (Proc.devRef .tc main_v1_2)
      = R6 m c := Pipeline.withArrays_arr spec0 launch0.win.arr_inj c _ _ 6
  unfold Pipeline.afterTail₀
  show StableHlo.after hostOps1 _ (Proc.devRef .tc main_v22) = _
  after_results_simp
  rw [e4, e5, e6]
  rfl

/-- Entry `(k, cl, d)` of result array 0 is core `k`'s class sum. -/
theorem R4_apply (c : Dev nD) (k : Fin 2) (cl : Fin 128) (d : Fin 256) :
    R4 m c (ix3 k cl d) = Spec.segPC (X0 m c) (X1 m c) (X2 m c) (LB m c) k cl.val d :=
  (final4 m c k cl d).trans ((pay4_apply _ cl d).trans (accSeg_last m c k cl d))

/-- Entry `(k, 0, cl)` of result array 1 is core `k`'s class count, three for each row. -/
theorem R5_apply (c : Dev nD) (k : Fin 2) (cl : Fin 128) :
    R5 m c (ix3 k 0 cl) = Spec.cntPC (LB m c) k cl.val :=
  (final5 m c k cl).trans ((pay5_apply _ cl).trans (by rw [accCnt_last]; rfl))

/-- Entry `(k, 0, cl)` of result array 2 is core `k`'s class sum of entropy terms. -/
theorem R6_apply (c : Dev nD) (k : Fin 2) (cl : Fin 128) :
    R6 m c (ix3 k 0 cl) = Spec.tPC (X0 m c) (X1 m c) (X2 m c) (LB m c) k cl.val :=
  (final6 m c k cl).trans ((pay6_apply _ cl).trans (accEnt_last m c k cl))

/-- The result buffer after the host's lines is the loss with the statistics summed core by core. -/
theorem tail_loss (c : Dev nD) :
    Pipeline.afterTail₀ cfgs (dats m) 0 (V0 m) [hostOps1] c main_v22
      = (fun _ => Spec.lossK (X0 m c) (X1 m c) (X2 m c) (LB m c)) := by
  rw [tail_val, tailK_read (R4 m c) (R5 m c) (R6 m c)
    (fun k cl d => Spec.segPC (X0 m c) (X1 m c) (X2 m c) (LB m c) k cl.val d) (fun k cl => Spec.cntPC (LB m c) k cl.val)
    (fun k cl => Spec.tPC (X0 m c) (X1 m c) (X2 m c) (LB m c) k cl.val) (R4_apply m c) (R5_apply m c) (R6_apply m c)]
  rfl

theorem run : θ_run defs (onTc (τ := τ) (main (F := Ideal))) ⟨m, fun _ => 0, ρ⟩ fun r => ∀ c : Dev nD,
      r.2.mem ((c.tc : Thread nD τ).loc main_v22) = (fun _ => Spec.lossK (X0 m c) (X1 m c) (X2 m c) (LB m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  -- the frame run leaves every window's array at the recorded contents and every other buffer as the host's lines
  -- leave it: the result by the reading above, the staged arguments as the region found them, the labels untouched
  (θ_run defs _ _).mono (fun _ h c =>
    ⟨((h c).2 main_v22 (Pipeline.mem_restRefs_of main_v22 (by decide) (by decide))).trans (tail_loss m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.KV

end
-- ==== Proof.RefValue.lean ====
/-
  The reference program's result, read operation by operation, is the loss in its row-by-row form.

  Each of the three blocks is normalised row by row: an entry over the larger of its row's norm and a small positive
  bound, the norm the square root of the sum of the row's squares. The three normalised blocks are laid end to end
  along the rows, and so are three copies of the labels. A scatter-add of ones at the labels counts the rows of each
  class, a scatter-add of the joined rows at the labels sums them by class; the class mean, kept above a second small
  bound, is put through the logarithm. Each joined row then reads its own class's logarithms and count back through
  two gathers, its term is the mean over the columns of `p log p - p · logMix` over that count, and the loss is the
  weight times the sum of the terms.

  Every label word is assumed to denote a class below 80. Such a word read as a signed integer is the same natural
  number, so a scatter lands on that class (nothing is dropped), a gather's clamp into the classes is the identity,
  and the wrap that adds 80 to a negative label leaves the label as it is.

  The host's sums come as an initial value plus a sum; every initial value here is the zero word.
-/
import proofs.«406337_j8349416423452_2_alg».proof.Proof.Gen.ReferenceIdeal.Read
import proofs.«406337_j8349416423452_2_alg».proof.Proof.Spec
import Idealize.ShloMosaic.Lib.ValueIdx
import Idealize.ShloMosaic.Lib.ValueIdxRank1
import Idealize.ShloMosaic.Lib.Pipeline.Value
import Idealize.ShloMosaic.Lib.StableHlo.Predicate
import Idealize.ShloMosaic.PureOps.Ideal.Laws

noncomputable section
namespace Cert.RefValue
open Cert.ReferenceIdeal Cert.ReferenceIdeal.Read Cert.Spec Idealize.ShloMosaic Idealize.ShloMosaic.ValueIdx
open scoped BigOperators

/-- An array of 65536 rows by 256 columns of extended reals. -/
abbrev A2 := (⟨S65536x256, .f32⟩ : BufTy).Contents (Elt Ideal)
/-- The label words. -/
abbrev A1 := (⟨S65536, .i32⟩ : BufTy).Contents (Elt Ideal)

/-! ## One block, normalised -/

theorem norm0_apply (x0 : A2) (i : Fin 65536) (d : Fin 256) :
    val_main_v7 (F := Ideal) x0 (ix2 i d) = prob (rows x0) i d := by
  have hidx : ∀ k : Fin 256, idx_main_v1 (idx_main_v2 (idx_main_v6 (ix2 i d))) k = ix2 i k := fun k => by
    funext a; match a with | ⟨0, _⟩ => rfl | ⟨1, _⟩ => rfl
  rw [val_main_v7_apply, val_main_v6_apply, val_main_v5_apply, val_main_v3_apply, val_main_v2_apply, val_main_v1_apply,
    val_main_v4_apply, val_main_cst_0_apply, val_main_cst_apply]
  simp only [val_main_v0_apply, hidx, Ideal.hostDivf_def, Ideal.maximumf_def, Ideal.hostUnary_sqrt_def, Ideal.mulf_def,
    Ideal.ofBits_def, Ideal.ofBits_zero_f32, zero_add]
  rfl

theorem norm1_apply (x1 : A2) (i : Fin 65536) (d : Fin 256) :
    val_main_v15 (F := Ideal) x1 (ix2 i d) = prob (rows x1) i d := by
  have hidx : ∀ k : Fin 256, idx_main_v9 (idx_main_v10 (idx_main_v14 (ix2 i d))) k = ix2 i k := fun k => by
    funext a; match a with | ⟨0, _⟩ => rfl | ⟨1, _⟩ => rfl
  rw [val_main_v15_apply, val_main_v14_apply, val_main_v13_apply, val_main_v11_apply, val_main_v10_apply, val_main_v9_apply,
    val_main_v12_apply, val_main_cst_2_apply, val_main_cst_1_apply]
  simp only [val_main_v8_apply, hidx, Ideal.hostDivf_def, Ideal.maximumf_def, Ideal.hostUnary_sqrt_def, Ideal.mulf_def,
    Ideal.ofBits_def, Ideal.ofBits_zero_f32, zero_add]
  rfl

theorem norm2_apply (x2 : A2) (i : Fin 65536) (d : Fin 256) :
    val_main_v23 (F := Ideal) x2 (ix2 i d) = prob (rows x2) i d := by
  have hidx : ∀ k : Fin 256, idx_main_v17 (idx_main_v18 (idx_main_v22 (ix2 i d))) k = ix2 i k := fun k => by
    funext a; match a with | ⟨0, _⟩ => rfl | ⟨1, _⟩ => rfl
  rw [val_main_v23_apply, val_main_v22_apply, val_main_v21_apply, val_main_v19_apply, val_main_v18_apply, val_main_v17_apply,
    val_main_v20_apply, val_main_cst_4_apply, val_main_cst_3_apply]
  simp only [val_main_v16_apply, hidx, Ideal.hostDivf_def, Ideal.maximumf_def, Ideal.hostUnary_sqrt_def, Ideal.mulf_def,
    Ideal.ofBits_def, Ideal.ofBits_zero_f32, zero_add]
  rfl

/-! ## The three blocks and the labels laid end to end -/

theorem cat_apply (x0 x1 x2 : A2) (j : Fin 196608) (d : Fin 256) :
    val_main_v24 (F := Ideal) x0 x1 x2 (ix2 j d) = prob3 (rows x0) (rows x1) (rows x2) j d := by
  have hoff : ∀ (r : Fin 65536) (b : Fin 2), b ≠ 0 → ((ix2 r d : S65536x256.Idx) b).val = ((ix2 j d : S196608x256.Idx) b).val :=
    fun r b hb => by match b with | ⟨0, _⟩ => exact absurd rfl hb | ⟨1, _⟩ => rfl
  unfold val_main_v24 prob3
  by_cases h0 : j.val < 65536
  · rw [if_pos h0]
    refine (concatenate_apply_piece _ _ _ (ix2 j d) 0 (by show (0 : ℕ) < 3; omega) S65536x256 (val_main_v7 (F := Ideal) x0) rfl rfl 0 rfl
      (ix2 (rowOf3 j) d) (hoff _) ?_).trans (norm0_apply x0 _ d)
    show 0 + j.val % 65536 = j.val
    omega
  · rw [if_neg h0]
    by_cases h1 : j.val < 131072
    · rw [if_pos h1]
      refine (concatenate_apply_piece _ _ _ (ix2 j d) 1 (by show (1 : ℕ) < 3; omega) S65536x256 (val_main_v15 (F := Ideal) x1) rfl rfl 65536 rfl
        (ix2 (rowOf3 j) d) (hoff _) ?_).trans (norm1_apply x1 _ d)
      show 65536 + j.val % 65536 = j.val
      omega
    · rw [if_neg h1]
      refine (concatenate_apply_piece _ _ _ (ix2 j d) 2 (by show (2 : ℕ) < 3; omega) S65536x256 (val_main_v23 (F := Ideal) x2) rfl rfl 131072 rfl
        (ix2 (rowOf3 j) d) (hoff _) ?_).trans (norm2_apply x2 _ d)
      show 131072 + j.val % 65536 = j.val
      have := j.isLt
      omega

theorem lab_apply (x3 : A1) (j : Fin 196608) : val_main_v25 (F := Ideal) x3 (ix1 j) = labs x3 (rowOf3 j) := by
  unfold val_main_v25 labs
  exact concatenate_replicate_apply (t := S196608) (s₁ := S65536) 0 3 x3 _ rfl (ix1 j) (ix1 (rowOf3 j)) rfl
    (fun b hb => absurd (Subsingleton.elim _ _) hb)

/-! ## The two scatter-adds -/

/-- Two rank-1 indices under `some` agree exactly when their coordinates do. -/
theorem some_ix1_eq_iff {n : Nat} (a c : Fin n) :
    ((some (ix1 a) : Option (⟨1, ![n]⟩ : Shape).Idx) = some (ix1 c)) ↔ a.val = c.val := by
  rw [Option.some.injEq]
  constructor
  · intro h; exact congrArg Fin.val (congrFun h 0)
  · intro h; rw [Fin.ext h]

/-- Two rank-2 indices under `some` agree exactly when both coordinates do. -/
theorem some_ix2_eq_iff {n m : Nat} (a c : Fin n) (b d : Fin m) :
    ((some (ix2 a b) : Option (⟨2, ![n, m]⟩ : Shape).Idx) = some (ix2 c d)) ↔ a.val = c.val ∧ b = d := by
  rw [Option.some.injEq]
  constructor
  · intro h; exact ⟨congrArg Fin.val (congrFun h 0), congrFun h 1⟩
  · rintro ⟨h, rfl⟩; rw [Fin.ext h]

/-- A label word below 80 read as a signed integer is the natural number it denotes. -/
theorem toInt_of_lt (w : BitVec 32) (h : w.toNat < 80) : w.toInt = (w.toNat : Int) := by
  rw [BitVec.toInt_eq_toNat_cond, if_pos (by omega)]

theorem scat1_start (idx : IVec S196608x1 32) (j : Fin 196608) :
    scatter_S80_S196608x1_S196608_n_0_0_1.start (ix1 j) idx 0 = (idx (ix2 j (0 : Fin 1))).toInt := by
  unfold ScatterDims.start
  rw [dif_pos (show (0 : Fin 1) ∈ scatter_S80_S196608x1_S196608_n_0_0_1.scatterDimsToOperandDims from
    List.mem_singleton.mpr rfl)]
  refine congrArg (fun z => (idx z).toInt) ?_
  funext b; refine Fin.ext ?_
  match b with | ⟨0, _⟩ => rfl | ⟨1, _⟩ => rfl

theorem scat1_window (j : Fin 196608) : scatter_S80_S196608x1_S196608_n_0_0_1.window (ix1 j) 0 = 0 := by
  unfold ScatterDims.window
  rw [dif_neg (show (0 : Fin 1) ∉ scatter_S80_S196608x1_S196608_n_0_0_1.sKept from by decide)]

/-- The count scatter: row `j` lands on the class its label word names. -/
theorem scat1_resultIdx (idx : IVec S196608x1 32) (j : Fin 196608) (n : Fin 80)
    (hn : (idx (ix2 j (0 : Fin 1))).toInt = (n.val : Int)) :
    scatter_S80_S196608x1_S196608_n_0_0_1.resultIdx? (ix1 j) idx = some (ix1 n) := by
  have hsw : ∀ a, scatter_S80_S196608x1_S196608_n_0_0_1.start (ix1 j) idx a
      + (scatter_S80_S196608x1_S196608_n_0_0_1.window (ix1 j) a : Int) = (n.val : Int) := by
    intro a; obtain rfl : a = 0 := Subsingleton.elim _ _
    rw [scat1_start, scat1_window, hn]; simp
  unfold ScatterDims.resultIdx?
  rw [dif_pos (fun a => by
    rw [hsw a]
    obtain rfl : a = 0 := Subsingleton.elim _ _
    exact ⟨by omega, by have := n.isLt; show (n.val : Int) < ((80 : Nat) : Int); omega⟩)]
  congr 1
  funext a; obtain rfl : a = 0 := Subsingleton.elim _ _
  refine Fin.ext ?_
  show (scatter_S80_S196608x1_S196608_n_0_0_1.start (ix1 j) idx 0
      + (scatter_S80_S196608x1_S196608_n_0_0_1.window (ix1 j) 0 : Int)).toNat = n.val
  rw [hsw]; simp

theorem scat2_start0 (idx : IVec S196608x1 32) (a : Fin 196608) (b : Fin 256) :
    scatter_S80x256_S196608x1_S196608x256_1_0_0_1.start (ix2 a b) idx 0 = (idx (ix2 a (0 : Fin 1))).toInt := by
  unfold ScatterDims.start
  rw [dif_pos (show (0 : Fin 2) ∈ scatter_S80x256_S196608x1_S196608x256_1_0_0_1.scatterDimsToOperandDims from
    List.mem_singleton.mpr rfl)]
  refine congrArg (fun z => (idx z).toInt) ?_
  funext e; refine Fin.ext ?_
  match e with | ⟨0, _⟩ => rfl | ⟨1, _⟩ => rfl

theorem scat2_start1 (idx : IVec S196608x1 32) (a : Fin 196608) (b : Fin 256) :
    scatter_S80x256_S196608x1_S196608x256_1_0_0_1.start (ix2 a b) idx 1 = 0 := by
  unfold ScatterDims.start
  rw [dif_neg (show (1 : Fin 2) ∉ scatter_S80x256_S196608x1_S196608x256_1_0_0_1.scatterDimsToOperandDims from by decide)]

theorem scat2_window0 (a : Fin 196608) (b : Fin 256) :
    scatter_S80x256_S196608x1_S196608x256_1_0_0_1.window (ix2 a b) 0 = 0 := by
  unfold ScatterDims.window
  rw [dif_neg (show (0 : Fin 2) ∉ scatter_S80x256_S196608x1_S196608x256_1_0_0_1.sKept from by decide)]

theorem scat2_window1 (a : Fin 196608) (b : Fin 256) :
    scatter_S80x256_S196608x1_S196608x256_1_0_0_1.window (ix2 a b) 1 = b.val := by
  unfold ScatterDims.window
  rw [dif_pos (show (1 : Fin 2) ∈ scatter_S80x256_S196608x1_S196608x256_1_0_0_1.sKept from by decide)]
  rfl

/-- The row scatter: entry `(a, b)` lands on column `b` of the class its row's label word names. -/
theorem scat2_resultIdx (idx : IVec S196608x1 32) (a : Fin 196608) (b : Fin 256) (n : Fin 80)
    (hn : (idx (ix2 a (0 : Fin 1))).toInt = (n.val : Int)) :
    scatter_S80x256_S196608x1_S196608x256_1_0_0_1.resultIdx? (ix2 a b) idx = some (ix2 n b) := by
  have h0 : scatter_S80x256_S196608x1_S196608x256_1_0_0_1.start (ix2 a b) idx 0
      + (scatter_S80x256_S196608x1_S196608x256_1_0_0_1.window (ix2 a b) 0 : Int) = (n.val : Int) := by
    rw [scat2_start0, scat2_window0, hn]; simp
  have h1 : scatter_S80x256_S196608x1_S196608x256_1_0_0_1.start (ix2 a b) idx 1
      + (scatter_S80x256_S196608x1_S196608x256_1_0_0_1.window (ix2 a b) 1 : Int) = (b.val : Int) := by
    rw [scat2_start1, scat2_window1]; simp
  unfold ScatterDims.resultIdx?
  rw [dif_pos (Fin.forall_fin_two.mpr ⟨by
      rw [h0]; exact ⟨by omega, by have := n.isLt; show (n.val : Int) < ((80 : Nat) : Int); omega⟩, by
      rw [h1]; exact ⟨by omega, by have := b.isLt; show (b.val : Int) < ((256 : Nat) : Int); omega⟩⟩)]
  congr 1
  funext e
  refine Fin.ext ?_
  match e with
  | ⟨0, _⟩ =>
    show (scatter_S80x256_S196608x1_S196608x256_1_0_0_1.start (ix2 a b) idx 0
      + (scatter_S80x256_S196608x1_S196608x256_1_0_0_1.window (ix2 a b) 0 : Int)).toNat = n.val
    rw [h0]; simp
  | ⟨1, _⟩ =>
    show (scatter_S80x256_S196608x1_S196608x256_1_0_0_1.start (ix2 a b) idx 1
      + (scatter_S80x256_S196608x1_S196608x256_1_0_0_1.window (ix2 a b) 1 : Int)).toNat = b.val
    rw [h1]; simp

/-- A sum of terms switched on by "`P` and the column is `d`" is the `d` term, switched on by `P`. -/
theorem sum_ite_and_eq {m : Nat} (P : Prop) [Decidable P] (d : Fin m) (f : Fin m → EReal) :
    (∑ b : Fin m, if P ∧ b = d then f b else 0) = if P then f d else 0 := by
  by_cases hP : P
  · simp only [hP, true_and, if_true, Finset.sum_ite_eq', Finset.mem_univ]
  · simp only [hP, false_and, if_false, Finset.sum_const_zero]

/-! ### The labels as the scatters and the gathers read them -/

theorem lab28_apply (x3 : A1) (k : Fin 196608) :
    val_main_v28 (F := Ideal) x3 (ix2 k (0 : Fin 1)) = labs x3 (rowOf3 k) := by
  rw [val_main_v28_apply, ← lab_apply]
  exact congrArg _ (funext fun a => by match a with | ⟨0, _⟩ => rfl)

theorem lab31_apply (x3 : A1) (k : Fin 196608) :
    val_main_v31 (F := Ideal) x3 (ix2 k (0 : Fin 1)) = labs x3 (rowOf3 k) := by
  rw [val_main_v31_apply, ← lab_apply]
  exact congrArg _ (funext fun a => by match a with | ⟨0, _⟩ => rfl)

section Labelled
variable (x3 : A1) (hL : ∀ i : Fin 65536, (x3 (ix1 i)).toNat < 80)
include hL

theorem cls3_lt (k : Fin 196608) : cls3 (labs x3) k < 80 := hL _

/-- The counts: how many joined rows carry class `c`. -/
theorem cnt_apply (c : Fin 80) : val_main_v29 (F := Ideal) x3 (ix1 c) = cntR (labs x3) c.val := by
  have hres : ∀ k : Fin 196608, scatter_S80_S196608x1_S196608_n_0_0_1.resultIdx? (ix1 k) (val_main_v28 (F := Ideal) x3)
      = some (ix1 (⟨cls3 (labs x3) k, cls3_lt x3 hL k⟩ : Fin 80)) := fun k =>
    scat1_resultIdx _ k _ (by rw [lab28_apply]; exact toInt_of_lt _ (hL _))
  show val_main_v27 (F := Ideal) (ix1 c) + ∑ j ∈ Finset.univ.filter (fun j =>
      scatter_S80_S196608x1_S196608_n_0_0_1.resultIdx? j (val_main_v28 (F := Ideal) x3) = some (ix1 c)),
      val_main_v26 (F := Ideal) j = _
  rw [val_main_v27_apply, val_main_cst_6_apply, Ideal.ofBits_def, Ideal.ofBits_zero_f32, zero_add, Finset.sum_filter,
    ← Equiv.sum_comp (idxEquiv1 (n := 196608)).symm]
  unfold cntR
  refine Finset.sum_congr rfl fun k _ => ?_
  show (if scatter_S80_S196608x1_S196608_n_0_0_1.resultIdx? (ix1 k) (val_main_v28 (F := Ideal) x3) = some (ix1 c)
      then val_main_v26 (F := Ideal) (ix1 k) else 0) = _
  simp only [hres k, some_ix1_eq_iff, val_main_v26_apply, val_main_cst_5_apply, Ideal.ofBits_def]
  rfl

/-- The class sums: column `d` of the sum of the joined rows of class `c`. -/
theorem seg_apply (x0 x1 x2 : A2) (c : Fin 80) (d : Fin 256) :
    val_main_v32 (F := Ideal) x0 x1 x2 x3 (ix2 c d) = segR (rows x0) (rows x1) (rows x2) (labs x3) c.val d := by
  have hres : ∀ (a : Fin 196608) (b : Fin 256),
      scatter_S80x256_S196608x1_S196608x256_1_0_0_1.resultIdx? (ix2 a b) (val_main_v31 (F := Ideal) x3)
      = some (ix2 (⟨cls3 (labs x3) a, cls3_lt x3 hL a⟩ : Fin 80) b) := fun a b =>
    scat2_resultIdx _ a b _ (by rw [lab31_apply]; exact toInt_of_lt _ (hL _))
  show val_main_v30 (F := Ideal) (ix2 c d) + ∑ j ∈ Finset.univ.filter (fun j =>
      scatter_S80x256_S196608x1_S196608x256_1_0_0_1.resultIdx? j (val_main_v31 (F := Ideal) x3) = some (ix2 c d)),
      val_main_v24 (F := Ideal) x0 x1 x2 j = _
  rw [val_main_v30_apply, val_main_cst_7_apply, Ideal.ofBits_def, Ideal.ofBits_zero_f32, zero_add, Finset.sum_filter, sum_idx2]
  unfold segR
  refine Finset.sum_congr rfl fun a _ => ?_
  simp only [hres a, some_ix2_eq_iff, cat_apply]
  exact sum_ite_and_eq _ d _

end Labelled

/-! ## The two gathers -/

theorem gath2_start0 (idx : IVec S196608x1 32) (j : Fin 196608) (d : Fin 256) :
    gather_S80x256_S196608x1_S196608x256_1_0_n_n_0_1_1256.start (ix2 j d) idx 0
      = min (idx (ix2 j (0 : Fin 1))).toInt.toNat (80 - 1) := by
  unfold GatherDims.start
  rw [dif_pos (show (0 : Fin 2) ∈ gather_S80x256_S196608x1_S196608x256_1_0_n_n_0_1_1256.startIndexMap from
    List.mem_singleton.mpr rfl)]
  have hsi : gather_S80x256_S196608x1_S196608x256_1_0_n_n_0_1_1256.siIdx (ix2 j d)
      ⟨List.idxOf (0 : Fin 2) gather_S80x256_S196608x1_S196608x256_1_0_n_n_0_1_1256.startIndexMap,
        List.idxOf_lt_length_iff.2 (List.mem_singleton.mpr rfl)⟩ = ix2 j (0 : Fin 1) := by
    funext b; refine Fin.ext ?_
    match b with | ⟨0, _⟩ => rfl | ⟨1, _⟩ => rfl
  rw [hsi]
  rfl

/-- The row gather under a label word that names class `n`: entry `(j, d)` reads the operand at `(n, d)`. -/
theorem gath2_apply {α : Type} (x : S80x256.Idx → α) (idx : IVec S196608x1 32) (j : Fin 196608) (d : Fin 256) (n : Fin 80)
    (hn : (idx (ix2 j (0 : Fin 1))).toInt = (n.val : Int)) :
    Host.gather gather_S80x256_S196608x1_S196608x256_1_0_n_n_0_1_1256 x idx (ix2 j d) = x (ix2 n d) := by
  unfold Host.gather
  congr 1
  funext a
  refine Fin.ext ?_
  match a with
  | ⟨0, _⟩ =>
    show gather_S80x256_S196608x1_S196608x256_1_0_n_n_0_1_1256.start (ix2 j d) idx 0
      + gather_S80x256_S196608x1_S196608x256_1_0_n_n_0_1_1256.batchCoord (ix2 j d) 0
      + gather_S80x256_S196608x1_S196608x256_1_0_n_n_0_1_1256.offCoord (ix2 j d) 0 = n.val
    rw [GatherDims.batchCoord_eq_zero _ _ _ List.not_mem_nil, GatherDims.offCoord_eq_zero _ _ _ (by decide), gath2_start0, hn]
    have := n.isLt
    simp only [Int.toNat_natCast, Nat.add_zero]
    omega
  | ⟨1, _⟩ =>
    show gather_S80x256_S196608x1_S196608x256_1_0_n_n_0_1_1256.start (ix2 j d) idx 1
      + gather_S80x256_S196608x1_S196608x256_1_0_n_n_0_1_1256.batchCoord (ix2 j d) 1
      + gather_S80x256_S196608x1_S196608x256_1_0_n_n_0_1_1256.offCoord (ix2 j d) 1 = d.val
    rw [GatherDims.batchCoord_eq_zero _ _ _ List.not_mem_nil]
    unfold GatherDims.start GatherDims.offCoord
    rw [dif_neg (show (1 : Fin 2) ∉ gather_S80x256_S196608x1_S196608x256_1_0_n_n_0_1_1256.startIndexMap from by decide),
      dif_pos (show (1 : Fin 2) ∈ gather_S80x256_S196608x1_S196608x256_1_0_n_n_0_1_1256.sKept from by decide)]
    show 0 + 0 + d.val = d.val
    omega

theorem gath1_start0 (idx : IVec S196608x1 32) (j : Fin 196608) :
    gather_S80_S196608x1_S196608_n_0_n_n_0_1_1.start (ix1 j) idx 0
      = min (idx (ix2 j (0 : Fin 1))).toInt.toNat (80 - 1) := by
  unfold GatherDims.start
  rw [dif_pos (show (0 : Fin 1) ∈ gather_S80_S196608x1_S196608_n_0_n_n_0_1_1.startIndexMap from
    List.mem_singleton.mpr rfl)]
  have hsi : gather_S80_S196608x1_S196608_n_0_n_n_0_1_1.siIdx (ix1 j)
      ⟨List.idxOf (0 : Fin 1) gather_S80_S196608x1_S196608_n_0_n_n_0_1_1.startIndexMap,
        List.idxOf_lt_length_iff.2 (List.mem_singleton.mpr rfl)⟩ = ix2 j (0 : Fin 1) := by
    funext b; refine Fin.ext ?_
    match b with | ⟨0, _⟩ => rfl | ⟨1, _⟩ => rfl
  rw [hsi]
  rfl

/-- The count gather under a label word that names class `n`: entry `j` reads the operand at `n`. -/
theorem gath1_apply {α : Type} (x : S80.Idx → α) (idx : IVec S196608x1 32) (j : Fin 196608) (n : Fin 80)
    (hn : (idx (ix2 j (0 : Fin 1))).toInt = (n.val : Int)) :
    Host.gather gather_S80_S196608x1_S196608_n_0_n_n_0_1_1 x idx (ix1 j) = x (ix1 n) := by
  unfold Host.gather
  congr 1
  funext a; obtain rfl : a = 0 := Subsingleton.elim _ _
  refine Fin.ext ?_
  show gather_S80_S196608x1_S196608_n_0_n_n_0_1_1.start (ix1 j) idx 0
    + gather_S80_S196608x1_S196608_n_0_n_n_0_1_1.batchCoord (ix1 j) 0
    + gather_S80_S196608x1_S196608_n_0_n_n_0_1_1.offCoord (ix1 j) 0 = n.val
  rw [GatherDims.batchCoord_eq_zero _ _ _ List.not_mem_nil, GatherDims.offCoord_eq_zero _ _ _ (by decide), gath1_start0, hn]
  have := n.isLt
  simp only [Int.toNat_natCast, Nat.add_zero]
  omega

/-- The wrap of a negative label leaves a label below 80 as it is. -/
theorem wrap_eq (w : BitVec 32) (h : w.toNat < 80) :
    Scalar.select (IntOp.cmpi .slt w 0#32) (IntOp.addi w 80#32) w = w := by
  have h0 : IntOp.cmpi .slt w 0#32 = 0#1 := eq_zero_of_ne_one fun h1 => by
    have h2 := (StableHlo.Predicate.slt_iff_toNat (a := w) (b := 0#32) (by omega) (by decide)).mp h1
    rw [show (0#32 : BitVec 32).toNat = 0 from rfl] at h2
    omega
  rw [h0, select_zero]

section Rows
variable (x3 : A1) (hL : ∀ i : Fin 65536, (x3 (ix1 i)).toNat < 80)
include hL

theorem lab44_apply (k : Fin 196608) : val_main_v44 (F := Ideal) x3 (ix1 k) = labs x3 (rowOf3 k) := by
  rw [val_main_v44_apply, val_main_v41_apply, val_main_v43_apply, val_main_v40_apply, val_main_c_apply, val_main_v42_apply,
    val_main_c_10_apply, lab_apply]
  exact wrap_eq _ (hL _)

theorem lab45_apply (k : Fin 196608) : val_main_v45 (F := Ideal) x3 (ix2 k (0 : Fin 1)) = labs x3 (rowOf3 k) := by
  rw [val_main_v45_apply, ← lab44_apply x3 hL]
  exact congrArg _ (funext fun a => by match a with | ⟨0, _⟩ => rfl)

theorem lab51_apply (k : Fin 196608) : val_main_v51 (F := Ideal) x3 (ix1 k) = labs x3 (rowOf3 k) := by
  rw [val_main_v51_apply, val_main_v48_apply, val_main_v50_apply, val_main_v47_apply, val_main_c_11_apply, val_main_v49_apply,
    val_main_c_12_apply, lab_apply]
  exact wrap_eq _ (hL _)

theorem lab52_apply (k : Fin 196608) : val_main_v52 (F := Ideal) x3 (ix2 k (0 : Fin 1)) = labs x3 (rowOf3 k) := by
  rw [val_main_v52_apply, ← lab51_apply x3 hL]
  exact congrArg _ (funext fun a => by match a with | ⟨0, _⟩ => rfl)

/-- The logarithm of a class's mean row. -/
theorem logmix_apply (x0 x1 x2 : A2) (c : Fin 80) (d : Fin 256) :
    val_main_v39 (F := Ideal) x0 x1 x2 x3 (ix2 c d) = logMixR (rows x0) (rows x1) (rows x2) (labs x3) c.val d := by
  have hidx : idx_main_v35 (idx_main_v36 (ix2 c d)) = ix1 c := by
    funext a; match a with | ⟨0, _⟩ => rfl
  rw [val_main_v39_apply, val_main_v38_apply, val_main_v37_apply, val_main_v36_apply, val_main_v35_apply, val_main_v34_apply,
    val_main_call0_v1_apply, val_main_call0_v0_apply, val_main_cst_9_apply, hidx, val_main_v33_apply, val_main_cst_8_apply,
    seg_apply x3 hL, cnt_apply x3 hL]
  simp only [Ideal.hostUnary_log_def, Ideal.maximumf_def, Ideal.hostDivf_def, Ideal.ofBits_def]
  rfl

/-- The gathered logarithms: row `j` reads its own class's. -/
theorem lm_apply (x0 x1 x2 : A2) (j : Fin 196608) (d : Fin 256) :
    val_main_v46 (F := Ideal) x0 x1 x2 x3 (ix2 j d)
      = logMixR (rows x0) (rows x1) (rows x2) (labs x3) (cls3 (labs x3) j) d := by
  unfold val_main_v46
  rw [gath2_apply _ _ j d ⟨cls3 (labs x3) j, cls3_lt x3 hL j⟩ (by rw [lab45_apply x3 hL]; exact toInt_of_lt _ (hL _))]
  exact logmix_apply x3 hL x0 x1 x2 _ d

/-- The gathered counts: row `j` reads its own class's. -/
theorem npos_apply (j : Fin 196608) :
    val_main_v53 (F := Ideal) x3 (ix1 j) = cntR (labs x3) (cls3 (labs x3) j) := by
  unfold val_main_v53
  rw [gath1_apply _ _ j ⟨cls3 (labs x3) j, cls3_lt x3 hL j⟩ (by rw [lab52_apply x3 hL]; exact toInt_of_lt _ (hL _))]
  exact cnt_apply x3 hL _

end Rows

/-! ## One row's term, and the loss -/

/-- A select on "the two numbers are equal" is the `if` on that equation. -/
theorem select_oeq {α : Type} (p q : EReal) (a b : α) :
    Scalar.select (FloatOps.cmpf (F := Ideal) (φ := .f32) .oeq p q) a b = if p = q then a else b := by
  show (if BitVec.ofBool (decide (p = q)) = 1 then a else b) = _
  by_cases h : p = q <;> simp [h]

section Loss
variable (x3 : A1) (hL : ∀ i : Fin 65536, (x3 (ix1 i)).toNat < 80)
include hL

/-- One joined row's term. -/
theorem row_apply (x0 x1 x2 : A2) (j : Fin 196608) :
    val_main_v67 (F := Ideal) x0 x1 x2 x3 (ix1 j) = rowR (rows x0) (rows x1) (rows x2) (labs x3) j := by
  have hidx : ∀ k : Fin 256, idx_main_v64 (ix1 j) k = ix2 j k := fun k => by
    funext a; match a with | ⟨0, _⟩ => rfl | ⟨1, _⟩ => rfl
  rw [val_main_v67_apply, val_main_v66_apply, val_main_v64_apply, val_main_v65_apply, val_main_cst_18_apply,
    val_main_cst_17_apply, npos_apply x3 hL]
  simp only [hidx, val_main_v63_apply, val_main_v61_apply, val_main_v62_apply, val_main_v58_apply, val_main_v60_apply,
    val_main_v59_apply, val_main_v56_apply, val_main_v55_apply, val_main_v57_apply, val_main_v54_apply,
    val_main_call2_v1_apply, val_main_call2_v0_apply, val_main_call1_v1_apply, val_main_call1_v0_apply,
    val_main_cst_13_apply, val_main_cst_14_apply, val_main_cst_15_apply, val_main_cst_16_apply,
    cat_apply, lm_apply x3 hL, select_oeq, Ideal.hostDivf_def, Ideal.hostUnary_log_def, Ideal.mulf_def, Ideal.subf_def,
    Ideal.ofBits_def, Ideal.ofBits_zero_f32, zero_add]
  rfl

end Loss

/-- The reference program's result is the loss written row by row over the three blocks laid end to end. -/
theorem result_eq (x0 x1 x2 : (⟨Cert.ReferenceIdeal.S65536x256, .f32⟩ : BufTy).Contents (Elt Ideal))
    (x3 : (⟨Cert.ReferenceIdeal.S65536, .i32⟩ : BufTy).Contents (Elt Ideal))
    (hL : ∀ i : Fin 65536, (x3 (ValueIdx.ix1 i)).toNat < 80) :
    Cert.ReferenceIdeal.Read.val_main_v69 (F := Ideal) x0 x1 x2 x3
      = fun _ => Cert.Spec.lossR (Cert.Spec.rows x0) (Cert.Spec.rows x1) (Cert.Spec.rows x2) (Cert.Spec.labs x3) := by
  funext i
  rw [val_main_v69_apply, val_main_v68_apply, val_main_cst_20_apply, val_main_cst_19_apply]
  simp only [Ideal.mulf_def, Ideal.ofBits_def, Ideal.ofBits_zero_f32, zero_add]
  rw [← Equiv.sum_comp (idxEquiv1 (n := 196608)).symm]
  unfold lossR
  refine congrArg (wgt * ·) (Finset.sum_congr rfl fun j _ => ?_)
  exact row_apply x3 hL x0 x1 x2 j

end Cert.RefValue
end
-- ==== Proof.SpecFacts.lean ====
/-
  Facts about the literals and the normalised entries: each literal word denotes a plain real (with its sign), and a
  normalised entry of a row of finite numbers is itself a finite number, the row's norm being kept above a positive bound.
-/
import proofs.«406337_j8349416423452_2_alg».proof.Proof.Spec

noncomputable section

namespace Cert.Spec

open Idealize.ShloMosaic

/-- The word of `1.0` denotes one. -/
theorem c1_eq : c1 = 1 := by
  simp [c1, Ideal.ofBits, Ideal.ieee, -EReal.coe_mul]; norm_num
/-- The word of `3.0` denotes three. -/
theorem c3_eq : c3 = ((3 : ℝ) : EReal) := by
  simp [c3, Ideal.ofBits, Ideal.ieee, -EReal.coe_mul]; norm_num
/-- The word of `256.0` denotes 256. -/
theorem c256_eq : c256 = ((256 : ℝ) : EReal) := by
  simp [c256, Ideal.ofBits, Ideal.ieee, -EReal.coe_mul]; norm_num
/-- The norm's lower bound is a positive real. -/
theorem eps12_pos : ∃ e : ℝ, 0 < e ∧ eps12 = (e : EReal) := by
  simp [eps12, Ideal.ofBits, Ideal.ieee, -EReal.coe_mul]
/-- The mean's lower bound is a positive real. -/
theorem eps7_pos : ∃ e : ℝ, 0 < e ∧ eps7 = (e : EReal) := by
  simp [eps7, Ideal.ofBits, Ideal.ieee, -EReal.coe_mul]
/-- The weight is a real. -/
theorem wgt_real : ∃ w : ℝ, wgt = (w : EReal) := by
  simp [wgt, Ideal.ofBits, Ideal.ieee, -EReal.coe_mul]

/-- A finite sum of squares of reals, taken in the extended reals, is the real sum. -/
private theorem sum_sq_coe {ι : Type*} (s : Finset ι) (f : ι → ℝ) :
    ∑ k ∈ s, ((f k : ℝ) : EReal) * ((f k : ℝ) : EReal) = ((∑ k ∈ s, f k * f k : ℝ) : EReal) := by
  classical
  induction s using Finset.induction_on with
  | empty => simp
  | insert a s ha ih => rw [Finset.sum_insert ha, Finset.sum_insert ha, ih, EReal.coe_add, EReal.coe_mul]

/-- A normalised entry of an array of finite numbers is a finite number. -/
theorem prob_real (x : Rows) (hx : ∀ i d, x i d ≠ ⊤ ∧ x i d ≠ ⊥) (i : Fin 65536) (d : Fin 256) :
    ∃ r : ℝ, prob x i d = (r : EReal) := by
  obtain ⟨e, he, hE⟩ := eps12_pos
  -- the row as reals
  have hf : ∀ k, x i k = (((x i k).toReal : ℝ) : EReal) := fun k =>
    (EReal.coe_toReal (hx i k).1 (hx i k).2).symm
  -- the sum of squares is a nonnegative real
  have hsum : ∑ k : Fin 256, x i k * x i k
      = ((∑ k : Fin 256, (x i k).toReal * (x i k).toReal : ℝ) : EReal) := by
    rw [← sum_sq_coe]
    exact Finset.sum_congr rfl (fun k _ => by rw [← hf k])
  have hnn : ¬ (∑ k : Fin 256, (x i k).toReal * (x i k).toReal) < 0 :=
    not_lt.mpr (Finset.sum_nonneg (fun k _ => mul_self_nonneg _))
  -- the norm kept above the bound is a positive real
  have hpos : 0 < max (Real.sqrt (∑ k : Fin 256, (x i k).toReal * (x i k).toReal)) e :=
    lt_of_lt_of_le he (le_max_right _ _)
  refine ⟨(x i d).toReal * (1 / max (Real.sqrt (∑ k : Fin 256, (x i k).toReal * (x i k).toReal)) e), ?_⟩
  unfold prob
  rw [hsum, Ideal.sqrt_coe, if_neg hnn, hE, ← EReal.coe_strictMono.monotone.map_max,
    Ideal.div_coe (ne_of_gt hpos), EReal.coe_mul, ← hf d]

end Cert.Spec

end
-- ==== Proof.Regroup.lean ====
/-
  The loss taken row by row over the three blocks laid end to end equals the loss taken class by class.

  The row sum is grouped by class. A class no row belongs to contributes nothing on either side. Within a class that
  has rows, the count `n` is a positive real, the logarithm of the class's mean row is a real in every column, and the
  normalised entries are reals; only the entropy terms `v log v` may be infinite. Subtracting a real is adding its
  negative, a sum of terms `a + r` with `r` real splits into the sum of the `a` plus the real sum of the `r`, and
  multiplying by a nonnegative real distributes over every sum of extended reals; so the class's rows add up to
  `(∑ entropy terms - mean_d (seg_d · log mix_d)) / n`, the class-by-class contribution.
-/
import Mathlib.Data.EReal.Operations
import Mathlib.Data.EReal.Inv
import Mathlib.Algebra.BigOperators.Fin
import Mathlib.Algebra.BigOperators.Ring.Finset
import Mathlib.Algebra.BigOperators.Group.Finset.Sigma
import Mathlib.Logic.Equiv.Fin.Basic
import proofs.«406337_j8349416423452_2_alg».proof.Proof.Spec
import proofs.«406337_j8349416423452_2_alg».proof.Proof.SpecFacts

noncomputable section

namespace Cert.Spec

open Idealize.ShloMosaic
open scoped BigOperators

/-! ## Sums of extended reals -/

/-- A finite sum of reals, taken in the extended reals, is the real sum. -/
theorem coe_sum {ι : Type*} (S : Finset ι) (f : ι → ℝ) :
    (∑ i ∈ S, ((f i : ℝ) : EReal)) = ((∑ i ∈ S, f i : ℝ) : EReal) := by
  classical
  induction S using Finset.induction_on with
  | empty => simp
  | insert a s ha ih => rw [Finset.sum_insert ha, Finset.sum_insert ha, ih, EReal.coe_add]

/-- Multiplying by a nonnegative real distributes over a sum of two extended reals. -/
theorem add_mul_coe (a b : EReal) (k : ℝ) (hk : 0 ≤ k) : (a + b) * (k : EReal) = a * (k : EReal) + b * (k : EReal) :=
  EReal.right_distrib_of_nonneg_of_ne_top (EReal.coe_nonneg.2 hk) (EReal.coe_ne_top k) a b

/-- Multiplying by a nonnegative real distributes over a finite sum of extended reals. -/
theorem sum_mul_coe {ι : Type*} (S : Finset ι) (f : ι → EReal) (k : ℝ) (hk : 0 ≤ k) :
    (∑ i ∈ S, f i * (k : EReal)) = (∑ i ∈ S, f i) * (k : EReal) := by
  classical
  induction S using Finset.induction_on with
  | empty => simp
  | insert a s ha ih => rw [Finset.sum_insert ha, Finset.sum_insert ha, ih, add_mul_coe _ _ k hk]

/-- The rows of one class: arbitrary entropy terms `A`, real entries `p`, a real logarithm `l` per column, and
    nonnegative real factors `k` (the mean over the columns) and `m` (the reciprocal of the count). -/
theorem regroup_real {J D : Type*} [Fintype D] (S : Finset J) (A : J → D → EReal) (p : J → D → ℝ) (l : D → ℝ)
    (k m : ℝ) (hk : 0 ≤ k) (hm : 0 ≤ m) :
    ∑ j ∈ S, ((∑ d, (A j d - (p j d : EReal) * (l d : EReal))) * (k : EReal)) * (m : EReal)
      = ((∑ j ∈ S, (∑ d, A j d) * (k : EReal))
          - (∑ d, (∑ j ∈ S, (p j d : EReal)) * (l d : EReal)) * (k : EReal)) * (m : EReal) := by
  have row : ∀ j, (∑ d, (A j d - (p j d : EReal) * (l d : EReal))) * (k : EReal)
      = (∑ d, A j d) * (k : EReal) + (((-(∑ d, p j d * l d)) * k : ℝ) : EReal) := by
    intro j
    have h : ∀ d, A j d - (p j d : EReal) * (l d : EReal) = A j d + ((-(p j d * l d) : ℝ) : EReal) := by
      intro d; rw [sub_eq_add_neg, EReal.coe_neg, EReal.coe_mul]
    simp only [h]
    rw [Finset.sum_add_distrib, coe_sum, add_mul_coe _ _ k hk, ← EReal.coe_mul, Finset.sum_neg_distrib]
  rw [sum_mul_coe _ _ m hm]
  congr 1
  simp only [row]
  rw [Finset.sum_add_distrib, coe_sum]
  have hr : (∑ d, (∑ j ∈ S, (p j d : EReal)) * (l d : EReal)) * (k : EReal)
      = (((∑ d, (∑ j ∈ S, p j d) * l d) * k : ℝ) : EReal) := by
    simp only [coe_sum, ← EReal.coe_mul]
  rw [hr, sub_eq_add_neg, ← EReal.coe_neg]
  congr 2
  rw [← Finset.sum_mul, Finset.sum_neg_distrib, neg_mul]
  congr 2
  simp only [Finset.sum_mul]
  exact Finset.sum_comm

/-! ## The joined array, block by block -/

/-- A sum over the joined rows is the sum over the argument rows of the three blocks' terms. -/
theorem sum_join {M : Type*} [AddCommMonoid M] (f : Fin 196608 → M) :
    ∑ j, f j = ∑ i : Fin 65536,
      ((f ⟨i.val, by omega⟩ + f ⟨i.val + 65536, by omega⟩) + f ⟨i.val + 131072, by omega⟩) := by
  have e : ∑ j : Fin 196608, f j = ∑ x : Fin 3 × Fin 65536, f (finProdFinEquiv x) :=
    (Equiv.sum_comp (finProdFinEquiv (m := 3) (n := 65536)) f).symm
  rw [e, Fintype.sum_prod_type, Fin.sum_univ_three, ← Finset.sum_add_distrib, ← Finset.sum_add_distrib]
  refine Finset.sum_congr rfl (fun i _ => ?_)
  have a0 : (finProdFinEquiv ((0 : Fin 3), i) : Fin 196608) = ⟨i.val, by omega⟩ := by
    apply Fin.ext; simp [finProdFinEquiv]
  have a1 : (finProdFinEquiv ((1 : Fin 3), i) : Fin 196608) = ⟨i.val + 65536, by omega⟩ := by
    apply Fin.ext; simp [finProdFinEquiv]
  have a2 : (finProdFinEquiv ((2 : Fin 3), i) : Fin 196608) = ⟨i.val + 131072, by omega⟩ := by
    apply Fin.ext; simp [finProdFinEquiv]
  rw [a0, a1, a2]

theorem rowOf3_b0 (i : Fin 65536) : rowOf3 ⟨i.val, by omega⟩ = i := by
  apply Fin.ext; simp only [rowOf3]; omega
theorem rowOf3_b1 (i : Fin 65536) : rowOf3 ⟨i.val + 65536, by omega⟩ = i := by
  apply Fin.ext; simp only [rowOf3]; omega
theorem rowOf3_b2 (i : Fin 65536) : rowOf3 ⟨i.val + 131072, by omega⟩ = i := by
  apply Fin.ext; simp only [rowOf3]; omega

theorem prob3_b0 (x0 x1 x2 : Rows) (i : Fin 65536) (d : Fin 256) :
    prob3 x0 x1 x2 ⟨i.val, by omega⟩ d = prob x0 i d := by
  unfold prob3; rw [rowOf3_b0]; simp only []; rw [if_pos i.isLt]
theorem prob3_b1 (x0 x1 x2 : Rows) (i : Fin 65536) (d : Fin 256) :
    prob3 x0 x1 x2 ⟨i.val + 65536, by omega⟩ d = prob x1 i d := by
  unfold prob3; rw [rowOf3_b1]; simp only []
  rw [if_neg (by omega), if_pos (by omega)]
theorem prob3_b2 (x0 x1 x2 : Rows) (i : Fin 65536) (d : Fin 256) :
    prob3 x0 x1 x2 ⟨i.val + 131072, by omega⟩ d = prob x2 i d := by
  unfold prob3; rw [rowOf3_b2]; simp only []
  rw [if_neg (by omega), if_neg (by omega)]

/-- A sum over the joined rows of one class is the sum over the argument rows of that class of the three blocks'
    terms. -/
theorem sum_cls (L : Labels) (c : ℕ) (g : Fin 196608 → EReal) :
    (∑ j, if cls3 L j = c then g j else 0) = ∑ i : Fin 65536,
      hot L i c * ((g ⟨i.val, by omega⟩ + g ⟨i.val + 65536, by omega⟩) + g ⟨i.val + 131072, by omega⟩) := by
  rw [sum_join]
  refine Finset.sum_congr rfl (fun i _ => ?_)
  simp only [cls3, rowOf3_b0, rowOf3_b1, rowOf3_b2, hot]
  by_cases h : (L i).toNat = c
  · simp only [h, if_true, one_mul]
  · simp only [h, if_false, zero_mul, add_zero]

/-! ## The reals among the statistics -/

/-- Division by a nonzero real is multiplication by its reciprocal. -/
theorem div_real (X : EReal) (r : ℝ) (hr : r ≠ 0) : Ideal.div X (r : EReal) = X * ((r⁻¹ : ℝ) : EReal) := by
  unfold Ideal.div
  rw [if_neg (by exact_mod_cast hr), EReal.coe_inv]

/-- The mean over the 256 columns is multiplication by the real `1/256`. -/
theorem div_c256 (X : EReal) : Ideal.div X c256 = X * (((256 : ℝ)⁻¹ : ℝ) : EReal) := by
  rw [c256_eq, div_real _ _ (by norm_num)]

/-- Row `i` has label `c`, as a real. -/
def hotR (L : Labels) (i : Fin 65536) (c : ℕ) : ℝ := if (L i).toNat = c then 1 else 0

/-- The number of argument rows of class `c`, as a real. -/
def numR (L : Labels) (c : ℕ) : ℝ := ∑ i : Fin 65536, hotR L i c

theorem hot_coe (L : Labels) (i : Fin 65536) (c : ℕ) : hot L i c = ((hotR L i c : ℝ) : EReal) := by
  unfold hot hotR; split_ifs <;> simp

theorem hotR_nonneg (L : Labels) (i : Fin 65536) (c : ℕ) : 0 ≤ hotR L i c := by
  unfold hotR; split_ifs <;> norm_num

theorem numR_nonneg (L : Labels) (c : ℕ) : 0 ≤ numR L c :=
  Finset.sum_nonneg (fun i _ => hotR_nonneg L i c)

/-- A class that has a row has at least one row. -/
theorem one_le_numR (L : Labels) (c : ℕ) (i0 : Fin 65536) (hi0 : (L i0).toNat = c) : 1 ≤ numR L c := by
  have h : hotR L i0 c ≤ numR L c :=
    Finset.single_le_sum (f := fun i => hotR L i c) (fun i _ => hotR_nonneg L i c) (Finset.mem_univ i0)
  have h1 : hotR L i0 c = 1 := by unfold hotR; rw [if_pos hi0]
  rw [h1] at h; exact h

theorem sum_hot (L : Labels) (c : ℕ) : (∑ i : Fin 65536, hot L i c) = ((numR L c : ℝ) : EReal) := by
  simp only [hot_coe]; rw [coe_sum]; rfl

/-- The class count is the real `3 ·` (number of rows of the class). -/
theorem cnt_coe (L : Labels) (c : ℕ) : cnt L c = ((numR L c * 3 : ℝ) : EReal) := by
  unfold cnt; rw [sum_hot, c3_eq, ← EReal.coe_mul]

/-- Counting the joined rows of a class gives the class count. -/
theorem cntR_eq (L : Labels) (c : ℕ) : cntR L c = cnt L c := by
  unfold cntR
  rw [sum_cls L c (fun _ => c1), cnt_coe, c1_eq]
  have h3 : ((1 : EReal) + 1) + 1 = ((3 : ℝ) : EReal) := by
    rw [← EReal.coe_one, ← EReal.coe_add, ← EReal.coe_add]; norm_num
  simp only [h3, hot_coe, ← EReal.coe_mul]
  rw [coe_sum, ← Finset.sum_mul]; rfl

/-- Summing the joined rows of a class gives the class's summed rows. -/
theorem segR_eq (x0 x1 x2 : Rows) (L : Labels) (c : ℕ) (d : Fin 256) :
    segR x0 x1 x2 L c d = seg x0 x1 x2 L c d := by
  unfold segR seg comb
  rw [sum_cls L c (fun j => prob3 x0 x1 x2 j d)]
  simp only [prob3_b0, prob3_b1, prob3_b2]

/-- The class's summed rows are real when the normalised entries are. -/
theorem seg_coe (x0 x1 x2 : Rows) (L : Labels) (c : ℕ) (d : Fin 256) (p0 p1 p2 : Fin 65536 → Fin 256 → ℝ)
    (hp0 : ∀ i d, prob x0 i d = ((p0 i d : ℝ) : EReal)) (hp1 : ∀ i d, prob x1 i d = ((p1 i d : ℝ) : EReal))
    (hp2 : ∀ i d, prob x2 i d = ((p2 i d : ℝ) : EReal)) :
    seg x0 x1 x2 L c d = ((∑ i : Fin 65536, hotR L i c * ((p0 i d + p1 i d) + p2 i d) : ℝ) : EReal) := by
  unfold seg comb
  simp only [hp0, hp1, hp2, hot_coe, ← EReal.coe_add, ← EReal.coe_mul]
  rw [coe_sum]

/-- The logarithm of a positive real is a real. -/
theorem log_pos_real (r : ℝ) (hr : 0 < r) : Ideal.log (r : EReal) = ((Real.log r : ℝ) : EReal) := by
  rw [Ideal.log_coe, if_neg (not_le.2 hr)]

/-- The larger of two reals, in the extended reals. -/
theorem coe_max_real (a b : ℝ) : max (a : EReal) (b : EReal) = ((max a b : ℝ) : EReal) :=
  (EReal.coe_strictMono.monotone.map_max).symm

/-! ## One class -/

/-- A class no row belongs to contributes nothing, row by row or from its (vanishing) statistics. -/
theorem class_empty (x0 x1 x2 : Rows) (L : Labels) (c : ℕ) (hc : ∀ i, (L i).toNat ≠ c) :
    (∑ j, if cls3 L j = c then rowR x0 x1 x2 L j else 0)
      = perClass (seg x0 x1 x2 L c) (cnt L c) (tsum x0 x1 x2 L c) := by
  have hh : ∀ i, hot L i c = 0 := fun i => by unfold hot; rw [if_neg (hc i)]
  have hl : (∑ j, if cls3 L j = c then rowR x0 x1 x2 L j else 0) = 0 := by
    apply Finset.sum_eq_zero; intro j _; rw [if_neg]; exact hc _
  have hs : seg x0 x1 x2 L c = fun _ => 0 := by
    funext d; unfold seg; simp only [hh, zero_mul, Finset.sum_const_zero]
  have hn : cnt L c = 0 := by unfold cnt; simp only [hh, Finset.sum_const_zero, zero_mul]
  have ht : tsum x0 x1 x2 L c = 0 := by unfold tsum; simp only [hh, zero_mul, Finset.sum_const_zero]
  rw [hl, hs, hn, ht]
  unfold perClass clampCnt
  rw [c1_eq, max_eq_right (zero_le_one), div_c256]
  simp only [zero_mul, Finset.sum_const_zero, sub_zero]
  unfold Ideal.div
  rw [if_neg one_ne_zero, zero_mul]

/-- A class whose count is a real `n ≥ 1`, whose joined entries are the reals `p3` and whose mean row has the real
    logarithm `l`: its rows add up to the contribution computed from its statistics. -/
theorem class_core (x0 x1 x2 : Rows) (L : Labels) (c : ℕ) (n : ℝ) (hn1 : 1 ≤ n) (hcnt : cnt L c = ((n : ℝ) : EReal))
    (p3 : Fin 196608 → Fin 256 → ℝ) (hp3 : ∀ j d, prob3 x0 x1 x2 j d = ((p3 j d : ℝ) : EReal))
    (l : Fin 256 → ℝ)
    (hl : ∀ d, Ideal.log (max eps7 (Ideal.div (seg x0 x1 x2 L c d) ((n : ℝ) : EReal))) = ((l d : ℝ) : EReal)) :
    (∑ j, if cls3 L j = c then rowR x0 x1 x2 L j else 0)
      = perClass (seg x0 x1 x2 L c) (cnt L c) (tsum x0 x1 x2 L c) := by
  have hn0 : n ≠ 0 := by linarith
  have hm : 0 ≤ n⁻¹ := inv_nonneg.2 (by linarith)
  have hk : (0 : ℝ) ≤ (256 : ℝ)⁻¹ := by norm_num
  have hcl : max ((n : ℝ) : EReal) c1 = ((n : ℝ) : EReal) := by
    rw [c1_eq, ← EReal.coe_one, coe_max_real, max_eq_left hn1]
  have hlm : ∀ d, logMixR x0 x1 x2 L c d = ((l d : ℝ) : EReal) := by
    intro d; unfold logMixR; rw [segR_eq, cntR_eq, hcnt, hcl, hl d]
  -- the row side, over the rows of the class
  have hL : (∑ j, if cls3 L j = c then rowR x0 x1 x2 L j else 0)
      = ∑ j ∈ Finset.univ.filter (fun j => cls3 L j = c),
          ((∑ d, (xlogx (prob3 x0 x1 x2 j d) - ((p3 j d : ℝ) : EReal) * ((l d : ℝ) : EReal)))
              * (((256 : ℝ)⁻¹ : ℝ) : EReal)) * ((n⁻¹ : ℝ) : EReal) := by
    rw [← Finset.sum_filter]
    refine Finset.sum_congr rfl (fun j hj => ?_)
    have hjc : cls3 L j = c := (Finset.mem_filter.1 hj).2
    have hd : ∀ d, xlogx (prob3 x0 x1 x2 j d) - prob3 x0 x1 x2 j d * logMixR x0 x1 x2 L c d
        = xlogx (prob3 x0 x1 x2 j d) - ((p3 j d : ℝ) : EReal) * ((l d : ℝ) : EReal) := by
      intro d; rw [hlm d, ← hp3 j d]
    unfold rowR
    rw [hjc, cntR_eq, hcnt, div_real _ _ hn0, div_c256]
    simp only [hd]
  -- the entropy terms of the class's rows
  have hT : (∑ j ∈ Finset.univ.filter (fun j => cls3 L j = c),
        (∑ d, xlogx (prob3 x0 x1 x2 j d)) * (((256 : ℝ)⁻¹ : ℝ) : EReal)) = tsum x0 x1 x2 L c := by
    rw [Finset.sum_filter, sum_cls L c (fun j => (∑ d, xlogx (prob3 x0 x1 x2 j d)) * (((256 : ℝ)⁻¹ : ℝ) : EReal))]
    unfold tsum ents ent
    simp only [prob3_b0, prob3_b1, prob3_b2, div_c256]
  -- the class's summed rows
  have hS : ∀ d, (∑ j ∈ Finset.univ.filter (fun j => cls3 L j = c), ((p3 j d : ℝ) : EReal))
      = seg x0 x1 x2 L c d := by
    intro d
    simp only [← hp3]
    rw [Finset.sum_filter]
    exact segR_eq x0 x1 x2 L c d
  have hmx : ∀ d, max (Ideal.div (seg x0 x1 x2 L c d) ((n : ℝ) : EReal)) eps7
      = max eps7 (Ideal.div (seg x0 x1 x2 L c d) ((n : ℝ) : EReal)) := fun d => max_comm _ _
  rw [hL, regroup_real _ _ _ _ _ _ hk hm, hT]
  simp only [hS]
  -- the class side
  unfold perClass clampCnt
  rw [hcnt, hcl, div_real _ _ hn0, div_c256]
  simp only [hmx, hl]

/-- A class that has a row: its rows add up to the contribution computed from its statistics. -/
theorem class_nonempty (x0 x1 x2 : Rows) (L : Labels) (c : ℕ) (p0 p1 p2 : Fin 65536 → Fin 256 → ℝ)
    (hp0 : ∀ i d, prob x0 i d = ((p0 i d : ℝ) : EReal)) (hp1 : ∀ i d, prob x1 i d = ((p1 i d : ℝ) : EReal))
    (hp2 : ∀ i d, prob x2 i d = ((p2 i d : ℝ) : EReal)) (i0 : Fin 65536) (hi0 : (L i0).toNat = c) :
    (∑ j, if cls3 L j = c then rowR x0 x1 x2 L j else 0)
      = perClass (seg x0 x1 x2 L c) (cnt L c) (tsum x0 x1 x2 L c) := by
  -- the count is a real, at least 3
  have hN : 1 ≤ numR L c := one_le_numR L c i0 hi0
  have hn1 : 1 ≤ numR L c * 3 := by linarith
  have hn0 : numR L c * 3 ≠ 0 := by linarith
  obtain ⟨e, he, heps⟩ := eps7_pos
  refine class_core x0 x1 x2 L c (numR L c * 3) hn1 (cnt_coe L c)
    (fun j d => if j.val < 65536 then p0 (rowOf3 j) d else if j.val < 131072 then p1 (rowOf3 j) d
      else p2 (rowOf3 j) d) ?_
    (fun d => Real.log (max e ((∑ i : Fin 65536, hotR L i c * ((p0 i d + p1 i d) + p2 i d)) * (numR L c * 3)⁻¹))) ?_
  · -- the joined normalised entries are reals
    intro j d; unfold prob3
    split_ifs
    · exact hp0 _ _
    · exact hp1 _ _
    · exact hp2 _ _
  · -- the mean row is a positive real (at least the lower bound), so its logarithm is a real
    intro d
    rw [seg_coe x0 x1 x2 L c d p0 p1 p2 hp0 hp1 hp2, div_real _ _ hn0, ← EReal.coe_mul, heps, coe_max_real,
      log_pos_real _ (lt_max_of_lt_left he)]

/-! ## The two losses -/

/-- The row sum grouped by class: every row's class is below 128. -/
theorem sum_rows_by_class (L : Labels) (hL : ∀ i, (L i).toNat < 80) (f : Fin 196608 → EReal) :
    (∑ j : Fin 196608, f j) = ∑ c : Fin 128, ∑ j : Fin 196608, if cls3 L j = c.val then f j else 0 := by
  rw [Finset.sum_comm]
  refine Finset.sum_congr rfl (fun j _ => ?_)
  have hj : cls3 L j < 128 := lt_trans (hL _) (by norm_num)
  have hiff : ∀ c : Fin 128, (cls3 L j = c.val) ↔ ((⟨cls3 L j, hj⟩ : Fin 128) = c) := fun c => by
    rw [Fin.ext_iff]
  simp only [hiff, Finset.sum_ite_eq, Finset.mem_univ, if_true]

theorem lossR_eq_lossC (x0 x1 x2 : Rows) (L : Labels)
    (h0 : ∀ i d, x0 i d ≠ ⊤ ∧ x0 i d ≠ ⊥) (h1 : ∀ i d, x1 i d ≠ ⊤ ∧ x1 i d ≠ ⊥) (h2 : ∀ i d, x2 i d ≠ ⊤ ∧ x2 i d ≠ ⊥)
    (hL : ∀ i, (L i).toNat < 80) : lossR x0 x1 x2 L = lossC x0 x1 x2 L := by
  choose p0 hp0 using fun i d => prob_real x0 h0 i d
  choose p1 hp1 using fun i d => prob_real x1 h1 i d
  choose p2 hp2 using fun i d => prob_real x2 h2 i d
  have key : (∑ j : Fin 196608, rowR x0 x1 x2 L j)
      = ∑ c : Fin 128, perClass (seg x0 x1 x2 L c.val) (cnt L c.val) (tsum x0 x1 x2 L c.val) := by
    rw [sum_rows_by_class L hL]
    refine Finset.sum_congr rfl (fun c _ => ?_)
    by_cases hc : ∃ i, (L i).toNat = c.val
    · obtain ⟨i0, hi0⟩ := hc
      exact class_nonempty x0 x1 x2 L c.val p0 p1 p2 hp0 hp1 hp2 i0 hi0
    · exact class_empty x0 x1 x2 L c.val (fun i h => hc ⟨i, h⟩)
  unfold lossR lossC
  rw [key]

end Cert.Spec

end
-- ==== Proof.Nested.lean ====
/-
  The loss with its class statistics summed core by core, step by step and row by row is the loss with them summed
  over all rows at once: the rows of 2 cores of 32 steps of 1024 rows are all the 65536 rows, each once, and the count's
  factor comes out of a sum of nonnegative terms.
-/
import proofs.«406337_j8349416423452_2_alg».proof.Proof.Spec
import Mathlib.Algebra.BigOperators.Fin
import Mathlib.Data.Fintype.BigOperators
import Mathlib.Logic.Equiv.Fin.Basic
import Mathlib.Data.EReal.Operations

noncomputable section

namespace Cert.Spec

open Idealize.ShloMosaic
open scoped BigOperators

/-- Core, step and row number every row exactly once: a sum over cores, steps and rows of a function of the row
    is the sum over all rows. -/
private theorem sum_rowOf {M : Type*} [AddCommMonoid M] (f : Fin 65536 → M) :
    ∑ k : Fin 2, ∑ s : Fin 32, ∑ r : Fin 1024, f (rowOf k s r) = ∑ i : Fin 65536, f i := by
  -- the pairing ((k, s), r) ↦ r + 1024 · (s + 32 · k) is a bijection onto the 65536 rows
  let e : (Fin 2 × Fin 32) × Fin 1024 ≃ Fin 65536 :=
    (finProdFinEquiv.prodCongr (Equiv.refl _)).trans finProdFinEquiv
  have he : ∀ k s r, rowOf k s r = e ((k, s), r) := by
    intro k s r
    apply Fin.ext
    simp [e, rowOf, finProdFinEquiv]
    omega
  rw [← Fintype.sum_equiv e (fun p => f (rowOf p.1.1 p.1.2 p.2)) f (fun p => by rw [he])]
  rw [Fintype.sum_prod_type, Fintype.sum_prod_type]

/-- A label indicator is nonnegative. -/
private theorem hot_nonneg (L : Labels) (i : Fin 65536) (c : ℕ) : 0 ≤ hot L i c := by
  unfold hot
  split_ifs
  · exact zero_le_one
  · exact le_refl 0

/-- The summed rows of a class, core by core, are its summed rows. -/
private theorem sum_segPC (x0 x1 x2 : Rows) (L : Labels) (c : ℕ) (d : Fin 256) :
    ∑ k : Fin 2, segPC x0 x1 x2 L k c d = seg x0 x1 x2 L c d := by
  unfold segPC seg
  exact sum_rowOf (fun i => hot L i c * comb x0 x1 x2 i d)

/-- The summed entropy terms of a class, core by core, are its summed entropy terms. -/
private theorem sum_tPC (x0 x1 x2 : Rows) (L : Labels) (c : ℕ) :
    ∑ k : Fin 2, tPC x0 x1 x2 L k c = tsum x0 x1 x2 L c := by
  unfold tPC tsum
  exact sum_rowOf (fun i => hot L i c * ents x0 x1 x2 i)

/-- The counts of a class, core by core, add to its count: each core's number of rows is nonnegative, so the common
    factor comes out of the sum of the two. -/
private theorem sum_cntPC (L : Labels) (c : ℕ) : ∑ k : Fin 2, cntPC L k c = cnt L c := by
  have hnn : ∀ k : Fin 2, 0 ≤ ∑ s : Fin 32, ∑ r : Fin 1024, hot L (rowOf k s r) c := fun k =>
    Finset.sum_nonneg (fun s _ => Finset.sum_nonneg (fun r _ => hot_nonneg L _ c))
  unfold cntPC cnt
  rw [Fin.sum_univ_two, ← EReal.right_distrib_of_nonneg (hnn 0) (hnn 1), ← Fin.sum_univ_two
    (f := fun k : Fin 2 => ∑ s : Fin 32, ∑ r : Fin 1024, hot L (rowOf k s r) c)]
  rw [sum_rowOf (fun i => hot L i c)]

/-- The two ways of summing the class statistics give the same loss. -/
theorem lossK_eq_lossC (x0 x1 x2 : Rows) (L : Labels) : lossK x0 x1 x2 L = lossC x0 x1 x2 L := by
  unfold lossK lossC
  refine congrArg (fun t => wgt * t) (Finset.sum_congr rfl (fun c _ => ?_))
  have hs : (fun d => ∑ k : Fin 2, segPC x0 x1 x2 L k c.val d) = seg x0 x1 x2 L c.val :=
    funext (fun d => sum_segPC x0 x1 x2 L c.val d)
  rw [hs, sum_cntPC, sum_tPC]

end Cert.Spec

end
-- ==== Proof.PreFacts.lean ====
/-
  The printed precondition, decoded: from "the predicate evaluates to true" to the four facts it states of the inputs:
  every entry of the three float arrays is a real number (neither infinity), and every label is below 80.
-/
import proofs.«406337_j8349416423452_2_alg».proof.Pre_finite_inputs
import Idealize.ShloMosaic.Lib.ReduceAll
import Idealize.ShloMosaic.Lib.ValueIdx
import Idealize.ShloMosaic.PureOps.Ideal

namespace Cert.PreFacts

open Idealize.ShloMosaic
open Cert.Pre_finite_inputs

/-- The scalar shape has one index. -/
instance : Subsingleton S_.Idx := ⟨fun a b => funext fun d => d.elim0⟩

/-- The pattern 0x7F800000 denotes +∞. -/
theorem inf_eq_top : Ideal.ofBits .f32 0x7F800000#32 = (⊤ : EReal) := by
  simp [Ideal.ofBits, Ideal.ieee]

/-- An extended real whose absolute value max x (−x) is strictly below +∞ is neither infinity. -/
theorem finite_of_abs_lt (x : EReal)
    (h : Ideal.cmp .olt (max x (-x)) (Ideal.ofBits .f32 0x7F800000#32) = 1#1) : x ≠ ⊤ ∧ x ≠ ⊥ := by
  rw [inf_eq_top] at h
  induction x using EReal.rec with
  | bot => simp [Ideal.cmp] at h
  | top => simp [Ideal.cmp] at h
  | coe r => exact ⟨EReal.coe_ne_top r, EReal.coe_ne_bot r⟩

/-- One float conjunct: an all-reduction of |x| < +∞ that is true gives finiteness of every entry. -/
theorem finite_of_all [Facts] (a : FVec Ideal S65536x256 .f32)
    (h : Host.reduce IntOp.andi
        (cmpf .olt (Host.absf a) (broadcastInDim S65536x256 ![] Facts.bcast_S_S65536x256 (constant S_ .f32 0x7F800000#32)))
        (constantI S_ 1 1#1) Facts.reducesTo_S65536x256_S_d0_1 Facts.h_S_ ValueIdx.ix0 = 1#1)
    (i : Fin 65536) (d : Fin 256) : a (ValueIdx.ix2 i d) ≠ ⊤ ∧ a (ValueIdx.ix2 i d) ≠ ⊥ :=
  finite_of_abs_lt _ (Host.reduce_andi_all _ _ _ _ _ h (ValueIdx.ix2 i d))

/-- A 32-bit word that is signed-nonnegative and signed-below 80 is below 80 as a natural number. -/
theorem toNat_lt_of_signed (x : BitVec 32) (h0 : (0#32).toInt ≤ x.toInt) (h1 : x.toInt < (80#32).toInt) : x.toNat < 80 := by
  have e0 : (0#32).toInt = 0 := by decide
  have e1 : (80#32).toInt = 80 := by decide
  rw [e0] at h0; rw [e1] at h1
  rw [BitVec.toInt_eq_toNat_cond] at h0 h1
  split at h0 <;> omega

theorem of_pre [Facts] (a0 a1 a2 : FVec Ideal S65536x256 .f32) (a3 : IVec S65536 32)
    (h : fn (F := Ideal) a0 a1 a2 a3 = fun _ => 1#1) :
    (∀ (i : Fin 65536) (d : Fin 256), a0 (ValueIdx.ix2 i d) ≠ ⊤ ∧ a0 (ValueIdx.ix2 i d) ≠ ⊥)
      ∧ (∀ i d, a1 (ValueIdx.ix2 i d) ≠ ⊤ ∧ a1 (ValueIdx.ix2 i d) ≠ ⊥)
      ∧ (∀ i d, a2 (ValueIdx.ix2 i d) ≠ ⊤ ∧ a2 (ValueIdx.ix2 i d) ≠ ⊥)
      ∧ (∀ i : Fin 65536, (a3 (ValueIdx.ix1 i)).toNat < 80) := by
  have h0 := congrFun h ValueIdx.ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  refine ⟨finite_of_all a0 h0', finite_of_all a1 h1, finite_of_all a2 h2, fun i => ?_⟩
  have hi := Host.reduce_andi_all _ _ _ _ _ h3 (ValueIdx.ix1 i)
  obtain ⟨hge, hlt⟩ := IntOp.andi_eq_one.1 hi
  exact toNat_lt_of_signed _ (IntOp.cmpi_sge.1 hge) (IntOp.cmpi_slt.1 hlt)

end Cert.PreFacts
-- ==== Proof.lean ====
/-
  The kernel and the reference compute one number, the supervised Jensen–Shannon loss of three row blocks grouped by
  an integer label: every row is L2-normalised; for a class `c` let `seg_c` be the sum of its normalised rows over the
  three blocks, `n_c` three times its number of rows and `t_c` the sum of its rows' entropy terms (the mean over the
  columns of `p log p`); the loss is a fixed weight times the sum over the classes of
  `(t_c - mean_d (seg_c,d · log (max (seg_c,d / max n_c 1) ε))) / max n_c 1`.

  The kernel accumulates the three statistics core by core and step by step (a one-hot matrix product for `seg`), and a
  few host operations form the class contributions; the reference scatters the rows into their classes, gathers each
  row's class mean back, and sums, row by row, `(mean_d (p log p - p · log mix)) / n`.  Over the extended reals the two
  agree because the logarithm of a class's mean is the same finite number for every row of the class, so the cross
  term of a class is linear in its rows and folds into `seg_c` times that logarithm; regrouping the row sum by class
  uses only that extended-real addition is commutative and associative and that multiplying by a nonnegative real
  distributes over sums, which is why the entropy terms themselves may be infinite (a negative entry under the
  logarithm) without harm.  The labels must lie in the reference's class range `[0, 80)`: the statement's precondition
  says so, next to the finiteness of the three float arrays, which makes every normalised entry a finite number.

  `frame_Kernel` and `frame_KernelIdeal` are the generated frame certificates; `frame_ReferenceIdeal` is the reference's
  generated run with its result dropped; the idealization rewrote nothing, so `preserves` is trivial; `algebraic` joins
  the kernel's run read as the loss with the statistics summed in the kernel's order (`KV.run`), the reference's result
  read as the row-by-row form (`RefValue.result_eq`), and the two regroupings to the form that sums each statistic over
  all rows at once (`Spec.lossR_eq_lossC`, `Spec.lossK_eq_lossC`).
-/
import proofs.«406337_j8349416423452_2_alg».proof.Defs
import proofs.«406337_j8349416423452_2_alg».proof.Proof.Gen.Kernel
import proofs.«406337_j8349416423452_2_alg».proof.Proof.Gen.Kernel.Skeleton
import proofs.«406337_j8349416423452_2_alg».proof.Proof.Gen.Kernel.Launch
import proofs.«406337_j8349416423452_2_alg».proof.Proof.Gen.Kernel.Points
import proofs.«406337_j8349416423452_2_alg».proof.Proof.Gen.Kernel.Frame
import proofs.«406337_j8349416423452_2_alg».proof.Proof.Gen.KernelIdeal
import proofs.«406337_j8349416423452_2_alg».proof.Proof.Gen.KernelIdeal.Skeleton
import proofs.«406337_j8349416423452_2_alg».proof.Proof.Gen.KernelIdeal.Launch
import proofs.«406337_j8349416423452_2_alg».proof.Proof.Gen.KernelIdeal.Points
import proofs.«406337_j8349416423452_2_alg».proof.Proof.Gen.KernelIdeal.Frame
import proofs.«406337_j8349416423452_2_alg».proof.Proof.Gen.ReferenceIdeal
import proofs.«406337_j8349416423452_2_alg».proof.Proof.Gen.ReferenceIdeal.Run
import proofs.«406337_j8349416423452_2_alg».proof.Proof.Gen.ReferenceIdeal.Read
import proofs.«406337_j8349416423452_2_alg».proof.Proof.Gen.Pre_finite_inputs
import proofs.«406337_j8349416423452_2_alg».proof.Proof.KTail
import proofs.«406337_j8349416423452_2_alg».proof.Proof.RefValue
import proofs.«406337_j8349416423452_2_alg».proof.Proof.Regroup
import proofs.«406337_j8349416423452_2_alg».proof.Proof.Nested
import proofs.«406337_j8349416423452_2_alg».proof.Proof.PreFacts
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the loss of the argument arrays: the kernel's in the order it sums the statistics, the
    reference's row by row; under the precondition (finite entries, labels in the class range) the two forms are equal. -/
theorem algebraic : Cert.algebraic_KernelIdeal_ReferenceIdeal := by
  intro m ρ m' ρ' hpre hagree
  refine ⟨fun c => (fun _ => Spec.lossK (Cert.KernelIdeal.KV.X0 m c) (Cert.KernelIdeal.KV.X1 m c)
    (Cert.KernelIdeal.KV.X2 m c) (Cert.KernelIdeal.KV.LB m c)), Cert.KernelIdeal.KV.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, hL⟩ := Cert.PreFacts.of_pre _ _ _ _ (hpre c)
  rw [Cert.ReferenceIdeal.Read.val_main_v69_eq, (hagree c).1, (hagree c).2.1, (hagree c).2.2.1, (hagree c).2.2.2]
  rw [Cert.RefValue.result_eq _ _ _ _ hL]
  funext _
  exact (Cert.Spec.lossR_eq_lossC _ _ _ _ h0 h1 h2 hL).trans (Cert.Spec.lossK_eq_lossC _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
